-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x64 .f32) (main_arg8 : FVec F S64 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S128x256 : Shape := ⟨2, ![128, 256]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩
abbrev S1x1 : Shape := ⟨2, ![1, 1]⟩
abbrev S512x1 : Shape := ⟨2, ![512, 1]⟩
abbrev S2000x64 : Shape := ⟨2, ![2000, 64]⟩
abbrev S2000x1 : Shape := ⟨2, ![2000, 1]⟩
abbrev S512x64 : Shape := ⟨2, ![512, 64]⟩
abbrev S2000x512 : Shape := ⟨2, ![2000, 512]⟩
abbrev S512 : Shape := ⟨1, ![512]⟩

abbrev nBuf : Space → Nat
  | .hbm => 81
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x1, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S128x256, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S1x64, .f32⟩
  | .hbm, ⟨78, _⟩ => ⟨S1x1, .f32⟩
  | .hbm, ⟨79, _⟩ => ⟨S512x1, .f32⟩
  | .hbm, ⟨80, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x256, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x1, .f32⟩
  | .local _ .vmem, ⟨16, _⟩ => ⟨S5000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S1x64, .f32⟩
  | .local _ .vmem, ⟨29, _⟩ => ⟨S2000x1, .f32⟩
  | .local _ .vmem, ⟨30, _⟩ => ⟨S2000x1, .f32⟩
  | .local _ .vmem, ⟨31, _⟩ => ⟨S2000x1, .i32⟩
  | .local _ .vmem, ⟨32, _⟩ => ⟨S2000x1, .i32⟩
  | .local _ .vmem, ⟨33, _⟩ => ⟨S64x1, .f32⟩
  | .local _ .vmem, ⟨34, _⟩ => ⟨S1x1, .f32⟩
  | .local _ .vmem, ⟨35, _⟩ => ⟨S512x1, .f32⟩
  | .local _ .vmem, ⟨36, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34_0 : Ref sig .tc := ⟨.hbm, 62, rfl⟩
abbrev main_v34_1 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem6_0 : DmaSem sig := 34
abbrev cc2_sem7_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_14 : BitVec 32 := 0#32
  let v31 : BitVec 1 := Scalar.cmpi .ne v30 c0_i32_14
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S128x128_S128x128_S128x256_d1 : Shape.Concatenates [S128x128, S128x128] S128x256 1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  slices_S5000x256_o0_0_S5000x128 : S5000x256.Slices ![0, 0] S5000x128
  slices_S5000x256_o0_128_S5000x128 : S5000x256.Slices ![0, 128] S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000x64 : S_.BroadcastsInDim S50000x64 (![] : Fin 0 → Fin S50000x64.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  broadcasts_S1x64_S2000x64 : S1x64.Broadcasts S2000x64
  iota_S2000x512_d1_w32 : S2000x512.Iotas .tc 32 [1]
  broadcasts_S2000x1_S2000x512 : S2000x1.Broadcasts S2000x512
  natLt_1_32 : 1 < 32
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x512_S2000x64_S512x64_0_0_1_1_n_n_wf : DotDims.WF S2000x512 S2000x64 S512x64 [0] [0] [1] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .i32 = 32 ∨ (Rect.block (s := S50000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v34_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34_1) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S512x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S512x64 : Shape := ⟨2, ![512, 64]⟩
abbrev S50000x1 : Shape := ⟨2, ![50000, 1]⟩
abbrev S512x1 : Shape := ⟨2, ![512, 1]⟩
abbrev S1x1 : Shape := ⟨2, ![1, 1]⟩
abbrev S512 : Shape := ⟨1, ![512]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x800000, .i32⟩
  | 89 => ⟨S800000, .i32⟩
  | 90 => ⟨S1x800000, .i32⟩
  | 91 => ⟨S800000, .i32⟩
  | 92 => ⟨S50000x64, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .i1⟩
  | 102 => ⟨S_, .f32⟩
  | 103 => ⟨S50000, .f32⟩
  | 104 => ⟨S50000, .i1⟩
  | 105 => ⟨S_, .f32⟩
  | 106 => ⟨S_, .f32⟩
  | 107 => ⟨S50000, .f32⟩
  | 108 => ⟨S50000, .f32⟩
  | 109 => ⟨S50000, .f32⟩
  | 110 => ⟨S_, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S800000x1, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S1x64, .f32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S_, .f32⟩
  | 33 => ⟨S512x64, .f32⟩
  | 34 => ⟨S50000x1, .i32⟩
  | 35 => ⟨S512x64, .f32⟩
  | 36 => ⟨S_, .f32⟩
  | 37 => ⟨S512x64, .f32⟩
  | 38 => ⟨S512x64, .f32⟩
  | 39 => ⟨S512x1, .f32⟩
  | 40 => ⟨S1x1, .f32⟩
  | 41 => ⟨S512x1, .f32⟩
  | 42 => ⟨S512x1, .f32⟩
  | 43 => ⟨S512, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_c_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_cst : Ref sig .tc := ⟨.hbm, 85, rfl⟩
abbrev main_call2_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_call3_v0 : Ref sig .tc := ⟨.hbm, 106, rfl⟩
abbrev main_call3_v1 : Ref sig .tc := ⟨.hbm, 107, rfl⟩
abbrev main_v68 : Ref sig .tc := ⟨.hbm, 108, rfl⟩
abbrev main_v69 : Ref sig .tc := ⟨.hbm, 109, rfl⟩
abbrev main_cst_17 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_call4_v0 : Ref sig .tc := ⟨.hbm, 114, rfl⟩
abbrev main_call4_v1 : Ref sig .tc := ⟨.hbm, 115, rfl⟩
abbrev main_v72 : Ref sig .tc := ⟨.hbm, 116, rfl⟩
abbrev main_c_19 : Ref sig .tc := ⟨.hbm, 117, rfl⟩
abbrev main_v73 : Ref sig .tc := ⟨.hbm, 118, rfl⟩
abbrev main_v74 : Ref sig .tc := ⟨.hbm, 119, rfl⟩
abbrev main_c_20 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_21 : Ref sig .tc := ⟨.hbm, 126, rfl⟩
abbrev main_v80 : Ref sig .tc := ⟨.hbm, 127, rfl⟩
abbrev main_v81 : Ref sig .tc := ⟨.hbm, 128, rfl⟩
abbrev main_c_22 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_c_23 : Ref sig .tc := ⟨.hbm, 137, rfl⟩
abbrev main_v89 : Ref sig .tc := ⟨.hbm, 138, rfl⟩
abbrev main_v90 : Ref sig .tc := ⟨.hbm, 139, rfl⟩
abbrev main_c_24 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_25 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_26 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_call5_cst : Ref sig .tc := ⟨.hbm, 164, rfl⟩
abbrev main_call5_v0 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x1_S512x1_1_0_0_1_n_n_wf : DotDims.WF S512x64 S64x1 S512x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KiRegion0.lean ====
/- REGION 0 of @main (custom_call 0, the layer-1 projection kernel over a grid of 10 row blocks), at the
   region-entry contents `V`, at any float family: each window's block at a point, what the body leaves in
   its two output buffers as a function of the input blocks, the body's triple, the pipeline's proof data
   and the body obligation. -/
import proofs.«422353_j75677323755530_3_alg».proof.Proof.Gen.KernelIdeal.Launch
import proofs.«422353_j75677323755530_3_alg».proof.Proof.Gen.KernelIdeal.Skeleton
import proofs.«422353_j75677323755530_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is `V`'s and whose body leaves the block in place: unfetched, the block index has
    not moved. Window 0 (the node features' row block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the degree scale's row block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the fused weight matrix, one block, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (the skip bias row, one block, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S5000x128 := Rect.unit (s := S5000x128) ![0, 0] S5000x128.size inb_S5000x128_S5000x128_0_0
abbrev rD : Rect S5000x1 := Rect.unit (s := S5000x1) ![0, 0] S5000x1.size inb_S5000x1_S5000x1_0_0
abbrev rW : Rect S128x256 := Rect.unit (s := S128x256) ![0, 0] S128x256.size inb_S128x256_S128x256_0_0
abbrev rB : Rect S1x128 := Rect.unit (s := S1x128) ![0, 0] S1x128.size inb_S1x128_S1x128_0_0

/-! ## What the body leaves in each output window's buffer -/

/-- Window 4's staging buffer after the body, from the input blocks: its one whole-buffer store, of the left half
    of the product of the features' block with the weights, scaled row by row by the degree scale. -/
def out0_4 (x0 : Vec F S5000x128 .f32) (x1 : Vec F S5000x1 .f32) (x2 : Vec F S128x256 .f32) : Vec F S5000x128 .f32 :=
  View.canon [⟨rX, k0_pay2 (View.ld x0 rX) (View.ld x2 rW) (View.ld x1 rD)⟩]

/-- Window 5's staging buffer after the body: its one whole-buffer store, of the right half of the same product
    plus the bias row. -/
def out0_5 (x0 : Vec F S5000x128 .f32) (x2 : Vec F S128x256 .f32) (x3 : Vec F S1x128 .f32) : Vec F S5000x128 .f32 :=
  View.canon [⟨rX, k0_pay3 (View.ld x0 rX) (View.ld x2 rW) (View.ld x3 rB)⟩]

/-- One whole-buffer store tiles the buffer, so it covers it. -/
theorem cover0_X (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x256 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x128 .f32) (x1 : Vec F S5000x1 .f32) (x2 : Vec F S128x256 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x2 x3)) -∗ K ⟨⟩))
      ⊢ wp frame (wpE (defs₀ (F := F)) Variants.none c none) E (cc0__proj1_kernel i arg1 harg1 arg2 harg2 arg3 harg3 arg4 harg4 arg5 harg5 arg6 harg6) K := by
  simp only [cc0__proj1_kernel_eq_skeleton]; unfold cc0__proj1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_X _)
  iexists _; isplitr
  swap; · iexact H5
  ipureintro
  exact View.read_writes_eq_canon _ _ _ (cover0_X _)

/-! ## The pipeline's proof data -/

/-- The proof data of pipeline 0 on core `c`: the arrays as the region finds them (`V`); after the body at point
    `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KiRegion1.lean ====
import proofs.«422353_j75677323755530_3_alg».proof.Proof.Gen.KernelIdeal.Launch
import proofs.«422353_j75677323755530_3_alg».proof.Proof.Gen.KernelIdeal.Skeleton
import proofs.«422353_j75677323755530_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the first layer's combine and the second layer's projections

One grid point handles 5000 node rows. With `d` the degree-scale column, `agg` the aggregated messages, `skip` the
skip term and `b` the bias row, the body forms the hidden rows `h = max (d · agg + skip + b) 0`, then writes
`(h ⬝ W2) · d` to the first output block and `h ⬝ L2 + c2` to the second. Every window is read or written whole,
so each output block after the body is one whole-block store over the blocks the inputs hold. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when region 1 is entered
variable (V : (c : Dev nD) → (b : Ref sig .tc) → Buf (Elt F) ((c : Thread nD τ).loc b))

/-! ## The blocks the windows hold -/

/-- The block of window `w` at grid point `t`: the window's rectangle at that point read out of the window's array
    as the region finds it. For the row-blocked windows this is rows `5000·t … 5000·t + 4999`; for the bias rows and
    the two weight matrices it is the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (agg1 block): whatever proof data has `V`'s array there and a body that leaves the block in
    place, the current staging buffer holds the block of the point — at a point with no fetch the block index has not
    moved since the last fetch, so the buffer still holds this point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (skip1 block): whatever proof data has `V`'s array there and a body that leaves the block in
    place, the current staging buffer holds the block of the point — at a point with no fetch the block index has not
    moved since the last fetch, so the buffer still holds this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (b1 row): whatever proof data has `V`'s array there and a body that leaves the block in
    place, the current staging buffer holds the block of the point — at a point with no fetch the block index has not
    moved since the last fetch, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (degree-scale column): whatever proof data has `V`'s array there and a body that leaves the block in
    place, the current staging buffer holds the block of the point — at a point with no fetch the block index has not
    moved since the last fetch, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (W2): whatever proof data has `V`'s array there and a body that leaves the block in
    place, the current staging buffer holds the block of the point — at a point with no fetch the block index has not
    moved since the last fetch, so the buffer still holds this point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (L2): whatever proof data has `V`'s array there and a body that leaves the block in
    place, the current staging buffer holds the block of the point — at a point with no fetch the block index has not
    moved since the last fetch, so the buffer still holds this point's block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (c2 row): whatever proof data has `V`'s array there and a body that leaves the block in
    place, the current staging buffer holds the block of the point — at a point with no fetch the block index has not
    moved since the last fetch, so the buffer still holds this point's block. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: every load and store is of a whole block -/

abbrev rNodes128 : Rect S5000x128 := Rect.unit (s := S5000x128) ![0, 0] S5000x128.size inb_S5000x128_S5000x128_0_0
abbrev rRow128 : Rect S1x128 := Rect.unit (s := S1x128) ![0, 0] S1x128.size inb_S1x128_S1x128_0_0
abbrev rNodes1 : Rect S5000x1 := Rect.unit (s := S5000x1) ![0, 0] S5000x1.size inb_S5000x1_S5000x1_0_0
abbrev rWeights : Rect S128x64 := Rect.unit (s := S128x64) ![0, 0] S128x64.size inb_S128x64_S128x64_0_0
abbrev rRow64 : Rect S1x64 := Rect.unit (s := S1x64) ![0, 0] S1x64.size inb_S1x64_S1x64_0_0
abbrev rNodes64 : Rect S5000x64 := Rect.unit (s := S5000x64) ![0, 0] S5000x64.size inb_S5000x64_S5000x64_0_0

/-! ## What the body leaves in the two output blocks -/

/-- The first output block after the body, from the input blocks `x0` (agg), `x1` (skip), `x2` (bias row), `x3`
    (degree-scale column), `x4` (W2): the one whole-block store of `(max (d·agg + skip + b) 0 ⬝ W2) · d`. -/
def out1_7 (x0 x1 : Vec F S5000x128 .f32) (x2 : Vec F S1x128 .f32) (x3 : Vec F S5000x1 .f32) (x4 : Vec F S128x64 .f32) : Vec F S5000x64 .f32 :=
  View.canon [⟨rNodes64, k1_pay3 (View.ld x3 rNodes1) (View.ld x0 rNodes128) (View.ld x1 rNodes128) (View.ld x2 rRow128) (View.ld x4 rWeights)⟩]

/-- The second output block after the body, from `x0` (agg), `x1` (skip), `x2` (bias row), `x3` (degree-scale
    column), `x5` (L2), `x6` (the second bias row): the one whole-block store of `max (d·agg + skip + b) 0 ⬝ L2 + c2`. -/
def out1_8 (x0 x1 : Vec F S5000x128 .f32) (x2 : Vec F S1x128 .f32) (x3 : Vec F S5000x1 .f32) (x5 : Vec F S128x64 .f32) (x6 : Vec F S1x64 .f32) : Vec F S5000x64 .f32 :=
  View.canon [⟨rNodes64, k1_pay4 (View.ld x3 rNodes1) (View.ld x0 rNodes128) (View.ld x1 rNodes128) (View.ld x2 rRow128) (View.ld x5 rWeights) (View.ld x6 rRow64)⟩]

/-- A single whole-block store covers the output block: the store's rectangle is the block itself. -/
theorem cover1_out (p0 : Vec F S5000x64 .f32) (y : S5000x64.Idx) :
    ∃ pc ∈ ([⟨rNodes64, p0⟩] : List (View.Piece (Elt F) S5000x64 .f32)), y ∈ pc.1.set :=
  View.cover_of_tiled [⟨rNodes64, p0⟩] S5000x64.size (by rfl) y

/-! ## The body's triple -/

set_option maxHeartbeats 1000000 in
/-- The body on whole staging memrefs — the seven inputs' holding `x0 … x6`, the two outputs' anything — runs to a
    state where the inputs' hold what they held and the outputs' hold `out1_7` and `out1_8` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x128 .f32) (x1 : Vec F S5000x128 .f32) (x2 : Vec F S1x128 .f32) (x3 : Vec F S5000x1 .f32) (x4 : Vec F S128x64 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4) ∗ owns (c : Thread nD τ) arg9 fullShare (out1_8 x0 x1 x2 x3 x5 x6)) -∗ K ⟨⟩))
      ⊢ wp frame (wpE (defs₀ (F := F)) Variants.none c none) E (cc1__combine1_proj2_kernel i arg1 harg1 arg2 harg2 arg3 harg3 arg4 harg4 arg5 harg5 arg6 harg6 arg7 harg7 arg8 harg8 arg9 harg9) K := by
  simp only [cc1__combine1_proj2_kernel_eq_skeleton]; unfold cc1__combine1_proj2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_out _)
  iexists _; isplitr
  swap; · iexact H8
  ipureintro
  exact View.read_writes_eq_canon _ _ _ (cover1_out _)

/-! ## The pipeline's proof data -/

/-- Region 1's proof data on core `c`: every array as the region finds it; after the body at point `t` each input's
    staging buffer still holds its block and the two outputs' hold `out1_7` / `out1_8` of the input blocks; the
    invariant carries the scoped rest and the generator register untouched; nothing is owed; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 3 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KiRegion2.lean ====
import proofs.«422353_j75677323755530_3_alg».proof.Proof.Gen.KernelIdeal.Launch
import proofs.«422353_j75677323755530_3_alg».proof.Proof.Gen.KernelIdeal.Skeleton
import proofs.«422353_j75677323755530_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: the pooling accumulator carried over the 25 grid points, and the head applied at the last

The third kernel adds, at every grid point, one block's contribution to a 512×64 accumulator kept in a scratch
buffer (reset to zeros at the first point), and at the last point stores the head's 512×1 result from the
accumulator. This module states what the accumulator holds after each point, what the output's buffer holds after
the last, the region's invariant carrying the accumulator between points, and the body's triple at every point. -/

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev r2_col : Rect S2000x1 := Rect.unit (s := S2000x1) ![0, 0] S2000x1.size inb_S2000x1_S2000x1_0_0
abbrev r2_blk : Rect S2000x64 := Rect.unit (s := S2000x64) ![0, 0] S2000x64.size inb_S2000x64_S2000x64_0_0
abbrev r2_row : Rect S1x64 := Rect.unit (s := S1x64) ![0, 0] S1x64.size inb_S1x64_S1x64_0_0
abbrev r2_acc : Rect S512x64 := Rect.unit (s := S512x64) ![0, 0] S512x64.size inb_S512x64_S512x64_0_0
abbrev r2_wh : Rect S64x1 := Rect.unit (s := S64x1) ![0, 0] S64x1.size inb_S64x1_S64x1_0_0
abbrev r2_bh : Rect S1x1 := Rect.unit (s := S1x1) ![0, 0] S1x1.size inb_S1x1_S1x1_0_0
abbrev r2_out : Rect S512x1 := Rect.unit (s := S512x1) ![0, 0] S512x1.size inb_S512x1_S512x1_0_0

/-- The offsets of every access are zero. -/
theorem hz2 : (![0, 0] : Fin 2 → Nat) = fun _ => 0 := by
  funext a; fin_cases a <;> rfl

/-! ## The accumulator, point by point -/

/-- The grid point numbered `n` (the numbering taken modulo the grid's 25 points, so that it is total). -/
def pt2 (n : ℕ) : Fin cfg2.N := ⟨n % 25, Nat.lt_of_lt_of_eq (Nat.mod_lt n (by decide)) N_2.symm⟩

theorem pt2_val (t : Fin cfg2.N) : pt2 t.val = t :=
  Fin.ext (Nat.mod_eq_of_lt (Nat.lt_of_lt_of_eq t.isLt N_2))

/-- What the scratch accumulator holds after the first `n` points: zeros before any point; after point `t` the
    body's update of what it held before the point (the zeros it was reset to, at the first point) by the point's
    five input blocks — the degree scale, the aggregate, the skip term, the bias row and the group words. -/
def acc2 (c : Dev nD) : ℕ → Vec F S512x64 .f32
  | 0 => k2_pay1
  | t + 1 => k2_pay2 (View.ld (iblk2 V c 3 (pt2 t)) r2_col) (View.ld (iblk2 V c 0 (pt2 t)) r2_blk) (View.ld (iblk2 V c 1 (pt2 t)) r2_blk)
      (View.ld (iblk2 V c 2 (pt2 t)) r2_row) (View.ld (iblk2 V c 4 (pt2 t)) r2_col) (if t = 0 then k2_pay1 else acc2 c t)

/-- The accumulator's recurrence: the definition's second equation. -/
theorem acc2_succ (c : Dev nD) (t : ℕ) :
    acc2 V c (t + 1) = k2_pay2 (View.ld (iblk2 V c 3 (pt2 t)) r2_col) (View.ld (iblk2 V c 0 (pt2 t)) r2_blk) (View.ld (iblk2 V c 1 (pt2 t)) r2_blk)
      (View.ld (iblk2 V c 2 (pt2 t)) r2_row) (View.ld (iblk2 V c 4 (pt2 t)) r2_col) (if t = 0 then k2_pay1 else acc2 V c t) := rfl

/-! ## What the body leaves in the output window's buffer at the last point -/

/-- The output's staging buffer after the last point's body: its one store, covering the buffer, of the head applied
    to the accumulator `a`, the head's weights `x5` and its bias `x6`. -/
def out2_7 (a : Vec F S512x64 .f32) (x5 : Vec F S64x1 .f32) (x6 : Vec F S1x1 .f32) : Vec F S512x1 .f32 :=
  View.canon [⟨r2_out, k2_pay3 (View.ld a r2_acc) (View.ld x5 r2_wh) (View.ld x6 r2_bh)⟩]

/-! ## The region's invariant and proof data -/

/-- The scratch accumulator between points: before the first point at any contents, before point `n + 1` at what
    the first `n + 1` points left in it. -/
def scr2 (c : Dev nD) : ℕ → sProp 𝕄
  | 0 => iprop(∃ d, owns (c : Thread nD τ) (Memref.whole cc2_scratch0) fullShare d)
  | n + 1 => owns (c : Thread nD τ) (Memref.whole cc2_scratch0) fullShare (acc2 V c (n + 1))

/-- The proof data of the pipeline on core `c`: the arrays as the region finds them; after the body each input's
    buffer at its block, the output's at the head of the whole accumulation (consulted at the last point only: before
    it the window is idle and its buffer is left as found); the invariant: the scratch accumulator at what the points
    so far left in it, the other scoped buffers at anything, the generator register at some state; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (acc2 V c 25) (iblk2 V c 5 t) (iblk2 V c 6 t)
  Φ t := iprop(scr2 V c t.val
    ∗ Pipeline.scopedRestBut (Ix := Unit) (Name := ℕ) (U := UR sig nD τ) (Lvl := ℕ) (Val := Elt F) spec2 c [cc2_scratch0]
    ∗ ∃ r, prngReg c r)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (acc2 V c 25) (iblk2 V c 5 t) (iblk2 V c 6 t) := by dsimp only [dat2]

/-- The invariant between points, restated at the point's number. -/
theorem phi2_eq (c : Dev nD) (t : Fin (cfg2.N + 1)) :
    (dat2 V c).Φ t = iprop(scr2 V c t.val
      ∗ Pipeline.scopedRestBut (Ix := Unit) (Name := ℕ) (U := UR sig nD τ) (Lvl := ℕ) (Val := Elt F) spec2 c [cc2_scratch0]
      ∗ ∃ r, prngReg c r) := by dsimp only [dat2]

/-! ## The invariant at the region's ends -/

/-- The scratch buffer at some contents is the scratch accumulator's term of the invariant before the first point, -/
theorem scr2_zero_of (c : Dev nD) :
    (iprop(∃ f : Buf (Elt F) ((c : Thread nD τ).loc cc2_scratch0), ((c : Thread nD τ).loc cc2_scratch0) ↦{fullShare} f) : sProp 𝕄)
      ⊢ scr2 V c 0 := by
  unfold scr2; simp only [owns_whole]; exact Idealize.SL.BI.Entails.refl _

/-- and that term holds the scratch buffer at some contents, whatever the point. -/
theorem scr2_some (c : Dev nD) (n : ℕ) : scr2 V c n
    ⊢ (iprop(∃ f : Buf (Elt F) ((c : Thread nD τ).loc cc2_scratch0), ((c : Thread nD τ).loc cc2_scratch0) ↦{fullShare} f) : sProp 𝕄) := by
  cases n with
  | zero => unfold scr2; simp only [owns_whole]; exact Idealize.SL.BI.Entails.refl _
  | succ n =>
    unfold scr2; simp only [owns_whole]
    iintro H; iexists _; iexact H

/-- What the launch hands the region — every scoped buffer that is no staging buffer at some contents and the
    generator register at some state — is the invariant before the first point: the scratch accumulator split out. -/
theorem phi2_first (c : Dev nD) :
    iprop(Pipeline.scopedRest (Ix := Unit) (Name := ℕ) (U := UR sig nD τ) (Lvl := ℕ) (Val := Elt F) spec2 c ∗ ∃ r, prngReg c r)
      ⊢ (dat2 V c).Φ 0 := by
  rw [phi2_eq, scopedRest2_split, Fin.val_zero]
  iintro ⟨⟨Hs, Hr⟩, Hg⟩
  isplitl [Hs]
  · iapply (scr2_zero_of V c); iexact Hs
  isplitl [Hr]; · iexact Hr
  iexact Hg

/-- After the last point the invariant gives the same back: what the accumulator holds is forgotten. -/
theorem phi2_last (c : Dev nD) :
    (dat2 V c).Φ (Fin.last cfg2.N)
      ⊢ iprop(Pipeline.scopedRest (Ix := Unit) (Name := ℕ) (U := UR sig nD τ) (Lvl := ℕ) (Val := Elt F) spec2 c ∗ ∃ r, prngReg c r) := by
  rw [phi2_eq, scopedRest2_split]
  iintro ⟨Hs, Hr, Hg⟩
  isplitr [Hg]
  swap; · iexact Hg
  isplitl [Hs]
  swap; · iexact Hr
  iapply (scr2_some V c _); iexact Hs

/-! ## Whole-buffer loads and stores

Every access of the body is through the rectangle that is its whole buffer: a load through it reads the contents, a
store through it — the last of any list of stores — leaves its payload, and a load after such a store reads the
payload. -/

/-- A store of the whole accumulator covers it; -/
theorem cover2_acc (p0 : Vec F S512x64 .f32) (L : List (View.Piece (Elt F) S512x64 .f32)) (y : S512x64.Idx) :
    ∃ pc ∈ ((⟨r2_acc, p0⟩ : View.Piece (Elt F) S512x64 .f32) :: L), y ∈ pc.1.set :=
  ⟨_, List.mem_cons_self, View.mem_set_unit_zero (S := S512x64) hz2 inb_S512x64_S512x64_0_0 y⟩

/-- and the head's one store covers the output's buffer. -/
theorem cover2_out (p0 : Vec F S512x1 .f32) (y : S512x1.Idx) :
    ∃ pc ∈ ([⟨r2_out, p0⟩] : List (View.Piece (Elt F) S512x1 .f32)), y ∈ pc.1.set :=
  ⟨_, List.mem_singleton_self _, View.mem_set_unit_zero (S := S512x1) hz2 inb_S512x1_S512x1_0_0 y⟩

/-- After a store of the whole accumulator, last, the scratch reads as the payload. -/
theorem read_store_acc (v : View sig .tc .vmem S512x64 .f32) (f : v.ty.Contents (Elt F)) (w : Vec F S512x64 .f32)
    (L : List (View.Piece (Elt F) S512x64 .f32)) :
    v.read (Elt F) (v.writes (Elt F) f ((⟨r2_acc, w⟩ : View.Piece (Elt F) S512x64 .f32) :: L)) = w := by
  rw [View.read_writes_eq_canon _ _ _ (cover2_acc w L), View.canon_cons_unit_zero (S := S512x64) hz2]

/-- A load of the whole accumulator reads its contents; -/
theorem ld_acc (X : Vec F S512x64 .f32) : View.ld X r2_acc = X :=
  View.ld_unit_zero (S := S512x64) hz2 inb_S512x64_S512x64_0_0 X

/-- after one store of the whole accumulator, it reads the payload. -/
theorem readCov_acc (v : View sig .tc .vmem S512x64 .f32) (w : Vec F S512x64 .f32) :
    v.readCov [(⟨r2_acc, w⟩ : View.Piece (Elt F) S512x64 .f32)] r2_acc.toLoadRect = w :=
  View.readCov_unit_zero (S := S512x64) v hz2 inb_S512x64_S512x64_0_0 w

/-! ## The body's two conditions on the grid point -/

/-- The body's first condition (the reset of the accumulator), from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The body's second condition (the head's store), from the grid coordinate. -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-! ## The body's triple, per case of its two conditions

On whole memrefs — the five inputs every point reads at their read contents, the scratch accumulator at what it
holds — the body runs to the continuation holding the inputs as they were and the scratch at the update; at the
last point also the head's weights and bias as they were and the output's buffer at the head of the update. -/

set_option maxHeartbeats 1000000 in
/-- The first point: the accumulator is reset to zeros, then updated; the output's buffer is not touched. -/
theorem sound_kernel2_A (c : Dev nD) (E : Set ℕ) (i : grid2.Coords) (hc0 : cond2_0 i) (hc1 : ¬cond2_1 i)
    (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S64x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x64 .f32) (harg9 : arg9.IsWhole)
    (x0 x1 : Vec F S2000x64 .f32) (x2 : Vec F S1x64 .f32) (x3 : Vec F S2000x1 .f32) (x4 : Vec F S2000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg9 fullShare (k2_pay2 (View.ld x3 r2_col) (View.ld x0 r2_blk) (View.ld x1 r2_blk) (View.ld x2 r2_row) (View.ld x4 r2_col) k2_pay1)) -∗ K ⟨⟩))
      ⊢ wp frame (wpE (defs₀ (F := F)) Variants.none c none) E (cc2__combine2_pool_head_kernel i arg1 harg1 arg2 harg2 arg3 harg3 arg4 harg4 arg5 harg5 arg6 harg6 arg7 harg7 arg8 harg8 arg9 harg9) K := by
  simp only [cc2__combine2_pool_head_kernel_eq_skeleton]; unfold cc2__combine2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d9, %f9, -, H9⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H9
  ipureintro
  sl_unfold_run_names
  simp only [View.readAt_eq_ld]
  rw [read_store_acc, readCov_acc]

set_option maxHeartbeats 1000000 in
/-- A point that is neither the first nor the last: the accumulator is updated; the output's buffer is not touched. -/
theorem sound_kernel2_B (c : Dev nD) (E : Set ℕ) (i : grid2.Coords) (hc0 : ¬cond2_0 i) (hc1 : ¬cond2_1 i)
    (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S64x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x64 .f32) (harg9 : arg9.IsWhole)
    (x0 x1 : Vec F S2000x64 .f32) (x2 : Vec F S1x64 .f32) (x3 : Vec F S2000x1 .f32) (x4 : Vec F S2000x1 .i32) (a : Vec F S512x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg9 fullShare (k2_pay2 (View.ld x3 r2_col) (View.ld x0 r2_blk) (View.ld x1 r2_blk) (View.ld x2 r2_row) (View.ld x4 r2_col) a)) -∗ K ⟨⟩))
      ⊢ wp frame (wpE (defs₀ (F := F)) Variants.none c none) E (cc2__combine2_pool_head_kernel i arg1 harg1 arg2 harg2 arg3 harg3 arg4 harg4 arg5 harg5 arg6 harg6 arg7 harg7 arg8 harg8 arg9 harg9) K := by
  simp only [cc2__combine2_pool_head_kernel_eq_skeleton]; unfold cc2__combine2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f9, %hf9, H9⟩, Hk⟩
  subst hf0 hf1 hf2 hf3 hf4 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H9
  ipureintro
  simp only [View.readAt_eq_ld]
  rw [read_store_acc, ld_acc]

set_option maxHeartbeats 1000000 in
/-- The last point: the accumulator is updated, and the head of the update is stored over the whole output buffer. -/
theorem sound_kernel2_C (c : Dev nD) (E : Set ℕ) (i : grid2.Coords) (hc0 : ¬cond2_0 i) (hc1 : cond2_1 i)
    (arg1 : Memref sig .tc .vmem S2000x64 .f32) (harg1 : arg1.IsWhole) (arg2 : Memref sig .tc .vmem S2000x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .i32) (harg5 : arg5.IsWhole) (arg6 : Memref sig .tc .vmem S64x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x64 .f32) (harg9 : arg9.IsWhole)
    (x0 x1 : Vec F S2000x64 .f32) (x2 : Vec F S1x64 .f32) (x3 : Vec F S2000x1 .f32) (x4 : Vec F S2000x1 .i32)
    (x5 : Vec F S64x1 .f32) (x6 : Vec F S1x1 .f32) (a : Vec F S512x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 (k2_pay2 (View.ld x3 r2_col) (View.ld x0 r2_blk) (View.ld x1 r2_blk) (View.ld x2 r2_row) (View.ld x4 r2_col) a) x5 x6)
            ∗ owns (c : Thread nD τ) arg9 fullShare (k2_pay2 (View.ld x3 r2_col) (View.ld x0 r2_blk) (View.ld x1 r2_blk) (View.ld x2 r2_row) (View.ld x4 r2_col) a)) -∗ K ⟨⟩))
      ⊢ wp frame (wpE (defs₀ (F := F)) Variants.none c none) E (cc2__combine2_pool_head_kernel i arg1 harg1 arg2 harg2 arg3 harg3 arg4 harg4 arg5 harg5 arg6 harg6 arg7 harg7 arg8 harg8 arg9 harg9) K := by
  simp only [cc2__combine2_pool_head_kernel_eq_skeleton]; unfold cc2__combine2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, Hk⟩
  subst hf0 hf1 hf2 hf3 hf4 hf5 hf6 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    sl_unfold_run_names
    simp only [View.readAt_eq_ld]
    rw [View.read_writes_eq_canon _ _ _ (cover2_out _), readCov_acc]
    unfold out2_7
    rw [ld_acc, ld_acc]
  iexists _; isplitr
  swap; · iexact H9
  ipureintro
  sl_unfold_run_names
  simp only [View.readAt_eq_ld]
  rw [read_store_acc, ld_acc]

/-! ## What the body finds in the input windows' buffers -/

/-- Each input's current staging buffer holds its block at every point, fetched there or not: an input the body
    leaves in place, uncut and never idle, holds at an unfetched point the previous point's block, which is this
    point's (the block index did not move). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-! ## Where the output window is idle -/

/-- The inputs are never idle. -/
theorem live2_0 (t : Fin cfg2.N) : cfg2.idle 0 (grid2.coords t) = false := rfl
theorem live2_1 (t : Fin cfg2.N) : cfg2.idle 1 (grid2.coords t) = false := rfl
theorem live2_2 (t : Fin cfg2.N) : cfg2.idle 2 (grid2.coords t) = false := rfl
theorem live2_3 (t : Fin cfg2.N) : cfg2.idle 3 (grid2.coords t) = false := rfl
theorem live2_4 (t : Fin cfg2.N) : cfg2.idle 4 (grid2.coords t) = false := rfl
theorem live2_5 (t : Fin cfg2.N) : cfg2.idle 5 (grid2.coords t) = false := rfl
theorem live2_6 (t : Fin cfg2.N) : cfg2.idle 6 (grid2.coords t) = false := rfl
/-- Before the last point the output window is idle — the body stores nothing into it — and is not written back; -/
theorem idle2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- at the last point it is live. -/
theorem live2_7 : ∀ t : Fin cfg2.N, cond2_1 (grid2.coords t) → cfg2.idle 7 (grid2.coords t) = false := by decide +kernel

/-! ## The body obligation, at a generic point -/

theorem scr2_succ (c : Dev nD) (n : ℕ) :
    scr2 V c (n + 1) = owns (c : Thread nD τ) (Memref.whole cc2_scratch0) fullShare (acc2 V c (n + 1)) := rfl

theorem scr2_pos (c : Dev nD) (n : ℕ) (h : n ≠ 0) :
    scr2 V c n = owns (c : Thread nD τ) (Memref.whole cc2_scratch0) fullShare (acc2 V c n) := by
  cases n with
  | zero => exact absurd rfl h
  | succ n => rfl

/-- What the body is called with at point `t`: the invariant, what the core owes, and the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: an idle window's buffer as found, the others' at what the body leaves. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point. The inputs' memrefs hold their blocks; the point's number says which of the three cases
    it is in; the invariant hands the body the scratch accumulator — at anything at the first point, else at what the
    points before left — and takes it back at this point's update; before the last point the output's buffer passes
    through untouched, at the last it is stored whole; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [phi2_eq, phi2_eq, Fin.coe_castSucc, Fin.val_succ, scr2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [show (dat2 V c).leavesExact 6 t = owns (c : Thread nD τ) (st2_6 t) fullShare ((dat2 V c).after 6 t) from by
    unfold Dat.leavesExact; rw [live2_6 t], after2_6]
  have hN : t.val < 25 := lt_of_lt_of_eq t.isLt N_2
  by_cases hz : t.val = 0
  · have h0 : cond2_0 (grid2.coords t) := (hcond2_0 t).mpr hz
    have h1 : ¬cond2_1 (grid2.coords t) := fun h => by have := (hcond2_1 t).mp h; omega
    rw [Dat.leavesExact_idle (dat2 V c) 7 t (idle2_7 t h1) (noFlush2_7 t h1)]
    rw [acc2_succ, pt2_val, if_pos hz, show scr2 V c t.val = (iprop(∃ d, owns (c : Thread nD τ) (Memref.whole cc2_scratch0) fullShare d) : sProp 𝕄) from by rw [hz]; rfl]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) h0 h1 _ _ _ _ _ _ _ _ _ _ _ _ _ _ _ _ _ _
      (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · have h0 : ¬cond2_0 (grid2.coords t) := fun h => hz ((hcond2_0 t).mp h)
    by_cases hl : t.val = 24
    · have h1 : cond2_1 (grid2.coords t) := (hcond2_1 t).mpr hl
      rw [show (dat2 V c).leavesExact 7 t = owns (c : Thread nD τ) (st2_7 t) fullShare ((dat2 V c).after 7 t) from by
        unfold Dat.leavesExact; rw [live2_7 t h1], after2_7]
      rw [show acc2 V c 25 = acc2 V c (t.val + 1) from by rw [hl]]
      rw [acc2_succ, pt2_val, if_neg hz, scr2_pos V c t.val hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_C c Set.univ (grid2.coords t) h0 h1 _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) (acc2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h1 : ¬cond2_1 (grid2.coords t) := fun h => hl ((hcond2_1 t).mp h)
      rw [Dat.leavesExact_idle (dat2 V c) 7 t (idle2_7 t h1) (noFlush2_7 t h1)]
      rw [acc2_succ, pt2_val, if_neg hz, scr2_pos V c t.val hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_B c Set.univ (grid2.coords t) h0 h1 _ _ _ _ _ _ _ _ _ _ _ _ _ _ _ _ _ _
        (iblk2 V c 0 t) (iblk2 V c 1 t) (iblk2 V c 2 t) (iblk2 V c 3 t) (iblk2 V c 4 t) (acc2 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-- The body's obligation at every grid point: the conjunction over the windows opened one by one. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KiRun.lean ====
import proofs.«422353_j75677323755530_3_alg».proof.Proof.Gen.KernelIdeal.Launch
import proofs.«422353_j75677323755530_3_alg».proof.Proof.Gen.KernelIdeal.Skeleton
import proofs.«422353_j75677323755530_3_alg».proof.Proof.Gen.KernelIdeal.Points
import proofs.«422353_j75677323755530_3_alg».proof.Proof.Gen.KernelIdeal.Regions
import proofs.«422353_j75677323755530_3_alg».proof.Proof.KiRegion0
import proofs.«422353_j75677323755530_3_alg».proof.Proof.KiRegion1
import proofs.«422353_j75677323755530_3_alg».proof.Proof.KiRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents the regions leave, stage by stage

Region 0's outputs depend on nothing later, region 1's only on region 0's, region 2's only on those two: the
unknowns the valuations between @main's items are written over are therefore defined in three stages, each stage
fixing what one region leaves. -/

/-- Core `c`'s unscoped buffers when region 0 is entered, read at the TensorCore's references. -/
abbrev En5 : (c : Dev nD) → (b : Ref sig .tc) → Buf (Elt F) ((c : Thread nD τ).loc b) := fun c b => V5 m c b

/-- At region 0's exit: its arrays at what the write-backs leave (the inputs as entered, each output's blocks
    folded in), every other buffer as entered. -/
def W6 (c : Dev nD) : Valuation τ sig (Elt F) :=
  Pipeline.withArrays spec0 c (V5 m c) fun w => (dat0 (En5 m) c).arrAt w cfg0.N

/-- First stage: every unknown read off region 0's exit contents. -/
def o1 : Outs (F := F) := fun _ r c => W6 m c r

/-- Region 1's entry contents at the first stage. -/
abbrev St7 : (c : Dev nD) → (b : Ref sig .tc) → Buf (Elt F) ((c : Thread nD τ).loc b) := fun c b => V7 m (o1 m) c b

/-- At region 1's exit: its arrays at what the write-backs leave, every other buffer as entered. -/
def W8 (c : Dev nD) : Valuation τ sig (Elt F) :=
  Pipeline.withArrays spec1 c (V7 m (o1 m) c) fun w => (dat1 (St7 m) c).arrAt w cfg1.N

/-- Second stage: the unknowns after item 7 read off region 1's exit contents, the others as at the first stage. -/
def o2 : Outs (F := F) := fun n r c => match n with
  | 8 => W8 m c r
  | _ => W6 m c r

/-- Region 2's entry contents at the second stage. -/
abbrev St9 : (c : Dev nD) → (b : Ref sig .tc) → Buf (Elt F) ((c : Thread nD τ).loc b) := fun c b => V9 m (o2 m) c b

/-- At region 2's exit: its arrays at what the write-backs leave, every other buffer as entered. -/
def W10 (c : Dev nD) : Valuation τ sig (Elt F) :=
  Pipeline.withArrays spec2 c (V9 m (o2 m) c) fun w => (dat2 (St9 m) c).arrAt w cfg2.N

/-- What the three regions leave: after item 7 region 1's exit contents, after item 9 region 2's, otherwise
    region 0's. -/
def outs : Outs (F := F) := fun n r c => match n with
  | 8 => W8 m c r
  | 10 => W10 m c r
  | _ => W6 m c r

/-- The contents after item 6 depend on the unknowns only through what region 0 leaves in its two outputs. -/
theorem V7_congr (o o' : Outs (F := F)) (h0 : ∀ c, o 6 main_v21_0 c = o' 6 main_v21_0 c)
    (h1 : ∀ c, o 6 main_v21_1 c = o' 6 main_v21_1 c) : V7 m o = V7 m o' := by
  funext c
  show StableHlo.after hostOps1 (Function.update (Function.update (V5 m c) (Proc.devRef .tc main_v21_0) (o 6 main_v21_0 c)) (Proc.devRef .tc main_v21_1) (o 6 main_v21_1 c))
    = StableHlo.after hostOps1 (Function.update (Function.update (V5 m c) (Proc.devRef .tc main_v21_0) (o' 6 main_v21_0 c)) (Proc.devRef .tc main_v21_1) (o' 6 main_v21_1 c))
  rw [h0 c, h1 c]

/-- The contents after item 8 depend on the unknowns only through those after item 6 and what region 1 leaves in
    its two outputs. -/
theorem V9_congr (o o' : Outs (F := F)) (h : V7 m o = V7 m o') (h0 : ∀ c, o 8 main_v34_0 c = o' 8 main_v34_0 c)
    (h1 : ∀ c, o 8 main_v34_1 c = o' 8 main_v34_1 c) : V9 m o = V9 m o' := by
  funext c
  show StableHlo.after hostOps2 (Function.update (Function.update (V7 m o c) (Proc.devRef .tc main_v34_0) (o 8 main_v34_0 c)) (Proc.devRef .tc main_v34_1) (o 8 main_v34_1 c))
    = StableHlo.after hostOps2 (Function.update (Function.update (V7 m o' c) (Proc.devRef .tc main_v34_0) (o' 8 main_v34_0 c)) (Proc.devRef .tc main_v34_1) (o' 8 main_v34_1 c))
  rw [h0 c, h1 c, h]

/-- Region 1 is entered from the same contents at the last stage as at the first. -/
theorem V7_outs : V7 m (outs m) = V7 m (o1 m) := V7_congr m _ _ (fun _ => rfl) (fun _ => rfl)

/-- Region 2 is entered from the same contents at the last stage as at the second. -/
theorem V9_outs : V9 m (outs m) = V9 m (o2 m) :=
  V9_congr m _ _ (V7_congr m _ _ (fun _ => rfl) (fun _ => rfl)) (fun _ => rfl) (fun _ => rfl)

/-- Region 1's entry contents, read at the TensorCore's references. -/
abbrev En7 : (c : Dev nD) → (b : Ref sig .tc) → Buf (Elt F) ((c : Thread nD τ).loc b) := fun c b => V7 m (outs m) c b
/-- Region 2's entry contents, read at the TensorCore's references. -/
abbrev En9 : (c : Dev nD) → (b : Ref sig .tc) → Buf (Elt F) ((c : Thread nD τ).loc b) := fun c b => V9 m (outs m) c b

theorem En7_eq : En7 m = St7 m := by
  funext c b; exact congrFun (congrFun (V7_outs m) c) _
theorem En9_eq : En9 m = St9 m := by
  funext c b; exact congrFun (congrFun (V9_outs m) c) _

/-- At a region's exit each of its arrays holds the fold of its window's write-backs. -/
theorem W6_arr (c : Dev nD) (w : Fin cfg0.W) :
    W6 m c (Proc.devRef .tc (Pipeline.arrRef spec0 w)) = (dat0 (En5 m) c).arrAt w cfg0.N := by
  unfold W6; exact Pipeline.withArrays_arr spec0 launch0.win.arr_inj c _ _ w
theorem W8_arr (c : Dev nD) (w : Fin cfg1.W) :
    W8 m c (Proc.devRef .tc (Pipeline.arrRef spec1 w)) = (dat1 (St7 m) c).arrAt w cfg1.N := by
  unfold W8; exact Pipeline.withArrays_arr spec1 launch1.win.arr_inj c _ _ w
theorem W10_arr (c : Dev nD) (w : Fin cfg2.W) :
    W10 m c (Proc.devRef .tc (Pipeline.arrRef spec2 w)) = (dat2 (St9 m) c).arrAt w cfg2.N := by
  unfold W10; exact Pipeline.withArrays_arr spec2 launch2.win.arr_inj c _ _ w

/-- What region 0 leaves in its first output is the fold of that window's write-backs. -/
theorem outs_6_0 (c : Dev nD) : outs m 6 main_v21_0 c = (dat0 (fun c b => V5 m c b) c).arrAt 4 cfg0.N := by
  show W6 m c (Proc.devRef .tc (Pipeline.arrRef spec0 4)) = (dat0 (En5 m) c).arrAt 4 cfg0.N
  exact W6_arr m c 4
/-- What region 0 leaves in its second output. -/
theorem outs_6_1 (c : Dev nD) : outs m 6 main_v21_1 c = (dat0 (fun c b => V5 m c b) c).arrAt 5 cfg0.N := by
  show W6 m c (Proc.devRef .tc (Pipeline.arrRef spec0 5)) = (dat0 (En5 m) c).arrAt 5 cfg0.N
  exact W6_arr m c 5
/-- What region 1 leaves in its first output. -/
theorem outs_8_0 (c : Dev nD) : outs m 8 main_v34_0 c = (dat1 (fun c b => V7 m (outs m) c b) c).arrAt 7 cfg1.N := by
  show outs m 8 main_v34_0 c = (dat1 (En7 m) c).arrAt 7 cfg1.N
  rw [En7_eq]
  show W8 m c (Proc.devRef .tc (Pipeline.arrRef spec1 7)) = (dat1 (St7 m) c).arrAt 7 cfg1.N
  exact W8_arr m c 7
/-- What region 1 leaves in its second output. -/
theorem outs_8_1 (c : Dev nD) : outs m 8 main_v34_1 c = (dat1 (fun c b => V7 m (outs m) c b) c).arrAt 8 cfg1.N := by
  show outs m 8 main_v34_1 c = (dat1 (En7 m) c).arrAt 8 cfg1.N
  rw [En7_eq]
  show W8 m c (Proc.devRef .tc (Pipeline.arrRef spec1 8)) = (dat1 (St7 m) c).arrAt 8 cfg1.N
  exact W8_arr m c 8
/-- What region 2 leaves in its output. -/
theorem outs_10 (c : Dev nD) : outs m 10 main_v47 c = (dat2 (fun c b => V9 m (outs m) c b) c).arrAt 7 cfg2.N := by
  show outs m 10 main_v47 c = (dat2 (En9 m) c).arrAt 7 cfg2.N
  rw [En9_eq]
  show W10 m c (Proc.devRef .tc (Pipeline.arrRef spec2 7)) = (dat2 (St9 m) c).arrAt 7 cfg2.N
  exact W10_arr m c 7

/-! ## What a region's exit contents hold at its arrays and off them -/

/-- Region 0's exit contents, read at the TensorCore's references. -/
abbrev Ex6 : (c : Dev nD) → (b : Ref sig .tc) → Buf (Elt F) ((c : Thread nD τ).loc b) := fun c b => V6 m (outs m) c b
/-- Region 1's exit contents. -/
abbrev Ex8 : (c : Dev nD) → (b : Ref sig .tc) → Buf (Elt F) ((c : Thread nD τ).loc b) := fun c b => V8 m (outs m) c b
/-- Region 2's exit contents. -/
abbrev Ex10 : (c : Dev nD) → (b : Ref sig .tc) → Buf (Elt F) ((c : Thread nD τ).loc b) := fun c b => V10 m (outs m) c b

/-- After region 0 each of its two outputs holds the unknown named for it. -/
theorem V6_at0 (o : Outs (F := F)) (c : Dev nD) : V6 m o c main_v21_0 = o 6 main_v21_0 c := by
  simp only [V6, Function.update_of_ne (StableHlo.devRef_ne_of_ne (by decide) : (Proc.devRef .tc main_v21_0 : DevRef τ sig) ≠ Proc.devRef .tc main_v21_1), Function.update_self]
theorem V6_at1 (o : Outs (F := F)) (c : Dev nD) : V6 m o c main_v21_1 = o 6 main_v21_1 c := by
  simp only [V6, Function.update_self]
/-- After region 1 each of its two outputs holds the unknown named for it. -/
theorem V8_at0 (o : Outs (F := F)) (c : Dev nD) : V8 m o c main_v34_0 = o 8 main_v34_0 c := by
  simp only [V8, Function.update_of_ne (StableHlo.devRef_ne_of_ne (by decide) : (Proc.devRef .tc main_v34_0 : DevRef τ sig) ≠ Proc.devRef .tc main_v34_1), Function.update_self]
theorem V8_at1 (o : Outs (F := F)) (c : Dev nD) : V8 m o c main_v34_1 = o 8 main_v34_1 c := by
  simp only [V8, Function.update_self]
/-- After region 2 its output holds the unknown named for it. -/
theorem V10_at (o : Outs (F := F)) (c : Dev nD) : V10 m o c main_v47 = o 10 main_v47 c := by
  simp only [V10, Function.update_self]

/-! Region 0's arrays at its exit: an input window's array is never written back, so it holds what it held at entry;
an output's holds the fold of its write-backs. -/

theorem hF0_0 (c : Dev nD) : (dat0 (En5 m) c).arrAt 0 cfg0.N = Ex6 m c main_arg0 :=
  (((dat0 (En5 m) c).arrAt_in 0 rfl _).trans (A_eq0 (En5 m) c 0)).trans (V6_of m (outs m) c main_arg0 (by decide)).symm
theorem hF0_1 (c : Dev nD) : (dat0 (En5 m) c).arrAt 1 cfg0.N = Ex6 m c main_v18 :=
  (((dat0 (En5 m) c).arrAt_in 1 rfl _).trans (A_eq0 (En5 m) c 1)).trans (V6_of m (outs m) c main_v18 (by decide)).symm
theorem hF0_2 (c : Dev nD) : (dat0 (En5 m) c).arrAt 2 cfg0.N = Ex6 m c main_v19 :=
  (((dat0 (En5 m) c).arrAt_in 2 rfl _).trans (A_eq0 (En5 m) c 2)).trans (V6_of m (outs m) c main_v19 (by decide)).symm
theorem hF0_3 (c : Dev nD) : (dat0 (En5 m) c).arrAt 3 cfg0.N = Ex6 m c main_v20 :=
  (((dat0 (En5 m) c).arrAt_in 3 rfl _).trans (A_eq0 (En5 m) c 3)).trans (V6_of m (outs m) c main_v20 (by decide)).symm
theorem hF0 (c : Dev nD) : ∀ w : Fin 6, (dat0 (En5 m) c).arrAt w cfg0.N = Ex6 m c (Pipeline.arrRef spec0 w) := fun
  | 0 => hF0_0 m c | 1 => hF0_1 m c | 2 => hF0_2 m c | 3 => hF0_3 m c
  | 4 => (outs_6_0 m c).symm.trans (V6_at0 m (outs m) c).symm
  | 5 => (outs_6_1 m c).symm.trans (V6_at1 m (outs m) c).symm
  | ⟨_ + 6, h⟩ => absurd h (Nat.not_lt.2 (Nat.le_add_left _ _))
/-- Off region 0's arrays its exit contents are its entry contents. -/
theorem hrest0 (c : Dev nD) : ∀ b, b ∉ Finset.univ.image (Pipeline.arrRef spec0) → Ex6 m c b = En5 m c b :=
  fun b hb => V6_of m (outs m) c b fun hmem => by
    rcases List.mem_cons.mp hmem with rfl | h
    · exact hb (Finset.mem_image.mpr ⟨4, Finset.mem_univ _, rfl⟩)
    rcases List.mem_cons.mp h with rfl | h
    · exact hb (Finset.mem_image.mpr ⟨5, Finset.mem_univ _, rfl⟩)
    exact absurd h List.not_mem_nil

/-! Region 1's arrays at its exit. -/

theorem hF1_0 (c : Dev nD) : (dat1 (En7 m) c).arrAt 0 cfg1.N = Ex8 m c main_v31 :=
  (((dat1 (En7 m) c).arrAt_in 0 rfl _).trans (A_eq1 (En7 m) c 0)).trans (V8_of m (outs m) c main_v31 (by decide)).symm
theorem hF1_1 (c : Dev nD) : (dat1 (En7 m) c).arrAt 1 cfg1.N = Ex8 m c main_v21_1 :=
  (((dat1 (En7 m) c).arrAt_in 1 rfl _).trans (A_eq1 (En7 m) c 1)).trans (V8_of m (outs m) c main_v21_1 (by decide)).symm
theorem hF1_2 (c : Dev nD) : (dat1 (En7 m) c).arrAt 2 cfg1.N = Ex8 m c main_v32 :=
  (((dat1 (En7 m) c).arrAt_in 2 rfl _).trans (A_eq1 (En7 m) c 2)).trans (V8_of m (outs m) c main_v32 (by decide)).symm
theorem hF1_3 (c : Dev nD) : (dat1 (En7 m) c).arrAt 3 cfg1.N = Ex8 m c main_v18 :=
  (((dat1 (En7 m) c).arrAt_in 3 rfl _).trans (A_eq1 (En7 m) c 3)).trans (V8_of m (outs m) c main_v18 (by decide)).symm
theorem hF1_4 (c : Dev nD) : (dat1 (En7 m) c).arrAt 4 cfg1.N = Ex8 m c main_arg7 :=
  (((dat1 (En7 m) c).arrAt_in 4 rfl _).trans (A_eq1 (En7 m) c 4)).trans (V8_of m (outs m) c main_arg7 (by decide)).symm
theorem hF1_5 (c : Dev nD) : (dat1 (En7 m) c).arrAt 5 cfg1.N = Ex8 m c main_arg9 :=
  (((dat1 (En7 m) c).arrAt_in 5 rfl _).trans (A_eq1 (En7 m) c 5)).trans (V8_of m (outs m) c main_arg9 (by decide)).symm
theorem hF1_6 (c : Dev nD) : (dat1 (En7 m) c).arrAt 6 cfg1.N = Ex8 m c main_v33 :=
  (((dat1 (En7 m) c).arrAt_in 6 rfl _).trans (A_eq1 (En7 m) c 6)).trans (V8_of m (outs m) c main_v33 (by decide)).symm
theorem hF1 (c : Dev nD) : ∀ w : Fin 9, (dat1 (En7 m) c).arrAt w cfg1.N = Ex8 m c (Pipeline.arrRef spec1 w) := fun
  | 0 => hF1_0 m c | 1 => hF1_1 m c | 2 => hF1_2 m c | 3 => hF1_3 m c | 4 => hF1_4 m c | 5 => hF1_5 m c | 6 => hF1_6 m c
  | 7 => (outs_8_0 m c).symm.trans (V8_at0 m (outs m) c).symm
  | 8 => (outs_8_1 m c).symm.trans (V8_at1 m (outs m) c).symm
  | ⟨_ + 9, h⟩ => absurd h (Nat.not_lt.2 (Nat.le_add_left _ _))
/-- Off region 1's arrays its exit contents are its entry contents. -/
theorem hrest1 (c : Dev nD) : ∀ b, b ∉ Finset.univ.image (Pipeline.arrRef spec1) → Ex8 m c b = En7 m c b :=
  fun b hb => V8_of m (outs m) c b fun hmem => by
    rcases List.mem_cons.mp hmem with rfl | h
    · exact hb (Finset.mem_image.mpr ⟨7, Finset.mem_univ _, rfl⟩)
    rcases List.mem_cons.mp h with rfl | h
    · exact hb (Finset.mem_image.mpr ⟨8, Finset.mem_univ _, rfl⟩)
    exact absurd h List.not_mem_nil

/-! Region 2's arrays at its exit. -/

theorem hF2_0 (c : Dev nD) : (dat2 (En9 m) c).arrAt 0 cfg2.N = Ex10 m c main_v44 :=
  (((dat2 (En9 m) c).arrAt_in 0 rfl _).trans (A_eq2 (En9 m) c 0)).trans (V10_of m (outs m) c main_v44 (by decide)).symm
theorem hF2_1 (c : Dev nD) : (dat2 (En9 m) c).arrAt 1 cfg2.N = Ex10 m c main_v34_1 :=
  (((dat2 (En9 m) c).arrAt_in 1 rfl _).trans (A_eq2 (En9 m) c 1)).trans (V10_of m (outs m) c main_v34_1 (by decide)).symm
theorem hF2_2 (c : Dev nD) : (dat2 (En9 m) c).arrAt 2 cfg2.N = Ex10 m c main_v45 :=
  (((dat2 (En9 m) c).arrAt_in 2 rfl _).trans (A_eq2 (En9 m) c 2)).trans (V10_of m (outs m) c main_v45 (by decide)).symm
theorem hF2_3 (c : Dev nD) : (dat2 (En9 m) c).arrAt 3 cfg2.N = Ex10 m c main_v18 :=
  (((dat2 (En9 m) c).arrAt_in 3 rfl _).trans (A_eq2 (En9 m) c 3)).trans (V10_of m (outs m) c main_v18 (by decide)).symm
theorem hF2_4 (c : Dev nD) : (dat2 (En9 m) c).arrAt 4 cfg2.N = Ex10 m c main_v4 :=
  (((dat2 (En9 m) c).arrAt_in 4 rfl _).trans (A_eq2 (En9 m) c 4)).trans (V10_of m (outs m) c main_v4 (by decide)).symm
theorem hF2_5 (c : Dev nD) : (dat2 (En9 m) c).arrAt 5 cfg2.N = Ex10 m c main_arg11 :=
  (((dat2 (En9 m) c).arrAt_in 5 rfl _).trans (A_eq2 (En9 m) c 5)).trans (V10_of m (outs m) c main_arg11 (by decide)).symm
theorem hF2_6 (c : Dev nD) : (dat2 (En9 m) c).arrAt 6 cfg2.N = Ex10 m c main_v46 :=
  (((dat2 (En9 m) c).arrAt_in 6 rfl _).trans (A_eq2 (En9 m) c 6)).trans (V10_of m (outs m) c main_v46 (by decide)).symm
theorem hF2 (c : Dev nD) : ∀ w : Fin 8, (dat2 (En9 m) c).arrAt w cfg2.N = Ex10 m c (Pipeline.arrRef spec2 w) := fun
  | 0 => hF2_0 m c | 1 => hF2_1 m c | 2 => hF2_2 m c | 3 => hF2_3 m c | 4 => hF2_4 m c | 5 => hF2_5 m c | 6 => hF2_6 m c
  | 7 => (outs_10 m c).symm.trans (V10_at m (outs m) c).symm
  | ⟨_ + 8, h⟩ => absurd h (Nat.not_lt.2 (Nat.le_add_left _ _))
/-- Off region 2's arrays its exit contents are its entry contents. -/
theorem hrest2 (c : Dev nD) : ∀ b, b ∉ Finset.univ.image (Pipeline.arrRef spec2) → Ex10 m c b = En9 m c b :=
  fun b hb => V10_of m (outs m) c b fun hmem => by
    rcases List.mem_cons.mp hmem with rfl | h
    · exact hb (Finset.mem_image.mpr ⟨7, Finset.mem_univ _, rfl⟩)
    exact absurd h List.not_mem_nil

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (fun c b => V5 m c b) c
  | ⟨1, _⟩ => fun c => dat1 (fun c b => V7 m (outs m) c b) c
  | ⟨2, _⟩ => fun c => dat2 (fun c b => V9 m (outs m) c b) c
  | ⟨_ + 3, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments

Each region is entered from every unscoped buffer at the contents before it and left at the contents after it.
Its arrays are split out of the unscoped buffers at entry and put back at the exit contents; the generator
register goes into the region's invariant and comes back; nothing is owed; the kernel has no semaphore of its own. -/

set_option backward.isDefEq.respectTransparency.types false in
/-- REGION 0: entered from the contents after the fifth host stretch, left with its two outputs at the fold of their write-backs. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (En5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En5 m c) fun w => A_eq0 (En5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En5 m c) (Ex6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from the contents after the sixth host stretch, left with its two outputs at the fold of their write-backs. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (En7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En7 m c) fun w => A_eq1 (En7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En7 m c) (Ex8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from the contents after the seventh host stretch, left with its output at the fold of its write-backs; its invariant also carries the kernel's scratch buffer, taken from the scoped rest at the first point and returned to it at the last. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (En9 m) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En9 m c) fun w => A_eq2 (En9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi2_first (En9 m) c)
    iintro ⟨Hp, -, Hr⟩
    isplitl [Hr]; · iexact Hr
    iexact Hp
  hout c := by
    rw [Pipeline.ownSems0_none]
    refine BIBase.Entails.trans (phi2_last (En9 m) c) ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En9 m c) (Ex10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The rest state beside the buffers is the same between any two items. -/
abbrev Erun : Fin 4 → Dev nD → sProp 𝕄 := fun _ c => R c

set_option backward.isDefEq.respectTransparency.types false in
/-- THE RUN. From any memory with zero counters every weakly fair execution of @main terminates, and every final
    memory holds, in EVERY unscoped buffer of every core, the last valuation's contents: the launch contents pushed
    through the host stretches and, at each region's outputs, the fold of the region's write-backs. -/
theorem run_all : θ_run defs (onTc (τ := τ) (main (F := F))) ⟨m, fun _ => 0, ρ⟩
    (fun r => ∀ c : Dev nD, ∀ b ∈ Pipeline.ucRefs τ sig, r.2.mem ((c : Thread nD τ).1, b) = V11 m (outs m) c b) := by
  refine Pipeline.θ_run_regions_kit_dev (pcfgs (F := F)) adm (pdats m) () cellOf_inj emb₁ defs₀ Variants.none L lv m ρ main
    (segs m (outs m) Variants.none L lv Erun () (pdats m) (reg0 m) (reg1 m) (reg2 m))
    (fun c Q => by
      rewrite [main_chain c, Pipeline.Seg.run_eq_chain,
        show (segs m (outs m) Variants.none L lv Erun () (pdats m) (reg0 m) (reg1 m) (reg2 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨Hh, HSI⟩
      unfold StableHlo.held
      imodintro
      iapply (pointsTo_read_all (Pipeline.ucRefs τ sig) (fun b => (((c : Thread nD τ)).1, b)) (V11 m (outs m) c) s')
      isplitl [Hh] <;> iassumption)
    (hQ := fun _ h => h)

/-- THE FRAME: every argument array ends holding its launch contents — no host stretch writes an argument and no
    region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c),
     (h c _ (mem_uc main_arg3 (by decide))).trans (V11_main_arg3 m (outs m) c),
     (h c _ (mem_uc main_arg4 (by decide))).trans (V11_main_arg4 m (outs m) c),
     (h c _ (mem_uc main_arg5 (by decide))).trans (V11_main_arg5 m (outs m) c),
     (h c _ (mem_uc main_arg6 (by decide))).trans (V11_main_arg6 m (outs m) c),
     (h c _ (mem_uc main_arg7 (by decide))).trans (V11_main_arg7 m (outs m) c),
     (h c _ (mem_uc main_arg8 (by decide))).trans (V11_main_arg8 m (outs m) c),
     (h c _ (mem_uc main_arg9 (by decide))).trans (V11_main_arg9 m (outs m) c),
     (h c _ (mem_uc main_arg10 (by decide))).trans (V11_main_arg10 m (outs m) c),
     (h c _ (mem_uc main_arg11 (by decide))).trans (V11_main_arg11 m (outs m) c),
     (h c _ (mem_uc main_arg12 (by decide))).trans (V11_main_arg12 m (outs m) c)⟩)
    (run_all m ρ)

end Cert.KernelIdeal.Reg

end
-- ==== Proof.Spec.lean ====
/-
  What both programs compute, written once over plain finite index types on the extended reals.

  A graph-convolution layer over N nodes and E edges: edge e carries the rows of a node table from its source
  node `src e` into every target node n it hits (`hit e n`); a node's degree scale is `d n`. The layer is
  written two ways. `convK` scales each node's projected row by d before the rows travel along the edges and
  scales the collected sum by d again at the target; `convR` puts the product d (src e) * d (dst e) on each
  edge. They agree when every edge that hits n has `dst e = n` and all the numbers are reals
  (the second scaling is then a common factor of a finite sum of reals). The pooling sums node rows into
  groups, once through a 0/1 selector and once over the nodes that hit the group; the head is a rectified
  row times a column plus a constant.
-/
import Mathlib.Data.EReal.Basic
import Mathlib.Data.EReal.Operations
import Mathlib.Algebra.BigOperators.Group.Finset.Basic
import Mathlib.Data.Fintype.Basic

noncomputable section

namespace Cert.Spec

open Finset

variable {N E K C G : Nat}

/-- Entry (n, j) of the product of a table x : N × K with a matrix W : K × C. -/
def mm (x : Fin N → Fin K → EReal) (W : Fin K → Fin C → EReal) (n : Fin N) (j : Fin C) : EReal :=
  ∑ k : Fin K, x n k * W k j

/-- The edges that hit node n. -/
def into (hit : Fin E → Fin N → Prop) [∀ e n, Decidable (hit e n)] (n : Fin N) : Finset (Fin E) :=
  univ.filter fun e => hit e n

/-- The layer with the degree scale applied to the rows before they travel and to the sum after. -/
def convK (src : Fin E → Fin N) (hit : Fin E → Fin N → Prop) [∀ e n, Decidable (hit e n)]
    (d : Fin N → EReal) (x : Fin N → Fin K → EReal) (W L : Fin K → Fin C → EReal) (b c : Fin C → EReal)
    (n : Fin N) (j : Fin C) : EReal :=
  d n * (∑ e ∈ into hit n, mm x W (src e) j * d (src e)) + (mm x L n j + c j) + b j

/-- The layer with the product of the two degree scales on each edge. -/
def convR (src dst : Fin E → Fin N) (hit : Fin E → Fin N → Prop) [∀ e n, Decidable (hit e n)]
    (d : Fin N → EReal) (x : Fin N → Fin K → EReal) (W L : Fin K → Fin C → EReal) (b c : Fin C → EReal)
    (n : Fin N) (j : Fin C) : EReal :=
  ((∑ e ∈ into hit n, (d (src e) * d (dst e)) * mm x W (src e) j) + b j) + (mm x L n j + c j)

/-- The rectifier. -/
def relu (v : EReal) : EReal := max v 0

/-- Group sums through a 0/1 selector: `sel n g` is 1 when node n is counted in group g and 0 otherwise. -/
def poolK (sel : Fin N → Fin G → EReal) (h : Fin N → Fin C → EReal) (g : Fin G) (f : Fin C) : EReal :=
  ∑ n : Fin N, sel n g * h n f

/-- Group sums over the nodes that hit the group. -/
def poolR (ghit : Fin N → Fin G → Prop) [∀ n g, Decidable (ghit n g)] (h : Fin N → Fin C → EReal)
    (g : Fin G) (f : Fin C) : EReal :=
  ∑ n ∈ univ.filter (fun n => ghit n g), h n f

/-- The head: the rectified pooled row against the column w, plus the constant. -/
def head (p : Fin G → Fin C → EReal) (w : Fin C → EReal) (b0 : EReal) (g : Fin G) : EReal :=
  (∑ f : Fin C, relu (p g f) * w f) + b0

/-- An extended real that is a real number. -/
def IsReal (v : EReal) : Prop := ∃ r : ℝ, v = (r : EReal)

/-- Two layers (the first rectified), pooling through the selector, and the head: the first program's result at group g. -/
def outK {K1 C1 C2 : Nat} (src : Fin E → Fin N) (hit : Fin E → Fin N → Prop) [∀ e n, Decidable (hit e n)]
    (sel : Fin N → Fin G → EReal) (d : Fin N → EReal) (x : Fin N → Fin K1 → EReal)
    (W1 L1 : Fin K1 → Fin C1 → EReal) (b1 c1 : Fin C1 → EReal) (W2 L2 : Fin C1 → Fin C2 → EReal) (b2 c2 : Fin C2 → EReal)
    (wh : Fin C2 → EReal) (bh : EReal) (g : Fin G) : EReal :=
  head (poolK sel (convK src hit d (fun n j => relu (convK src hit d x W1 L1 b1 c1 n j)) W2 L2 b2 c2)) wh bh g

/-- The same with the per-edge product and the sums over hitting nodes: the second program's result at group g. -/
def outR {K1 C1 C2 : Nat} (src dst : Fin E → Fin N) (hit : Fin E → Fin N → Prop) [∀ e n, Decidable (hit e n)]
    (ghit : Fin N → Fin G → Prop) [∀ n g, Decidable (ghit n g)] (d : Fin N → EReal) (x : Fin N → Fin K1 → EReal)
    (W1 L1 : Fin K1 → Fin C1 → EReal) (b1 c1 : Fin C1 → EReal) (W2 L2 : Fin C1 → Fin C2 → EReal) (b2 c2 : Fin C2 → EReal)
    (wh : Fin C2 → EReal) (bh : EReal) (g : Fin G) : EReal :=
  head (poolR ghit (convR src dst hit d (fun n j => relu (convR src dst hit d x W1 L1 b1 c1 n j)) W2 L2 b2 c2)) wh bh g

end Cert.Spec

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Idx.lean ====
/-
  How the programs' index words name nodes and groups. An edge's source word is first wrapped as array indexing
  wraps it (a negative word counts from the end of the 50000 nodes) and then clamped into range, which is what
  a row gather does; an edge hits node n when its target word, read signed, is exactly n, which is what a
  scatter-add does (any other word is dropped). A node is counted in group g the same way.
-/
import proofs.«422353_j75677323755530_3_alg».proof.Proof.Spec
import proofs.«422353_j75677323755530_3_alg».proof.Proof.LibRows

noncomputable section

namespace Cert.Bridge

open Idealize.ShloMosaic Idealize.ShloMosaic.ValueIdx Cert.LibRows

/-- An index word as array indexing reads it: below zero it counts from the end of an axis of 50000. -/
def wrapW (w : BitVec 32) : BitVec 32 :=
  Scalar.select (IntOp.cmpi .slt w 0#32) (IntOp.addi w 50000#32) w

/-- The two rows of the edge table. -/
abbrev EdgeTab : Type := IVec ⟨2, ![2, 800000]⟩ 32
/-- The group of each node. -/
abbrev GroupTab : Type := IVec ⟨1, ![50000]⟩ 32

/-- The node whose row edge e carries: its source word wrapped, then clamped. -/
def srcOf (ei : EdgeTab) (e : Fin 800000) : Fin 50000 := rowClamp 50000 (by decide) (wrapW (ei (ix2 0 e)))
/-- The node whose scale the edge's target word reads when it is used as an array index: wrapped, then clamped. -/
def dstOf (ei : EdgeTab) (e : Fin 800000) : Fin 50000 := rowClamp 50000 (by decide) (wrapW (ei (ix2 1 e)))
/-- Edge e adds into node n: its target word, read signed, is n. -/
def hitOf (ei : EdgeTab) (e : Fin 800000) (n : Fin 50000) : Prop := RowHit 50000 (ei (ix2 1 e)) n
instance (ei : EdgeTab) (e : Fin 800000) (n : Fin 50000) : Decidable (hitOf ei e n) := by unfold hitOf; infer_instance
/-- Node n is counted in group g: its group word, read signed, is g. -/
def ghitOf (gr : GroupTab) (n : Fin 50000) (g : Fin 512) : Prop := RowHit 512 (gr (ix1 n)) g
instance (gr : GroupTab) (n : Fin 50000) (g : Fin 512) : Decidable (ghitOf gr n g) := by unfold ghitOf; infer_instance
/-- The 0/1 selector a comparison of the group word with the column number makes. -/
def selOf (gr : GroupTab) (n : Fin 50000) (g : Fin 512) : EReal := if gr (ix1 n) = BitVec.ofNat 32 g.val then 1 else 0

/-- A word whose signed reading is not negative is left alone by the wrap: the signed comparison with zero is false. -/
theorem wrapW_of_nonneg (w : BitVec 32) (h : 0 ≤ w.toInt) : wrapW w = w := by
  have hs : w.slt 0#32 = false := by
    unfold BitVec.slt
    rw [BitVec.toInt_zero]
    exact decide_eq_false (by omega)
  unfold wrapW Scalar.select IntOp.cmpi
  simp only [hs]
  rw [if_neg (by decide)]

/-- A word of 32 bits is the numeral g (below 512) exactly when its signed reading is g. -/
theorem eq_ofNat_iff_rowHit (w : BitVec 32) (g : Fin 512) : w = BitVec.ofNat 32 g.val ↔ RowHit 512 w g := by
  have hg := g.isLt
  unfold RowHit
  constructor
  · intro hw
    have hn : w.toNat = g.val := by
      rw [hw, BitVec.toNat_ofNat]
      omega
    have hi := BitVec.toInt_eq_toNat_cond w
    rw [hn] at hi
    split at hi <;> omega
  · rintro ⟨h0, h1, h2⟩
    apply BitVec.eq_of_toNat_eq
    rw [BitVec.toNat_ofNat]
    have hi := BitVec.toInt_eq_toNat_cond w
    have hlt := w.isLt
    split at hi <;> omega

/-- An edge that hits n reads, as an array index, node n: a word that is n read signed is not negative, so it is not
    wrapped, and it is in range, so it is not clamped. -/
theorem dstOf_of_hit (ei : EdgeTab) (e : Fin 800000) (n : Fin 50000) (h : hitOf ei e n) : dstOf ei e = n := by
  obtain ⟨h0, h1, h2⟩ := (h : RowHit 50000 (ei (ix2 1 e)) n)
  unfold dstOf
  rw [wrapW_of_nonneg _ h0]
  unfold rowClamp
  apply Fin.ext
  show min (ei (ix2 1 e)).toInt.toNat (50000 - 1) = n.val
  omega

/-- The selector is 1 exactly on the nodes counted in the group. -/
theorem selOf_eq (gr : GroupTab) (n : Fin 50000) (g : Fin 512) : selOf gr n g = if ghitOf gr n g then 1 else 0 := by
  have hiff : gr (ix1 n) = BitVec.ofNat 32 g.val ↔ ghitOf gr n g := eq_ofNat_iff_rowHit (gr (ix1 n)) g
  unfold selOf
  by_cases hg : ghitOf gr n g
  · rw [if_pos hg, if_pos (hiff.mpr hg)]
  · rw [if_neg hg, if_neg (fun hw => hg (hiff.mp hw))]

end Cert.Bridge

end
-- ==== Proof.RefGen.lean ====
/- The reference program's run and its operations read at an index, gathered under one name for the modules
   that state what the reference computes. -/
import proofs.«422353_j75677323755530_3_alg».proof.Proof.RefRun
import proofs.«422353_j75677323755530_3_alg».proof.Proof.RefRead
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.Dis.lean ====
/-
  The degree scale, one function of the edge table that both programs compute by the same chain of operations:
  count the edges that hit each node, and take 1 / sqrt(count) where the count is positive, 0 elsewhere.
  It is carried as one named function; what the proofs use of it is only that its entries are reals.
-/
import proofs.«422353_j75677323755530_3_alg».proof.Proof.RefGen
import proofs.«422353_j75677323755530_3_alg».proof.Proof.Idx
import proofs.«422353_j75677323755530_3_alg».proof.Proof.LibFinite
import Mathlib.Analysis.Real.Sqrt

noncomputable section

namespace Cert.Bridge

open Idealize.ShloMosaic Idealize.ShloMosaic.ValueIdx

/-- The degree scale of node n. -/
def disOf (ei : EdgeTab) (n : Fin 50000) : EReal :=
  Cert.ReferenceIdeal.Read.val_main_v17 (F := Ideal) ei (ix1 n)

/-- The whole scale vector, as the reference's first layer names it. -/
theorem disOf_eq (ei : EdgeTab) : (fun i : (⟨1, ![50000]⟩ : Shape).Idx => Cert.ReferenceIdeal.Read.val_main_v17 (F := Ideal) ei i)
    = fun i => disOf ei ⟨(i 0).val, (i 0).isLt⟩ := by
  funext i
  -- a rank-one index is the one-coordinate index of its coordinate
  exact congrArg (Cert.ReferenceIdeal.Read.val_main_v17 (F := Ideal) ei) (eq_ix1 i)

/-- The reference's second layer computes the same scale again, by the same operations. -/
theorem v72_eq_v17 (ei : EdgeTab) :
    Cert.ReferenceIdeal.Read.val_main_v72 (F := Ideal) ei = Cert.ReferenceIdeal.Read.val_main_v17 (F := Ideal) ei := by
  -- both names stand for the same composition of the same operations on the same row of the table
  rfl

/-- One entry of the scale from one entry d of the count: 1 / sqrt d where d is positive (the square root is taken of d
    there and of 1 elsewhere), and 0 elsewhere. When d is a real the result is a real: a positive real has a positive
    square root, and the reciprocal of a real that is not zero is a real. -/
theorem scale_real_scalar (d : EReal) (hd : ∃ r : ℝ, d = (r : EReal)) :
    ∃ r : ℝ, Scalar.select (Ideal.cmp .ogt d 0)
        (Ideal.div 1 (Ideal.sqrt (Scalar.select (Ideal.cmp .ogt d 0) d 1))) 0 = (r : EReal) := by
  obtain ⟨a, rfl⟩ := hd
  by_cases h : 0 < a
  · have hc : Ideal.cmp .ogt (a : EReal) 0 = 1 := by
      have : (0 : EReal) < (a : EReal) := by exact_mod_cast h
      simp [Ideal.cmp, this]
    have hs : Real.sqrt a ≠ 0 := (Real.sqrt_pos.mpr h).ne'
    refine ⟨1 / Real.sqrt a, ?_⟩
    rw [hc]
    unfold Scalar.select
    rw [if_pos rfl, if_pos rfl, Ideal.sqrt_coe, if_neg (not_lt.mpr h.le), Ideal.div_coe hs, one_mul]
  · have hc : Ideal.cmp .ogt (a : EReal) 0 = 0 := by
      have : ¬ (0 : EReal) < (a : EReal) := by exact_mod_cast h
      simp [Ideal.cmp, this]
    refine ⟨0, ?_⟩
    rw [hc]
    unfold Scalar.select
    rw [if_neg (by decide), EReal.coe_zero]

/-- The count of edges hitting each node is a real at every node: it is 0 plus a finite sum of ones. -/
theorem count_allReal (ei : EdgeTab) : Cert.Lib.AllReal (Cert.ReferenceIdeal.Read.val_main_v8 (F := Ideal) ei) := by
  unfold Cert.ReferenceIdeal.Read.val_main_v8
  refine Cert.Lib.allReal_scatterAdd (φ := .f32) _ _ ?_ ?_
  · unfold Cert.ReferenceIdeal.Read.val_main_v6 Cert.ReferenceIdeal.Read.val_main_cst_0
    exact Cert.Lib.allReal_broadcastInDim _ Cert.Lib.allReal_constant_zero
  · unfold Cert.ReferenceIdeal.Read.val_main_v5 Cert.ReferenceIdeal.Read.val_main_cst
    exact Cert.Lib.allReal_broadcastInDim _ Cert.Lib.allReal_constant_one

/-- The constant the count is compared with in the outer choice reads 0 at every node. -/
theorem zeroA_apply (n : Fin 50000) : Cert.ReferenceIdeal.Read.val_main_v9 (F := Ideal) (ix1 n) = 0 := by
  rw [Cert.ReferenceIdeal.Read.val_main_v9_apply, Cert.ReferenceIdeal.Read.val_main_cst_1_apply]
  exact Ideal.ofBits_zero_f32

/-- The constant the count is compared with in the inner choice reads 0 at every node. -/
theorem zeroB_apply (n : Fin 50000) : Cert.ReferenceIdeal.Read.val_main_v11 (F := Ideal) (ix1 n) = 0 := by
  rw [Cert.ReferenceIdeal.Read.val_main_v11_apply, Cert.ReferenceIdeal.Read.val_main_cst_2_apply]
  exact Ideal.ofBits_zero_f32

/-- The numerator of the quotient reads 1 at every node. -/
theorem oneNum_apply (n : Fin 50000) : Cert.ReferenceIdeal.Read.val_main_v15 (F := Ideal) (ix1 n) = 1 := by
  rw [Cert.ReferenceIdeal.Read.val_main_v15_apply, Cert.ReferenceIdeal.Read.val_main_cst_4_apply]
  exact Cert.Lib.ofBits_one_f32

/-- The value the square root is taken of where the count is not positive reads 1 at every node. -/
theorem oneElse_apply (n : Fin 50000) : Cert.ReferenceIdeal.Read.val_main_call0_v1 (F := Ideal) (ix1 n) = 1 := by
  rw [Cert.ReferenceIdeal.Read.val_main_call0_v1_apply, Cert.ReferenceIdeal.Read.val_main_call0_v0_apply,
    Cert.ReferenceIdeal.Read.val_main_cst_3_apply]
  exact Cert.Lib.ofBits_one_f32

/-- The scale where the count is not positive reads 0 at every node. -/
theorem zeroElse_apply (n : Fin 50000) : Cert.ReferenceIdeal.Read.val_main_call1_v1 (F := Ideal) (ix1 n) = 0 := by
  rw [Cert.ReferenceIdeal.Read.val_main_call1_v1_apply, Cert.ReferenceIdeal.Read.val_main_call1_v0_apply,
    Cert.ReferenceIdeal.Read.val_main_cst_5_apply]
  exact Ideal.ofBits_zero_f32

/-- Every entry of the degree scale is a real: a count of edges is a natural number, its square root where it is
    positive is a positive real, and so is the reciprocal; elsewhere the entry is 0. -/
theorem dis_real (ei : EdgeTab) (n : Fin 50000) : Cert.Spec.IsReal (disOf ei n) := by
  have h := scale_real_scalar _ (count_allReal ei (ix1 n))
  unfold Cert.Spec.IsReal disOf
  -- the entry at node n, written from the count's entry at n and the constants' entries at n
  rw [Cert.ReferenceIdeal.Read.val_main_v17_apply]
  rw [Cert.ReferenceIdeal.Read.val_main_v10_apply]
  rw [Cert.ReferenceIdeal.Read.val_main_v16_apply]
  rw [Cert.ReferenceIdeal.Read.val_main_v14_apply]
  rw [Cert.ReferenceIdeal.Read.val_main_v13_apply]
  rw [Cert.ReferenceIdeal.Read.val_main_v12_apply]
  rw [zeroA_apply, zeroB_apply, oneNum_apply, oneElse_apply, zeroElse_apply]
  -- on extended reals the comparison, the quotient and the square root are the ones the scalar statement names
  rw [Ideal.cmpf_def, Ideal.hostDivf_def, Ideal.hostUnary_sqrt_def]
  exact h

end Cert.Bridge

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KiValue0.lean ====
/- What REGION 0 (the layer-1 projection over 10 row blocks) leaves in its two output arrays, at the ideal values:
   entry (n, j) of the first is the n-th feature row times column j of the fused weight matrix, scaled by the
   n-th degree scale; entry (n, j) of the second is the same row times column 128 + j, plus the j-th bias. -/
import proofs.«422353_j75677323755530_3_alg».proof.Proof.KiRegion0
import proofs.«422353_j75677323755530_3_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val0

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)
open scoped BigOperators

/-! ## The body's two stored values at an entry -/

/-- The fused product at entry (p, r): row p of the features' block against column r of the weights. The
    narrowing of both operands is the identity at the ideal values; the accumulator is the zero splat. -/
theorem prod_apply (x0 : Vec Ideal S5000x128 .f32) (x2 : Vec Ideal S128x256 .f32) (p : Fin 5000) (r : Fin 256) :
    k0_pay1 x0 x2 (ix2 p r) = ∑ k : Fin 128, (x0 (ix2 p k) : EReal) * (x2 (ix2 k r) : EReal) := by
  unfold k0_pay1
  rw [shapeCast_self]
  exact PlainDot.matmul_zero_apply (M := 5000) (K := 128) (N := 256) none
    (truncf .bf16 x0 bitsLt_bf16_f32) (truncf .bf16 x2 bitsLt_bf16_f32) p r

/-- The first stored value at entry (p, q): the left half of the product, scaled by the p-th degree scale. -/
theorem scaled_apply (x0 : Vec Ideal S5000x128 .f32) (x2 : Vec Ideal S128x256 .f32) (x1 : Vec Ideal S5000x1 .f32)
    (p : Fin 5000) (q : Fin 128) :
    k0_pay2 x0 x2 x1 (ix2 p q)
      = (∑ k : Fin 128, (x0 (ix2 p k) : EReal) * (x2 (ix2 k (⟨q.val, by omega⟩ : Fin 256)) : EReal)) * (x1 (ix2 p (0 : Fin 1)) : EReal) := by
  unfold k0_pay2
  rw [mulf_apply, shapeCast_self]
  have hs : extractStridedSlice S5000x128 ![0, 0] (k0_pay1 x0 x2) slices_S5000x256_o0_0_S5000x128 (ix2 p q)
      = k0_pay1 x0 x2 (ix2 p (⟨q.val, by omega⟩ : Fin 256)) :=
    extractStridedSlice_apply _ _ _ _ _ (fun a => by
      match a with
      | ⟨0, _⟩ => exact (Nat.zero_add _).symm
      | ⟨1, _⟩ => exact (Nat.zero_add _).symm)
  have hb : broadcastTo S5000x128 x1 broadcasts_S5000x1_S5000x128 (ix2 p q) = x1 (ix2 p (0 : Fin 1)) :=
    broadcastTo_apply _ _ _ _ (fun a => by
      match a with
      | ⟨0, _⟩ => rfl
      | ⟨1, _⟩ => rfl)
  rw [hs, hb, prod_apply]

/-- The second stored value at entry (p, q): the right half of the product plus the q-th bias. -/
theorem biased_apply (x0 : Vec Ideal S5000x128 .f32) (x2 : Vec Ideal S128x256 .f32) (x3 : Vec Ideal S1x128 .f32)
    (p : Fin 5000) (q : Fin 128) :
    k0_pay3 x0 x2 x3 (ix2 p q)
      = (∑ k : Fin 128, (x0 (ix2 p k) : EReal) * (x2 (ix2 k (⟨128 + q.val, by omega⟩ : Fin 256)) : EReal)) + (x3 (ix2 (0 : Fin 1) q) : EReal) := by
  unfold k0_pay3
  rw [addf_apply, shapeCast_self]
  have hs : extractStridedSlice S5000x128 ![0, 128] (k0_pay1 x0 x2) slices_S5000x256_o0_128_S5000x128 (ix2 p q)
      = k0_pay1 x0 x2 (ix2 p (⟨128 + q.val, by omega⟩ : Fin 256)) :=
    extractStridedSlice_apply _ _ _ _ _ (fun a => by
      match a with
      | ⟨0, _⟩ => exact (Nat.zero_add _).symm
      | ⟨1, _⟩ => rfl)
  have hb : broadcastTo S5000x128 x3 broadcasts_S1x128_S5000x128 (ix2 p q) = x3 (ix2 (0 : Fin 1) q) :=
    broadcastTo_apply _ _ _ _ (fun a => by
      match a with
      | ⟨0, _⟩ => rfl
      | ⟨1, _⟩ => rfl)
  rw [hs, hb, prod_apply]

/-! ## The arrays the region reads, and the closed form of the two it writes -/

-- the TensorCore's buffer contents when the region is entered
variable (V : (c : Dev nD) → (b : Ref sig .tc) → Buf (Elt Ideal) ((c : Thread nD τ).loc b))

/-- The node features, the degree scale, the fused weights and the skip bias, as the region finds them. -/
abbrev xarr (c : Dev nD) : Vec Ideal S50000x128 .f32 := V c main_arg0
abbrev darr (c : Dev nD) : Vec Ideal S50000x1 .f32 := V c main_v18
abbrev warr (c : Dev nD) : Vec Ideal S128x256 .f32 := V c main_v19
abbrev barr (c : Dev nD) : Vec Ideal S1x128 .f32 := V c main_v20

/-- The first output array as one function of the arrays read: row i₀ of the features against column i₁ of the
    weights, scaled by the i₀-th degree scale. -/
def scaledArr (a0 : Vec Ideal S50000x128 .f32) (a1 : Vec Ideal S50000x1 .f32) (a2 : Vec Ideal S128x256 .f32) :
    Vec Ideal S50000x128 .f32 := fun i =>
  ((∑ k : Fin 128, (a0 (ix2 (⟨(i 0).val, idx2_lt0 i⟩ : Fin 50000) k) : EReal)
      * (a2 (ix2 k (⟨(i 1).val, by have := idx2_lt1 i; omega⟩ : Fin 256)) : EReal))
    * (a1 (ix2 (⟨(i 0).val, idx2_lt0 i⟩ : Fin 50000) (0 : Fin 1)) : EReal) : EReal)

/-- The second output array: the same row against column 128 + i₁, plus the i₁-th bias. -/
def biasedArr (a0 : Vec Ideal S50000x128 .f32) (a2 : Vec Ideal S128x256 .f32) (a3 : Vec Ideal S1x128 .f32) :
    Vec Ideal S50000x128 .f32 := fun i =>
  ((∑ k : Fin 128, (a0 (ix2 (⟨(i 0).val, idx2_lt0 i⟩ : Fin 50000) k) : EReal)
      * (a2 (ix2 k (⟨128 + (i 1).val, by have := idx2_lt1 i; omega⟩ : Fin 256)) : EReal))
    + (a3 (ix2 (0 : Fin 1) (⟨(i 1).val, idx2_lt1 i⟩ : Fin 128)) : EReal) : EReal)

theorem zeros2 : (![0, 0] : Fin 2 → Nat) = fun _ => 0 := funext fun a => by fin_cases a <;> rfl

/-- The printed index maps, decided over the grid: the row-blocked windows sit at block (t, 0) at point t, the
    whole-array windows at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := t.isLt.trans_eq N_0

/-! ## The blocks read at a point, entry by entry: a block's coordinate is index × size + 1 × the coordinate inside -/

theorem xblk_apply (c : Dev nD) (t : Fin cfg0.N) (p : Fin 5000) (k : Fin 128) :
    (iblk0 V c 0 t : Vec Ideal S5000x128 .f32) (ix2 p k)
      = xarr V c (ix2 (⟨t.val * 5000 + p.val, by have := point_lt t; omega⟩ : Fin 50000) k) := by
  obtain ⟨e0, e1, -⟩ := idx_facts0 t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem dblk_apply (c : Dev nD) (t : Fin cfg0.N) (p : Fin 5000) :
    (iblk0 V c 1 t : Vec Ideal S5000x1 .f32) (ix2 p (0 : Fin 1))
      = darr V c (ix2 (⟨t.val * 5000 + p.val, by have := point_lt t; omega⟩ : Fin 50000) (0 : Fin 1)) := by
  obtain ⟨-, -, e0, e1, -⟩ := idx_facts0 t
  show V c main_v18 (((cfg0.win 1).blk t).view.emb (ix2 p (0 : Fin 1))) = V c main_v18 _
  refine congrArg (V c main_v18) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem wblk_apply (c : Dev nD) (t : Fin cfg0.N) (k : Fin 128) (r : Fin 256) :
    (iblk0 V c 2 t : Vec Ideal S128x256 .f32) (ix2 k r) = warr V c (ix2 k r) := by
  obtain ⟨-, -, -, -, e0, e1, -⟩ := idx_facts0 t
  show V c main_v19 (((cfg0.win 2).blk t).view.emb (ix2 k r)) = V c main_v19 _
  refine congrArg (V c main_v19) (funext fun a => Fin.ext ?_)
  match a with
  | ⟨0, _⟩ => show win0_2.index t (0 : Fin 2) * 128 + 1 * k.val = k.val; omega
  | ⟨1, _⟩ => show win0_2.index t (1 : Fin 2) * 256 + 1 * r.val = r.val; omega

theorem bblk_apply (c : Dev nD) (t : Fin cfg0.N) (q : Fin 128) :
    (iblk0 V c 3 t : Vec Ideal S1x128 .f32) (ix2 (0 : Fin 1) q) = barr V c (ix2 (0 : Fin 1) q) := by
  obtain ⟨-, -, -, -, -, -, e0, e1, -⟩ := idx_facts0 t
  show V c main_v20 (((cfg0.win 3).blk t).view.emb (ix2 (0 : Fin 1) q)) = V c main_v20 _
  refine congrArg (V c main_v20) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-! ## What each point writes back is its block of the closed form -/

theorem flushed4_eq (c : Dev nD) (t : Fin cfg0.N) :
    (dat0 (F := Ideal) V c).flushed 4 t
      = ((cfg0.win 4).blk t).view.read (Elt Ideal) (scaledArr (xarr V c) (darr V c) (warr V c)) := by
  show (cfg0.win 4).cut (grid0.coords t) ((dat0 V c).after 4 t) = _
  rw [after0_4]
  unfold out0_4
  rw [View.canon_unit_zero zeros2]
  simp only [View.ld_unit_zero (S := S5000x128) zeros2, View.ld_unit_zero (S := S5000x1) zeros2, View.ld_unit_zero (S := S128x256) zeros2]
  obtain ⟨-, -, -, -, -, -, -, -, e0, e1, -⟩ := idx_facts0 t
  funext y
  obtain ⟨p, q, rfl⟩ : ∃ (p : Fin 5000) (q : Fin 128), y = ix2 p q := ⟨y 0, y 1, eq_ix2 y⟩
  show k0_pay2 (iblk0 V c 0 t) (iblk0 V c 2 t) (iblk0 V c 1 t) (ix2 p q)
    = scaledArr (xarr V c) (darr V c) (warr V c) (((cfg0.win 4).blk t).view.emb (ix2 p q))
  rw [scaled_apply]
  simp only [xblk_apply, dblk_apply, wblk_apply]
  unfold scaledArr
  have h0 : ((((cfg0.win 4).blk t).view.emb (ix2 p q)) 0).val = t.val * 5000 + p.val := by
    show win0_4.index t (0 : Fin 2) * 5000 + 1 * p.val = _; omega
  have h1 : ((((cfg0.win 4).blk t).view.emb (ix2 p q)) 1).val = q.val := by
    show win0_4.index t (1 : Fin 2) * 128 + 1 * q.val = _; omega
  simp only [h0, h1]

theorem flushed5_eq (c : Dev nD) (t : Fin cfg0.N) :
    (dat0 (F := Ideal) V c).flushed 5 t
      = ((cfg0.win 5).blk t).view.read (Elt Ideal) (biasedArr (xarr V c) (warr V c) (barr V c)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S1x128) zeros2, View.ld_unit_zero (S := S128x256) zeros2]
  obtain ⟨-, -, -, -, -, -, -, -, -, -, e0, e1⟩ := idx_facts0 t
  funext y
  obtain ⟨p, q, rfl⟩ : ∃ (p : Fin 5000) (q : Fin 128), y = ix2 p q := ⟨y 0, y 1, eq_ix2 y⟩
  show k0_pay3 (iblk0 V c 0 t) (iblk0 V c 2 t) (iblk0 V c 3 t) (ix2 p q)
    = biasedArr (xarr V c) (warr V c) (barr V c) (((cfg0.win 5).blk t).view.emb (ix2 p q))
  rw [biased_apply]
  simp only [xblk_apply, bblk_apply, wblk_apply]
  unfold biasedArr
  have h0 : ((((cfg0.win 5).blk t).view.emb (ix2 p q)) 0).val = t.val * 5000 + p.val := by
    show win0_5.index t (0 : Fin 2) * 5000 + 1 * p.val = _; omega
  have h1 : ((((cfg0.win 5).blk t).view.emb (ix2 p q)) 1).val = q.val := by
    show win0_5.index t (1 : Fin 2) * 128 + 1 * q.val = _; omega
  simp only [h0, h1]

/-! ## The ten row blocks cover the array: row r is in the block of point r / 5000 -/

theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v21_0).slice (win0_4.rect t)).set ↔ _
  rw [View.set_slice_whole, Rect.mem_set_unit]
  exact Iff.rfl

theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21_1).slice (win0_5.rect t)).set ↔ _
  rw [View.set_slice_whole, Rect.mem_set_unit]
  exact Iff.rfl

theorem cover4 (i : S50000x128.Idx) : ∃ t : Fin cfg0.N, (cfg0.win 4).flush t = true ∧ i ∈ ((cfg0.win 4).blk t).view.set := by
  have hi0 : (i 0).val < 50000 := idx2_lt0 i
  have hi1 : (i 1).val < 128 := idx2_lt1 i
  refine ⟨⟨(i 0).val / 5000, by rw [show cfg0.N = 10 from N_0]; omega⟩, flush0_4 _, ?_⟩
  rw [mem_blk4]
  obtain ⟨-, -, -, -, -, -, -, -, e0, e1, -⟩ := idx_facts0 ⟨(i 0).val / 5000, by rw [show cfg0.N = 10 from N_0]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

theorem cover5 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  refine ⟨⟨(i 0).val / 5000, by rw [show cfg0.N = 10 from N_0]; omega⟩, flush0_5 _, ?_⟩
  rw [mem_blk5]
  obtain ⟨-, -, -, -, -, -, -, -, -, -, e0, e1⟩ := idx_facts0 ⟨(i 0).val / 5000, by rw [show cfg0.N = 10 from N_0]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-! ## The two arrays after the region -/

theorem arr4_eq (c : Dev nD) :
    (dat0 (F := Ideal) V c).arrAt 4 cfg0.N = scaledArr (xarr V c) (darr V c) (warr V c) :=
  (dat0 (F := Ideal) V c).arrAt_eq_of_cover 4 (scaledArr (xarr V c) (darr V c) (warr V c)) (fun t _ => flushed4_eq V c t) cover4

theorem arr5_eq (c : Dev nD) :
    (dat0 (F := Ideal) V c).arrAt 5 cfg0.N = biasedArr (xarr V c) (warr V c) (barr V c) :=
  (dat0 (F := Ideal) V c).arrAt_eq_of_cover 5 (biasedArr (xarr V c) (warr V c) (barr V c)) (fun t _ => flushed5_eq V c t) cover5

/-- Entry (n, j) of the first output array after the region. -/
theorem final0_4 (c : Dev nD) (n : Fin 50000) (j : Fin 128) :
    ((dat0 (F := Ideal) V c).arrAt 4 cfg0.N : Vec Ideal S50000x128 .f32) (ix2 n j)
      = (∑ k : Fin 128, (xarr V c (ix2 n k) : EReal) * (warr V c (ix2 k (⟨j.val, by omega⟩ : Fin 256)) : EReal))
        * (darr V c (ix2 n (0 : Fin 1)) : EReal) := by
  rw [arr4_eq]; rfl

/-- Entry (n, j) of the second output array after the region. -/
theorem final0_5 (c : Dev nD) (n : Fin 50000) (j : Fin 128) :
    ((dat0 (F := Ideal) V c).arrAt 5 cfg0.N : Vec Ideal S50000x128 .f32) (ix2 n j)
      = (∑ k : Fin 128, (xarr V c (ix2 n k) : EReal) * (warr V c (ix2 k (⟨128 + j.val, by omega⟩ : Fin 256)) : EReal))
        + (barr V c (ix2 (0 : Fin 1) j) : EReal) := by
  rw [arr5_eq]; rfl

end Cert.KernelIdeal.Val0

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.KiHostA.lean ====
/-
  What the five host stretches before the first region leave in the buffers that region reads, at an index.

  The edge table's two rows become two vectors of 800000 words; the group words become a column; the two first-layer
  weight matrices are laid side by side as one 128 x 256 matrix (columns 0 .. 127 the first, 128 .. 255 the second);
  the skip bias becomes a row; and the degree scale, computed from the edge table by the same chain of operations the
  reference uses (count the edges hitting each node, 1 / sqrt(count) where the count is positive, 0 elsewhere),
  becomes a column. No stretch writes an argument.
-/
import proofs.«422353_j75677323755530_3_alg».proof.Proof.Gen.KernelIdeal.Regions
import proofs.«422353_j75677323755530_3_alg».proof.Proof.Idx
import proofs.«422353_j75677323755530_3_alg».proof.Proof.RefRead
import proofs.«422353_j75677323755530_3_alg».proof.Proof.Dis
import proofs.«422353_j75677323755530_3_alg».proof.Proof.LibColumn
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Idealize.ShloMosaic.TcCoe Idealize.ShloMosaic.StableHlo
open Cert.KernelIdeal Cert.KernelIdeal.Gen Cert.Bridge

variable (m : (ℓ : Loc nD τ sig) → Buf (Elt Ideal) ℓ) (c : Dev nD)

/-! ## The arguments: no stretch before the first region writes one -/

theorem v5_arg0 : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide))
theorem v5_arg1 : V5 m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide))
theorem v5_arg2 : V5 m c main_arg2 = m ((c : Thread nD τ).loc main_arg2) :=
  (V5_of m c main_arg2 (by decide)).trans <| (V4_of m c main_arg2 (by decide)).trans <| (V3_of m c main_arg2 (by decide)).trans <|
    (V2_of m c main_arg2 (by decide)).trans <| (V1_of m c main_arg2 (by decide))
theorem v5_arg3 : V5 m c main_arg3 = m ((c : Thread nD τ).loc main_arg3) :=
  (V5_of m c main_arg3 (by decide)).trans <| (V4_of m c main_arg3 (by decide)).trans <| (V3_of m c main_arg3 (by decide)).trans <|
    (V2_of m c main_arg3 (by decide)).trans <| (V1_of m c main_arg3 (by decide))
theorem v5_arg4 : V5 m c main_arg4 = m ((c : Thread nD τ).loc main_arg4) :=
  (V5_of m c main_arg4 (by decide)).trans <| (V4_of m c main_arg4 (by decide)).trans <| (V3_of m c main_arg4 (by decide)).trans <|
    (V2_of m c main_arg4 (by decide)).trans <| (V1_of m c main_arg4 (by decide))
theorem v5_arg5 : V5 m c main_arg5 = m ((c : Thread nD τ).loc main_arg5) :=
  (V5_of m c main_arg5 (by decide)).trans <| (V4_of m c main_arg5 (by decide)).trans <| (V3_of m c main_arg5 (by decide)).trans <|
    (V2_of m c main_arg5 (by decide)).trans <| (V1_of m c main_arg5 (by decide))
theorem v5_arg6 : V5 m c main_arg6 = m ((c : Thread nD τ).loc main_arg6) :=
  (V5_of m c main_arg6 (by decide)).trans <| (V4_of m c main_arg6 (by decide)).trans <| (V3_of m c main_arg6 (by decide)).trans <|
    (V2_of m c main_arg6 (by decide)).trans <| (V1_of m c main_arg6 (by decide))
theorem v5_arg7 : V5 m c main_arg7 = m ((c : Thread nD τ).loc main_arg7) :=
  (V5_of m c main_arg7 (by decide)).trans <| (V4_of m c main_arg7 (by decide)).trans <| (V3_of m c main_arg7 (by decide)).trans <|
    (V2_of m c main_arg7 (by decide)).trans <| (V1_of m c main_arg7 (by decide))
theorem v5_arg8 : V5 m c main_arg8 = m ((c : Thread nD τ).loc main_arg8) :=
  (V5_of m c main_arg8 (by decide)).trans <| (V4_of m c main_arg8 (by decide)).trans <| (V3_of m c main_arg8 (by decide)).trans <|
    (V2_of m c main_arg8 (by decide)).trans <| (V1_of m c main_arg8 (by decide))
theorem v5_arg9 : V5 m c main_arg9 = m ((c : Thread nD τ).loc main_arg9) :=
  (V5_of m c main_arg9 (by decide)).trans <| (V4_of m c main_arg9 (by decide)).trans <| (V3_of m c main_arg9 (by decide)).trans <|
    (V2_of m c main_arg9 (by decide)).trans <| (V1_of m c main_arg9 (by decide))
theorem v5_arg10 : V5 m c main_arg10 = m ((c : Thread nD τ).loc main_arg10) :=
  (V5_of m c main_arg10 (by decide)).trans <| (V4_of m c main_arg10 (by decide)).trans <| (V3_of m c main_arg10 (by decide)).trans <|
    (V2_of m c main_arg10 (by decide)).trans <| (V1_of m c main_arg10 (by decide))
theorem v5_arg11 : V5 m c main_arg11 = m ((c : Thread nD τ).loc main_arg11) :=
  (V5_of m c main_arg11 (by decide)).trans <| (V4_of m c main_arg11 (by decide)).trans <| (V3_of m c main_arg11 (by decide)).trans <|
    (V2_of m c main_arg11 (by decide)).trans <| (V1_of m c main_arg11 (by decide))
theorem v5_arg12 : V5 m c main_arg12 = m ((c : Thread nD τ).loc main_arg12) :=
  (V5_of m c main_arg12 (by decide)).trans <| (V4_of m c main_arg12 (by decide)).trans <| (V3_of m c main_arg12 (by decide)).trans <|
    (V2_of m c main_arg12 (by decide)).trans <| (V1_of m c main_arg12 (by decide))

theorem v4_arg3 : V4 m c main_arg3 = m ((c : Thread nD τ).loc main_arg3) :=
  (V4_of m c main_arg3 (by decide)).trans <| (V3_of m c main_arg3 (by decide)).trans <|
    (V2_of m c main_arg3 (by decide)).trans <| (V1_of m c main_arg3 (by decide))
theorem v4_arg5 : V4 m c main_arg5 = m ((c : Thread nD τ).loc main_arg5) :=
  (V4_of m c main_arg5 (by decide)).trans <| (V3_of m c main_arg5 (by decide)).trans <|
    (V2_of m c main_arg5 (by decide)).trans <| (V1_of m c main_arg5 (by decide))
theorem v4_arg6 : V4 m c main_arg6 = m ((c : Thread nD τ).loc main_arg6) :=
  (V4_of m c main_arg6 (by decide)).trans <| (V3_of m c main_arg6 (by decide)).trans <|
    (V2_of m c main_arg6 (by decide)).trans <| (V1_of m c main_arg6 (by decide))

/-! ## The group words as a column -/

theorem v1_v4 : (V1 m c main_v4 : S50000x1.Idx → BitVec 32)
    = shapeCast S50000x1 (m ((c : Thread nD τ).loc main_arg2) : S50000.Idx → BitVec 32) shapeCasts_S50000_S50000x1 := by
  show StableHlo.after hostOps0 _ (Proc.devRef .tc main_v4) = _
  simp only [hostOps0]
  after_results
  rfl

theorem v5_v4 (n : Fin 50000) : (V5 m c main_v4 : S50000x1.Idx → BitVec 32) (ix2 n 0)
    = (m ((c : Thread nD τ).loc main_arg2) : S50000.Idx → BitVec 32) (ix1 n) := by
  have e : (V5 m c main_v4 : S50000x1.Idx → BitVec 32) = (V1 m c main_v4 : S50000x1.Idx → BitVec 32) :=
    (V5_of m c main_v4 (by decide)).trans <| (V4_of m c main_v4 (by decide)).trans <| (V3_of m c main_v4 (by decide)).trans <|
      (V2_of m c main_v4 (by decide))
  rw [e, v1_v4]
  exact Column.shapeCast_a_a1_apply _ _ n 0

/-! ## The two rows of the edge table as vectors -/

theorem v1_v1 : (V1 m c main_v1 : S800000.Idx → BitVec 32)
    = shapeCast S800000 (extractStridedSlice S1x800000 ![0, 0] (m ((c : Thread nD τ).loc main_arg1) : S2x800000.Idx → BitVec 32) slices_S2x800000_S1x800000_0_0) shapeCasts_S1x800000_S800000 := by
  show StableHlo.after hostOps0 _ (Proc.devRef .tc main_v1) = _
  simp only [hostOps0]
  after_results
  rfl

theorem v1_v3 : (V1 m c main_v3 : S800000.Idx → BitVec 32)
    = shapeCast S800000 (extractStridedSlice S1x800000 ![1, 0] (m ((c : Thread nD τ).loc main_arg1) : S2x800000.Idx → BitVec 32) slices_S2x800000_S1x800000_1_0) shapeCasts_S1x800000_S800000 := by
  show StableHlo.after hostOps0 _ (Proc.devRef .tc main_v3) = _
  simp only [hostOps0]
  after_results
  rfl

theorem v5_v1 (e : Fin 800000) : (V5 m c main_v1 : S800000.Idx → BitVec 32) (ix1 e)
    = (m ((c : Thread nD τ).loc main_arg1) : EdgeTab) (ix2 0 e) := by
  have h : (V5 m c main_v1 : S800000.Idx → BitVec 32) = (V1 m c main_v1 : S800000.Idx → BitVec 32) :=
    (V5_of m c main_v1 (by decide)).trans <| (V4_of m c main_v1 (by decide)).trans <| (V3_of m c main_v1 (by decide)).trans <|
      (V2_of m c main_v1 (by decide))
  rw [h, v1_v1, shapeCast_1a_a_apply]
  exact slice2_axis0_apply 0 _ _ (0 : Fin 1) e (0 : Fin 2) rfl

theorem v5_v3 (e : Fin 800000) : (V5 m c main_v3 : S800000.Idx → BitVec 32) (ix1 e)
    = (m ((c : Thread nD τ).loc main_arg1) : EdgeTab) (ix2 1 e) := by
  have h : (V5 m c main_v3 : S800000.Idx → BitVec 32) = (V1 m c main_v3 : S800000.Idx → BitVec 32) :=
    (V5_of m c main_v3 (by decide)).trans <| (V4_of m c main_v3 (by decide)).trans <| (V3_of m c main_v3 (by decide)).trans <|
      (V2_of m c main_v3 (by decide))
  rw [h, v1_v3, shapeCast_1a_a_apply]
  exact slice2_axis0_apply 1 _ _ (0 : Fin 1) e (1 : Fin 2) rfl

/-! ## The skip bias as a row -/

theorem stretch4_v20 (W : Valuation τ sig (Elt Ideal)) :
    (StableHlo.after hostOps0_4 W (Proc.devRef .tc main_v20) : S1x128.Idx → EReal)
      = shapeCast S1x128 (W (Proc.devRef .tc main_arg6) : S128.Idx → EReal) shapeCasts_S128_S1x128 := by
  simp only [hostOps0_4]
  after_results
  rfl

theorem v5_v20_eq : (V5 m c main_v20 : S1x128.Idx → EReal)
    = shapeCast S1x128 (V4 m c main_arg6 : S128.Idx → EReal) shapeCasts_S128_S1x128 :=
  stretch4_v20 (V4 m c)

theorem v5_v20 (j : Fin 128) : (V5 m c main_v20 : S1x128.Idx → EReal) (ix2 0 j)
    = (m ((c : Thread nD τ).loc main_arg6) : S128.Idx → EReal) (ix1 j) := by
  rw [v5_v20_eq, v4_arg6]
  exact shapeCast_a_1a_apply _ _ 0 j

/-! ## The two weight matrices side by side -/

theorem stretch4_v19 (W : Valuation τ sig (Elt Ideal)) :
    (StableHlo.after hostOps0_4 W (Proc.devRef .tc main_v19) : S128x256.Idx → EReal)
      = concatenate S128x256 1 [⟨S128x128, (W (Proc.devRef .tc main_arg3) : S128x128.Idx → EReal)⟩, ⟨S128x128, (W (Proc.devRef .tc main_arg5) : S128x128.Idx → EReal)⟩]
          concatenates_S128x128_S128x128_S128x256_d1 := by
  simp only [hostOps0_4]
  after_results

theorem v5_v19_eq : (V5 m c main_v19 : S128x256.Idx → EReal)
    = concatenate S128x256 1 [⟨S128x128, (V4 m c main_arg3 : S128x128.Idx → EReal)⟩, ⟨S128x128, (V4 m c main_arg5 : S128x128.Idx → EReal)⟩]
        concatenates_S128x128_S128x128_S128x256_d1 :=
  stretch4_v19 (V4 m c)

theorem v5_v19_lo (k j : Fin 128) : (V5 m c main_v19 : S128x256.Idx → EReal) (ix2 k ⟨j.val, by omega⟩)
    = (m ((c : Thread nD τ).loc main_arg3) : S128x128.Idx → EReal) (ix2 k j) := by
  rw [v5_v19_eq, v4_arg3, v4_arg5]
  refine concatenate_pair_apply_left (t := S128x256) (s₁ := S128x128) (s₂ := S128x128) (1 : Fin 2) _ _ _ _ rfl (ix2 k j) fun b => ?_
  match b with
  | ⟨0, _⟩ => rfl
  | ⟨1, _⟩ => rfl

theorem v5_v19_hi (k j : Fin 128) : (V5 m c main_v19 : S128x256.Idx → EReal) (ix2 k ⟨128 + j.val, by omega⟩)
    = (m ((c : Thread nD τ).loc main_arg5) : S128x128.Idx → EReal) (ix2 k j) := by
  rw [v5_v19_eq, v4_arg3, v4_arg5]
  refine concatenate_pair_apply_right (t := S128x256) (s₁ := S128x128) (s₂ := S128x128) (1 : Fin 2) _ _ _ _ rfl rfl (ix2 k j) (fun b hb => ?_) ?_
  · match b with
    | ⟨0, _⟩ => rfl
    | ⟨1, _⟩ => exact absurd rfl hb
  · show j.val + 128 = 128 + j.val
    omega

/-! ## The degree scale

The stretches before the first region compute the degree scale by the chain of operations the reference names
`val_main_v17`: each stretch is read over ANY earlier contents `W`, then the five are chained. -/

/-- A float per node. -/
abbrev VecF : Type := (⟨S50000, .f32⟩ : BufTy).Contents (Elt Ideal)
/-- A truth bit per node. -/
abbrev VecB : Type := (⟨S50000, .i1⟩ : BufTy).Contents (Elt Ideal)
/-- One float. -/
abbrev ScaF : Type := (⟨S_, .f32⟩ : BufTy).Contents (Elt Ideal)

/-- The first stretch leaves the edge count: ones scatter-added into zeros at the target words. -/
theorem stretch0_v8 (W : Valuation τ sig (Elt Ideal)) :
    (StableHlo.after hostOps0 W (Proc.devRef .tc main_v8) : VecF)
      = Cert.ReferenceIdeal.Read.val_main_v8 (F := Ideal) (W (Proc.devRef .tc main_arg1)) := by
  simp only [hostOps0]
  after_results
  rfl

/-- … the count compared with zero, -/
theorem stretch0_v10 (W : Valuation τ sig (Elt Ideal)) :
    (StableHlo.after hostOps0 W (Proc.devRef .tc main_v10) : VecB)
      = Cert.ReferenceIdeal.Read.val_main_v10 (F := Ideal) (W (Proc.devRef .tc main_arg1)) := by
  simp only [hostOps0]
  after_results
  rfl

/-- … compared with zero a second time, -/
theorem stretch0_v12 (W : Valuation τ sig (Elt Ideal)) :
    (StableHlo.after hostOps0 W (Proc.devRef .tc main_v12) : VecB)
      = Cert.ReferenceIdeal.Read.val_main_v12 (F := Ideal) (W (Proc.devRef .tc main_arg1)) := by
  simp only [hostOps0]
  after_results
  rfl

/-- … and the constant one. -/
theorem stretch0_cst3 (W : Valuation τ sig (Elt Ideal)) :
    (StableHlo.after hostOps0 W (Proc.devRef .tc main_cst_3) : ScaF)
      = Cert.ReferenceIdeal.Read.val_main_cst_3 (F := Ideal) := by
  simp only [hostOps0]
  after_results
  rfl

/-- The second stretch selects the count where it is positive and one elsewhere. -/
theorem stretch1_v13 (W : Valuation τ sig (Elt Ideal)) :
    (StableHlo.after hostOps0_1 W (Proc.devRef .tc main_v13) : VecF)
      = select (W (Proc.devRef .tc main_v12) : VecB) (W (Proc.devRef .tc main_v8) : VecF)
          (broadcastInDim S50000 ![] bcast_S_S50000 (id (W (Proc.devRef .tc main_cst_3) : ScaF))) := by
  simp only [hostOps0_1]
  after_results
  rfl

/-- The third stretch divides one by the square root, -/
theorem stretch2_v16 (W : Valuation τ sig (Elt Ideal)) :
    (StableHlo.after hostOps0_2 W (Proc.devRef .tc main_v16) : VecF)
      = Host.divf (broadcastInDim S50000 ![] bcast_S_S50000 (constant (F := Ideal) S_ .f32 0x3F800000#32))
          (Host.sqrt (W (Proc.devRef .tc main_v13) : VecF)) := by
  simp only [hostOps0_2]
  after_results

/-- … and leaves the constant zero. -/
theorem stretch2_cst5 (W : Valuation τ sig (Elt Ideal)) :
    (StableHlo.after hostOps0_2 W (Proc.devRef .tc main_cst_5) : ScaF)
      = Cert.ReferenceIdeal.Read.val_main_cst_5 (F := Ideal) := by
  simp only [hostOps0_2]
  after_results
  rfl

/-- The fourth stretch selects the quotient where the count is positive and zero elsewhere. -/
theorem stretch3_v17 (W : Valuation τ sig (Elt Ideal)) :
    (StableHlo.after hostOps0_3 W (Proc.devRef .tc main_v17) : VecF)
      = select (W (Proc.devRef .tc main_v10) : VecB) (W (Proc.devRef .tc main_v16) : VecF)
          (broadcastInDim S50000 ![] bcast_S_S50000 (id (W (Proc.devRef .tc main_cst_5) : ScaF))) := by
  simp only [hostOps0_3]
  after_results
  rfl

/-- The fifth stretch casts the scale to a column. -/
theorem stretch4_v18 (W : Valuation τ sig (Elt Ideal)) :
    (StableHlo.after hostOps0_4 W (Proc.devRef .tc main_v18) : S50000x1.Idx → EReal)
      = shapeCast S50000x1 (W (Proc.devRef .tc main_v17) : VecF) shapeCasts_S50000_S50000x1 := by
  simp only [hostOps0_4]
  after_results
  rfl

/-- After the fourth stretch the scale buffer holds the reference's degree scale of the edge table. -/
theorem v4_v17 : (V4 m c main_v17 : VecF)
    = Cert.ReferenceIdeal.Read.val_main_v17 (F := Ideal) (m ((c : Thread nD τ).loc main_arg1) : EdgeTab) := by
  have h10 : (V3 m c main_v10 : VecB) = Cert.ReferenceIdeal.Read.val_main_v10 (F := Ideal) (m ((c : Thread nD τ).loc main_arg1) : EdgeTab) :=
    (V3_of m c main_v10 (by decide)).trans <| (V2_of m c main_v10 (by decide)).trans <| stretch0_v10 (V0 m c)
  have h13 : (V2 m c main_v13 : VecF) = Cert.ReferenceIdeal.Read.val_main_v13 (F := Ideal) (m ((c : Thread nD τ).loc main_arg1) : EdgeTab) := by
    refine (stretch1_v13 (V1 m c)).trans ?_
    rw [show (V1 m c (Proc.devRef .tc main_v12) : VecB) = _ from stretch0_v12 (V0 m c),
      show (V1 m c (Proc.devRef .tc main_v8) : VecF) = _ from stretch0_v8 (V0 m c),
      show (V1 m c (Proc.devRef .tc main_cst_3) : ScaF) = _ from stretch0_cst3 (V0 m c)]
    rfl
  have h16 : (V3 m c main_v16 : VecF) = Cert.ReferenceIdeal.Read.val_main_v16 (F := Ideal) (m ((c : Thread nD τ).loc main_arg1) : EdgeTab) := by
    refine (stretch2_v16 (V2 m c)).trans ?_
    rw [show (V2 m c (Proc.devRef .tc main_v13) : VecF) = _ from h13]
    rfl
  have h5 : (V3 m c main_cst_5 : ScaF) = Cert.ReferenceIdeal.Read.val_main_cst_5 (F := Ideal) := stretch2_cst5 (V2 m c)
  refine (stretch3_v17 (V3 m c)).trans ?_
  rw [show (V3 m c (Proc.devRef .tc main_v10) : VecB) = _ from h10,
    show (V3 m c (Proc.devRef .tc main_v16) : VecF) = _ from h16,
    show (V3 m c (Proc.devRef .tc main_cst_5) : ScaF) = _ from h5]
  rfl

/-- The scale column the first region reads: at row n, the degree scale of node n. -/
theorem v5_v18 (n : Fin 50000) : (V5 m c main_v18 : S50000x1.Idx → EReal) (ix2 n 0)
    = Cert.Bridge.disOf (m ((c : Thread nD τ).loc main_arg1) : EdgeTab) n := by
  have e : (V5 m c main_v18 : S50000x1.Idx → EReal) = shapeCast S50000x1 (V4 m c main_v17 : VecF) shapeCasts_S50000_S50000x1 :=
    stretch4_v18 (V4 m c)
  rw [e, v4_v17]
  exact Column.shapeCast_a_a1_apply _ _ n 0

end Cert.KernelIdeal.Val
end
-- ==== Proof.KiValue1.lean ====
import proofs.«422353_j75677323755530_3_alg».proof.Proof.KiRegion1
import proofs.«422353_j75677323755530_3_alg».proof.Proof.LibPlainDot
import proofs.«422353_j75677323755530_3_alg».proof.Proof.LibColumn
import Idealize.ShloMosaic.PureOps.Ideal.Laws
import Idealize.ShloMosaic.Lib.ValueIdx
import Idealize.ShloMosaic.Lib.Pipeline.Value
import Idealize.ShloMosaic.Lib.ValueLayout

/-! # What region 1 leaves in its two output arrays, on the extended reals

With `d` the degree-scale column, `agg` the aggregated messages, `skip` the skip term, `b` the bias row, the hidden
row of node `n` is `h n k = max (d n · agg n k + skip n k + b k) 0`. The first output array ends holding
`(∑ k, h n k · W k f) · d n` at `(n, f)` and the second `(∑ k, h n k · L k f) + cc f`: each grid point writes the
5000 rows it owns, the ten points' row blocks tile the 50000 rows. -/

set_option maxRecDepth 16384

noncomputable section

namespace Cert.KernelIdeal.Val1

open Cert.KernelIdeal Cert.KernelIdeal.Gen Cert.KernelIdeal.Reg
open Idealize.ShloMosaic Idealize.ShloMosaic.TcCoe Idealize.ShloMosaic.ValueIdx
open Idealize.SL.Sem
open Idealize.ShloMosaic.Pipeline (Dat)
open scoped BigOperators

-- what the TensorCore's buffers hold when region 1 is entered
variable (V : (c : Dev nD) → (b : Ref sig .tc) → Buf (Elt Ideal) ((c : Thread nD τ).loc b))

/-! ## The body's two stored values at an entry of the block -/

theorem zero_offsets : (![0, 0] : Fin 2 → Nat) = fun _ => 0 := funext fun a => by fin_cases a <;> rfl

/-- The hidden row at `(p, k)` of the block: the rectified `d·agg + skip + b`; rounding to the narrow format is the
    identity on the extended reals and the zero word is `0`. -/
theorem hidden_apply (v0 : Vec Ideal S5000x1 .f32) (v2 v6 : Vec Ideal S5000x128 .f32) (v9 : Vec Ideal S1x128 .f32)
    (p : Fin 5000) (k : Fin 128) :
    k1_pay2 v0 v2 v6 v9 (ix2 p k) = max (v0 (ix2 p 0) * v2 (ix2 p k) + v6 (ix2 p k) + v9 (ix2 0 k)) 0 := by
  unfold k1_pay2 k1_pay1
  simp only [truncf_apply, maximumf_apply, addf_apply, mulf_apply, broadcast_apply, shapeCast_self,
    Column.broadcastTo_a1_ab_apply, broadcastTo_1b_ab_apply, Ideal.ofBits_def, Ideal.ofBits_zero_f32]

/-- The two projections contract the hidden row's 128 features against a 128×64 matrix: a plain product. -/
theorem dims_plain : dot_S5000x128_S128x64_S5000x64_1_0_0_1_n_n = DotDims.plain 5000 128 64 := rfl

/-- The first stored value at `(p, q)`: the hidden row times column `q` of the weights, scaled by the row's degree scale. -/
theorem first_apply (v0 : Vec Ideal S5000x1 .f32) (v2 v6 : Vec Ideal S5000x128 .f32) (v9 : Vec Ideal S1x128 .f32)
    (v16 : Vec Ideal S128x64 .f32) (p : Fin 5000) (q : Fin 64) :
    k1_pay3 v0 v2 v6 v9 v16 (ix2 p q)
      = (∑ k : Fin 128, max (v0 (ix2 p 0) * v2 (ix2 p k) + v6 (ix2 p k) + v9 (ix2 0 k)) 0 * v16 (ix2 k q)) * v0 (ix2 p 0) := by
  unfold k1_pay3 k1_pay1
  simp only [mulf_apply, shapeCast_self, Column.broadcastTo_a1_ab_apply, dims_plain]
  have e := PlainDot.matmul_zero_apply (M := 5000) (K := 128) (N := 64) none (k1_pay2 v0 v2 v6 v9) (truncf .bf16 v16 bitsLt_bf16_f32) p q
  simp only [hidden_apply, truncf_apply] at e
  exact congrArg (· * v0 (ix2 p 0)) e

/-- The second stored value at `(p, q)`: the hidden row times column `q` of the second weights, plus the bias at `q`. -/
theorem second_apply (v0 : Vec Ideal S5000x1 .f32) (v2 v6 : Vec Ideal S5000x128 .f32) (v9 : Vec Ideal S1x128 .f32)
    (v18 : Vec Ideal S128x64 .f32) (v25 : Vec Ideal S1x64 .f32) (p : Fin 5000) (q : Fin 64) :
    k1_pay4 v0 v2 v6 v9 v18 v25 (ix2 p q)
      = (∑ k : Fin 128, max (v0 (ix2 p 0) * v2 (ix2 p k) + v6 (ix2 p k) + v9 (ix2 0 k)) 0 * v18 (ix2 k q)) + v25 (ix2 0 q) := by
  unfold k1_pay4
  simp only [addf_apply, shapeCast_self, broadcastTo_1b_ab_apply, dims_plain]
  have e := PlainDot.matmul_zero_apply (M := 5000) (K := 128) (N := 64) none (k1_pay2 v0 v2 v6 v9) (truncf .bf16 v18 bitsLt_bf16_f32) p q
  simp only [hidden_apply, truncf_apply] at e
  exact congrArg (· + v25 (ix2 0 q)) e

/-! ## Where each window's block sits in its array -/

/-- Block indices over the grid: the five row-blocked windows are at row block `t`, the bias rows and the two
    weight matrices at their only block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Grid point `t` owns rows `5000·t … 5000·t + 4999`. -/
def rowOf (t : Fin cfg1.N) (p : Fin 5000) : Fin 50000 :=
  ⟨t.val * 5000 + p.val, by have h : t.val < 10 := Nat.lt_of_lt_of_eq t.isLt N_1; have := p.isLt; omega⟩

theorem rowOf_val (t : Fin cfg1.N) (p : Fin 5000) : (rowOf t p).val = t.val * 5000 + p.val := rfl

/-- Row `p` of the agg block at point `t` is row `5000·t + p` of the array. -/
theorem agg_block (c : Dev nD) (t : Fin cfg1.N) (p : Fin 5000) (k : Fin 128) :
    (iblk1 V c 0 t : Vec Ideal S5000x128 .f32) (ix2 p k) = (V c main_v31 : S50000x128.Idx → EReal) (ix2 (rowOf t p) k) := by
  obtain ⟨e0, e1, -⟩ := block_index t
  unfold iblk1
  rw [View.read_apply]
  show V c main_v31 _ = V c main_v31 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Row `p` of the skip block at point `t` is row `5000·t + p` of the array. -/
theorem skip_block (c : Dev nD) (t : Fin cfg1.N) (p : Fin 5000) (k : Fin 128) :
    (iblk1 V c 1 t : Vec Ideal S5000x128 .f32) (ix2 p k) = (V c main_v21_1 : S50000x128.Idx → EReal) (ix2 (rowOf t p) k) := by
  obtain ⟨-, -, e0, e1, -⟩ := block_index t
  unfold iblk1
  rw [View.read_apply]
  show V c main_v21_1 _ = V c main_v21_1 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The bias row's block is the whole row at every point. -/
theorem bias_block (c : Dev nD) (t : Fin cfg1.N) (u : Fin 1) (k : Fin 128) :
    (iblk1 V c 2 t : Vec Ideal S1x128 .f32) (ix2 u k) = (V c main_v32 : S1x128.Idx → EReal) (ix2 u k) := by
  obtain ⟨-, -, -, -, e0, e1, -⟩ := block_index t
  unfold iblk1
  rw [View.read_apply]
  show V c main_v32 _ = V c main_v32 _
  congr 1
  funext a
  apply Fin.ext
  match a with
  | ⟨0, _⟩ => show win1_2.index t (0 : Fin 2) * 1 + 1 * u.val = u.val; rw [e0]; omega
  | ⟨1, _⟩ => show win1_2.index t (1 : Fin 2) * 128 + 1 * k.val = k.val; rw [e1]; omega

/-- Row `p` of the degree-scale block at point `t` is row `5000·t + p` of the column. -/
theorem scale_block (c : Dev nD) (t : Fin cfg1.N) (p : Fin 5000) (u : Fin 1) :
    (iblk1 V c 3 t : Vec Ideal S5000x1 .f32) (ix2 p u) = (V c main_v18 : S50000x1.Idx → EReal) (ix2 (rowOf t p) u) := by
  obtain ⟨-, -, -, -, -, -, e0, e1, -⟩ := block_index t
  unfold iblk1
  rw [View.read_apply]
  show V c main_v18 _ = V c main_v18 _
  congr 1
  funext a
  apply Fin.ext
  match a with
  | ⟨0, _⟩ => show win1_3.index t (0 : Fin 2) * 5000 + 1 * p.val = t.val * 5000 + p.val; rw [e0]; omega
  | ⟨1, _⟩ => show win1_3.index t (1 : Fin 2) * 1 + 1 * u.val = u.val; rw [e1]; omega

/-- The first weight matrix's block is the whole matrix at every point. -/
theorem weights_block (c : Dev nD) (t : Fin cfg1.N) (k : Fin 128) (q : Fin 64) :
    (iblk1 V c 4 t : Vec Ideal S128x64 .f32) (ix2 k q) = (V c main_arg7 : S128x64.Idx → EReal) (ix2 k q) := by
  obtain ⟨-, -, -, -, -, -, -, -, e0, e1, -⟩ := block_index t
  unfold iblk1
  rw [View.read_apply]
  show V c main_arg7 _ = V c main_arg7 _
  congr 1
  funext a
  apply Fin.ext
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- The second weight matrix's block is the whole matrix at every point. -/
theorem weights2_block (c : Dev nD) (t : Fin cfg1.N) (k : Fin 128) (q : Fin 64) :
    (iblk1 V c 5 t : Vec Ideal S128x64 .f32) (ix2 k q) = (V c main_arg9 : S128x64.Idx → EReal) (ix2 k q) := by
  obtain ⟨-, -, -, -, -, -, -, -, -, -, e0, e1, -⟩ := block_index t
  unfold iblk1
  rw [View.read_apply]
  show V c main_arg9 _ = V c main_arg9 _
  congr 1
  funext a
  apply Fin.ext
  match a with
  | ⟨0, _⟩ => show win1_5.index t (0 : Fin 2) * 128 + 1 * k.val = k.val; rw [e0]; omega
  | ⟨1, _⟩ => show win1_5.index t (1 : Fin 2) * 64 + 1 * q.val = q.val; rw [e1]; omega

/-- The second bias row's block is the whole row at every point. -/
theorem bias2_block (c : Dev nD) (t : Fin cfg1.N) (u : Fin 1) (q : Fin 64) :
    (iblk1 V c 6 t : Vec Ideal S1x64 .f32) (ix2 u q) = (V c main_v33 : S1x64.Idx → EReal) (ix2 u q) := by
  obtain ⟨-, -, -, -, -, -, -, -, -, -, -, -, e0, e1, -⟩ := block_index t
  unfold iblk1
  rw [View.read_apply]
  show V c main_v33 _ = V c main_v33 _
  congr 1
  funext a
  apply Fin.ext
  match a with
  | ⟨0, _⟩ => show win1_6.index t (0 : Fin 2) * 1 + 1 * u.val = u.val; rw [e0]; omega
  | ⟨1, _⟩ => show win1_6.index t (1 : Fin 2) * 64 + 1 * q.val = q.val; rw [e1]; omega

/-- Entry `(p, q)` of the first output's block at point `t` is entry `(5000·t + p, q)` of the array. -/
theorem out7_emb (t : Fin cfg1.N) (p : Fin 5000) (q : Fin 64) :
    (((cfg1.win 7).blk t).view.emb (ix2 p q) : S50000x64.Idx) = ix2 (rowOf t p) q := by
  obtain ⟨-, -, -, -, -, -, -, -, -, -, -, -, -, -, e0, e1, -⟩ := block_index t
  funext a
  apply Fin.ext
  match a with
  | ⟨0, _⟩ => show win1_7.index t (0 : Fin 2) * 5000 + 1 * p.val = t.val * 5000 + p.val; rw [e0]; omega
  | ⟨1, _⟩ => show win1_7.index t (1 : Fin 2) * 64 + 1 * q.val = q.val; rw [e1]; omega

/-- The same for the second output. -/
theorem out8_emb (t : Fin cfg1.N) (p : Fin 5000) (q : Fin 64) :
    (((cfg1.win 8).blk t).view.emb (ix2 p q) : S50000x64.Idx) = ix2 (rowOf t p) q := by
  obtain ⟨-, -, -, -, -, -, -, -, -, -, -, -, -, -, -, -, e0, e1⟩ := block_index t
  funext a
  apply Fin.ext
  match a with
  | ⟨0, _⟩ => show win1_8.index t (0 : Fin 2) * 5000 + 1 * p.val = t.val * 5000 + p.val; rw [e0]; omega
  | ⟨1, _⟩ => show win1_8.index t (1 : Fin 2) * 64 + 1 * q.val = q.val; rw [e1]; omega

/-! ## The two output arrays as functions of the region's input arrays -/

/-- The first output array, entry by entry: `(∑ k, h n k · W k f) · d n`. -/
def proj1 (agg skip : S50000x128.Idx → EReal) (b : S1x128.Idx → EReal) (d : S50000x1.Idx → EReal)
    (W : S128x64.Idx → EReal) : S50000x64.Idx → EReal := fun i =>
  (∑ k : Fin 128, max (d (ix2 (i 0) 0) * agg (ix2 (i 0) k) + skip (ix2 (i 0) k) + b (ix2 0 k)) 0 * W (ix2 k (i 1))) * d (ix2 (i 0) 0)

/-- The second output array, entry by entry: `(∑ k, h n k · L k f) + cc f`. -/
def proj2 (agg skip : S50000x128.Idx → EReal) (b : S1x128.Idx → EReal) (d : S50000x1.Idx → EReal)
    (L : S128x64.Idx → EReal) (cc : S1x64.Idx → EReal) : S50000x64.Idx → EReal := fun i =>
  (∑ k : Fin 128, max (d (ix2 (i 0) 0) * agg (ix2 (i 0) k) + skip (ix2 (i 0) k) + b (ix2 0 k)) 0 * L (ix2 k (i 1))) + cc (ix2 0 (i 1))

/-- What point `t` writes back to the first output is block `t` of `proj1` of the arrays as the region finds them. -/
theorem flushed7_eq (c : Dev nD) (t : Fin cfg1.N) :
    (dat1 (F := Ideal) V c).flushed 7 t = ((cfg1.win 7).blk t).view.read (Elt Ideal)
      (proj1 (V c main_v31) (V c main_v21_1) (V c main_v32) (V c main_v18) (V c main_arg7)) := by
  show (cfg1.win 7).cut (grid1.coords t) ((dat1 (F := Ideal) V c).after 7 t) = _
  rw [after1_7]
  unfold out1_7
  rw [View.canon_unit_zero zero_offsets]
  simp only [View.ld_unit_zero (S := S5000x128) zero_offsets, View.ld_unit_zero (S := S1x128) zero_offsets,
    View.ld_unit_zero (S := S5000x1) zero_offsets, View.ld_unit_zero (S := S128x64) zero_offsets]
  refine funext fun (j : S5000x64.Idx) => ?_
  obtain ⟨p, q, rfl⟩ : ∃ (p : Fin 5000) (q : Fin 64), j = ix2 p q := ⟨j 0, j 1, eq_ix2 j⟩
  rw [View.read_apply]
  show k1_pay3 (F := Ideal) _ _ _ _ _ (ix2 p q) = proj1 _ _ _ _ _ (((cfg1.win 7).blk t).view.emb (ix2 p q))
  rw [out7_emb, first_apply]
  unfold proj1
  simp only [agg_block, skip_block, bias_block, scale_block, weights_block]

/-- What point `t` writes back to the second output is block `t` of `proj2` of the arrays as the region finds them. -/
theorem flushed8_eq (c : Dev nD) (t : Fin cfg1.N) :
    (dat1 (F := Ideal) V c).flushed 8 t = ((cfg1.win 8).blk t).view.read (Elt Ideal)
      (proj2 (V c main_v31) (V c main_v21_1) (V c main_v32) (V c main_v18) (V c main_arg9) (V c main_v33)) := by
  show (cfg1.win 8).cut (grid1.coords t) ((dat1 (F := Ideal) V c).after 8 t) = _
  rw [after1_8]
  unfold out1_8
  rw [View.canon_unit_zero zero_offsets]
  simp only [View.ld_unit_zero (S := S5000x128) zero_offsets, View.ld_unit_zero (S := S1x128) zero_offsets,
    View.ld_unit_zero (S := S5000x1) zero_offsets, View.ld_unit_zero (S := S128x64) zero_offsets,
    View.ld_unit_zero (S := S1x64) zero_offsets]
  refine funext fun (j : S5000x64.Idx) => ?_
  obtain ⟨p, q, rfl⟩ : ∃ (p : Fin 5000) (q : Fin 64), j = ix2 p q := ⟨j 0, j 1, eq_ix2 j⟩
  rw [View.read_apply]
  show k1_pay4 (F := Ideal) _ _ _ _ _ _ (ix2 p q) = proj2 _ _ _ _ _ _ (((cfg1.win 8).blk t).view.emb (ix2 p q))
  rw [out8_emb, second_apply]
  unfold proj2
  simp only [agg_block, skip_block, bias_block, scale_block, weights2_block, bias2_block]

/-! ## The ten row blocks tile each output array -/

/-- An entry of the first output array is in point `t`'s block iff each coordinate is in the block's range. -/
theorem mem_blk7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v34_0).slice (win1_7.rect t)).set ↔ _
  rw [View.set_slice_whole, Rect.mem_set_unit]
  exact Iff.rfl

theorem mem_blk8 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v34_1).slice (win1_8.rect t)).set ↔ _
  rw [View.set_slice_whole, Rect.mem_set_unit]
  exact Iff.rfl

/-- Row `r` is written by point `r / 5000`. -/
theorem owner (i : S50000x64.Idx) : ∃ t : Fin cfg1.N, t.val = (i 0).val / 5000 := by
  have hi0 : (i 0).val < 50000 := (i 0).isLt
  exact ⟨⟨(i 0).val / 5000, by rw [show cfg1.N = 10 from N_1]; omega⟩, rfl⟩

theorem cover7 (i : S50000x64.Idx) : ∃ t : Fin cfg1.N, (cfg1.win 7).flush t = true ∧ i ∈ ((cfg1.win 7).blk t).view.set := by
  obtain ⟨t, ht⟩ := owner i
  obtain ⟨-, -, -, -, -, -, -, -, -, -, -, -, -, -, e0, e1, -⟩ := block_index t
  have hi0 : (i 0).val < 50000 := (i 0).isLt
  have hi1 : (i 1).val < 64 := (i 1).isLt
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; rw [e0]; omega
  | ⟨1, _⟩ => show win1_7.index t (1 : Fin 2) * 64 ≤ (i 1).val ∧ (i 1).val < win1_7.index t (1 : Fin 2) * 64 + 64; rw [e1]; omega

theorem cover8 (i : S50000x64.Idx) : ∃ t : Fin cfg1.N, (cfg1.win 8).flush t = true ∧ i ∈ ((cfg1.win 8).blk t).view.set := by
  obtain ⟨t, ht⟩ := owner i
  obtain ⟨-, -, -, -, -, -, -, -, -, -, -, -, -, -, -, -, e0, e1⟩ := block_index t
  have hi0 : (i 0).val < 50000 := (i 0).isLt
  have hi1 : (i 1).val < 64 := (i 1).isLt
  refine ⟨t, flush1_8 t, ?_⟩
  rw [mem_blk8]
  intro a
  match a with
  | ⟨0, _⟩ => show win1_8.index t (0 : Fin 2) * 5000 ≤ (i 0).val ∧ (i 0).val < win1_8.index t (0 : Fin 2) * 5000 + 5000; rw [e0]; omega
  | ⟨1, _⟩ => show win1_8.index t (1 : Fin 2) * 64 ≤ (i 1).val ∧ (i 1).val < win1_8.index t (1 : Fin 2) * 64 + 64; rw [e1]; omega

/-! ## The two arrays after the region -/

/-- The first output array ends holding `proj1` of the arrays as the region finds them. -/
theorem array7 (c : Dev nD) : (dat1 (F := Ideal) V c).arrAt 7 cfg1.N
    = proj1 (V c main_v31) (V c main_v21_1) (V c main_v32) (V c main_v18) (V c main_arg7) :=
  (dat1 (F := Ideal) V c).arrAt_eq_of_cover 7 _ (fun t _ => flushed7_eq V c t) cover7

/-- The second output array ends holding `proj2` of the arrays as the region finds them. -/
theorem array8 (c : Dev nD) : (dat1 (F := Ideal) V c).arrAt 8 cfg1.N
    = proj2 (V c main_v31) (V c main_v21_1) (V c main_v32) (V c main_v18) (V c main_arg9) (V c main_v33) :=
  (dat1 (F := Ideal) V c).arrAt_eq_of_cover 8 _ (fun t _ => flushed8_eq V c t) cover8

/-- The region's seven input arrays as it finds them, each at its literal index type. -/
abbrev aggIn (c : Dev nD) : S50000x128.Idx → EReal := V c main_v31
abbrev skipIn (c : Dev nD) : S50000x128.Idx → EReal := V c main_v21_1
abbrev biasIn (c : Dev nD) : S1x128.Idx → EReal := V c main_v32
abbrev scaleIn (c : Dev nD) : S50000x1.Idx → EReal := V c main_v18
abbrev weightIn (c : Dev nD) : S128x64.Idx → EReal := V c main_arg7
abbrev weight2In (c : Dev nD) : S128x64.Idx → EReal := V c main_arg9
abbrev bias2In (c : Dev nD) : S1x64.Idx → EReal := V c main_v33

/-- Entry `(n, f)` of the first output array after the region. -/
theorem final1_7 (c : Dev nD) (n : Fin 50000) (f : Fin 64) :
    ((dat1 (F := Ideal) V c).arrAt 7 cfg1.N : S50000x64.Idx → EReal) (ix2 n f)
      = (∑ k : Fin 128, max (scaleIn V c (ix2 n 0) * aggIn V c (ix2 n k) + skipIn V c (ix2 n k) + biasIn V c (ix2 0 k)) 0
          * weightIn V c (ix2 k f)) * scaleIn V c (ix2 n 0) :=
  congrFun (array7 V c) (ix2 n f)

/-- Entry `(n, f)` of the second output array after the region. -/
theorem final1_8 (c : Dev nD) (n : Fin 50000) (f : Fin 64) :
    ((dat1 (F := Ideal) V c).arrAt 8 cfg1.N : S50000x64.Idx → EReal) (ix2 n f)
      = (∑ k : Fin 128, max (scaleIn V c (ix2 n 0) * aggIn V c (ix2 n k) + skipIn V c (ix2 n k) + biasIn V c (ix2 0 k)) 0
          * weight2In V c (ix2 k f)) + bias2In V c (ix2 0 f) :=
  congrFun (array8 V c) (ix2 n f)

end Cert.KernelIdeal.Val1

end
-- ==== Proof.KiValue2.lean ====
/-
  The third kernel's values on the extended reals.

  Over 25 grid points the kernel adds into a 512 × 64 accumulator, reset to zero at the first point, the product of
  the transposed 0/1 selector of a block of 2000 nodes (entry (r, g) is one when node r's group word is the numeral g)
  with the block's combined rows d · agg + skip + b, and at the last point stores relu(accumulator) · Wh + bh. This
  module reads the three payloads at an index, folds the accumulator's recurrence over the points into one sum
  over all 50000 nodes (point t contributes the nodes 2000 t … 2000 t + 1999; only commutativity and associativity
  of the addition are used), and reads the output array after the run: at group g it is
  Σ_f max (Σ_n sel n g · h2 n f) 0 · wh f + bh.
-/
import proofs.«422353_j75677323755530_3_alg».proof.Proof.KiRegion2
import proofs.«422353_j75677323755530_3_alg».proof.Proof.LibPlainDot
import Idealize.ShloMosaic.PureOps.Ideal.Laws
import Idealize.ShloMosaic.Lib.ValueIdx
import Idealize.ShloMosaic.Lib.Pipeline.Value

set_option maxRecDepth 16384

noncomputable section

namespace Cert.KernelIdeal.Val2

open Idealize.ShloMosaic Idealize.SL.Sem Idealize.ShloMosaic.ValueIdx Cert.KernelIdeal Cert.KernelIdeal.Gen Cert.KernelIdeal.Reg
open Idealize.ShloMosaic.TcCoe
open scoped BigOperators

/-! ## The pooling product: both operands contracted over their first axis

The four coordinate facts: the left operand is read at (contraction position, row of the result), the right operand at
(contraction position, column of the result). -/

theorem plhs_0 (i : S512x64.Idx) (q : dot_S2000x512_S2000x64_S512x64_0_0_1_1_n_n.contr.Idx) :
    (dot_S2000x512_S2000x64_S512x64_0_0_1_1_n_n.lhsIdx i q 0).val = (q ⟨0, Nat.one_pos⟩).val :=
  dot_S2000x512_S2000x64_S512x64_0_0_1_1_n_n.lhsIdx_val_of_single rfl i q

theorem plhs_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl

theorem prhs_0 (i : S512x64.Idx) (q : dot_S2000x512_S2000x64_S512x64_0_0_1_1_n_n.contr.Idx) :
    (dot_S2000x512_S2000x64_S512x64_0_0_1_1_n_n.rhsIdx i q 0).val = (q ⟨0, Nat.one_pos⟩).val :=
  dot_S2000x512_S2000x64_S512x64_0_0_1_1_n_n.rhsIdx_val_of_single rfl i q

theorem prhs_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

/-- The pooling product's contraction sum at entry (g, f), re-indexed by the row of the block. -/
theorem sum_pool {α : Type} [AddCommMonoid α] (fn : S2000x512.Idx → S2000x64.Idx → α) (g : Fin 512) (f : Fin 64) :
    ∑ q : dot_S2000x512_S2000x64_S512x64_0_0_1_1_n_n.contr.Idx,
        fn (dot_S2000x512_S2000x64_S512x64_0_0_1_1_n_n.lhsIdx (ix2 g f) q) (dot_S2000x512_S2000x64_S512x64_0_0_1_1_n_n.rhsIdx (ix2 g f) q)
      = ∑ k : Fin 2000, fn (ix2 k g) (ix2 k f) := by
  rw [← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g f) ((contrEquiv1 dot_S2000x512_S2000x64_S512x64_0_0_1_1_n_n 2000 rfl rfl).symm k) = ix2 k g :=
    funext fun a => Fin.ext (by
      match a with
      | ⟨0, _⟩ => exact (plhs_0 _ _).trans hk
      | ⟨1, _⟩ => exact plhs_1 _ _)
  have er : dot_S2000x512_S2000x64_S512x64_0_0_1_1_n_n.rhsIdx (ix2 g f) ((contrEquiv1 dot_S2000x512_S2000x64_S512x64_0_0_1_1_n_n 2000 rfl rfl).symm k) = ix2 k f :=
    funext fun a => Fin.ext (by
      match a with
      | ⟨0, _⟩ => exact (prhs_0 _ _).trans hk
      | ⟨1, _⟩ => exact prhs_1 _ _)
  rw [el, er]

/-- The pooling product onto a zero accumulator at entry (g, f): the sum over the block's rows k of the left operand
    at (k, g) times the right operand at (k, f). -/
theorem pool_matmul_apply {φ₁ φ₂ : FTy} (prec : Option ContractPrecision)
    (l : FVec Ideal S2000x512 φ₁) (r : FVec Ideal S2000x64 φ₂) (g : Fin 512) (f : Fin 64) :
    FloatOps.matmul dot_S2000x512_S2000x64_S512x64_0_0_1_1_n_n prec l r (constant (F := Ideal) S512x64 .f32 0x00000000#32) (ix2 g f)
      = ∑ k : Fin 2000, l (ix2 k g) * r (ix2 k f) := by
  rw [Ideal.matmul_constant_zero_apply]
  exact sum_pool (fun a b => l a * r b) g f

/-- The zero word of the 32-bit format is the number zero. -/
theorem pay1_apply (g : Fin 512) (f : Fin 64) : (k2_pay1 (F := Ideal)) (ix2 g f) = 0 := by
  unfold k2_pay1
  rw [shapeCast_self]
  show Ideal.ofBits .f32 0x00000000#32 = 0
  exact Ideal.ofBits_zero_f32

/-- The selector entry at (r, g): one when row r's group word is the column number g, zero otherwise. The
    column number is the second coordinate; the comparison's bit, widened to a word and read signed, is 1 or 0. -/
theorem onehot_apply (v16 : Vec Ideal S2000x1 .i32) (r : Fin 2000) (g : Fin 512) :
    (sitofp .f32 (extui 32 (cmpi .eq (iota .tc S2000x512 32 [1] iota_S2000x512_d1_w32)
        (broadcastTo S2000x512 (shapeCast S2000x1 v16 shapeCasts_S2000x1_S2000x1) broadcasts_S2000x1_S2000x512)) natLt_1_32)
      : FVec Ideal S2000x512 .f32) (ix2 r g)
      = if v16 (ix2 r 0) = BitVec.ofNat 32 g.val then 1 else 0 := by
  rw [sitofp_apply, extui_apply]
  show FloatOps.sitofp (F := Ideal) .f32 ((IntOp.cmpi .eq (iota .tc S2000x512 32 [1] iota_S2000x512_d1_w32 (ix2 r g))
      (broadcastTo S2000x512 (shapeCast S2000x1 v16 shapeCasts_S2000x1_S2000x1) broadcasts_S2000x1_S2000x512 (ix2 r g))).setWidth 32) = _
  rw [iota_single_apply, shapeCast_self,
    broadcastTo_apply v16 broadcasts_S2000x1_S2000x512 (ix2 r g) (ix2 r 0) (by
      intro a
      match a with
      | ⟨0, _⟩ => rfl
      | ⟨1, _⟩ => rfl)]
  show (((((IntOp.cmpi .eq (BitVec.ofNat 32 g.val) (v16 (ix2 r 0))).setWidth 32).toInt : ℝ)) : EReal) = _
  by_cases h : v16 (ix2 r 0) = BitVec.ofNat 32 g.val
  · rw [if_pos h, h]
    have : IntOp.cmpi .eq (BitVec.ofNat 32 g.val) (BitVec.ofNat 32 g.val) = 1#1 := by
      simp [IntOp.cmpi]
    rw [this]
    have : ((1#1).setWidth 32).toInt = 1 := by decide
    rw [this]
    norm_num
  · rw [if_neg h]
    have : IntOp.cmpi .eq (BitVec.ofNat 32 g.val) (v16 (ix2 r 0)) = 0#1 := by
      have hne : ¬ BitVec.ofNat 32 g.val = v16 (ix2 r 0) := fun e => h e.symm
      have hb : (BitVec.ofNat 32 g.val == v16 (ix2 r 0)) = false := by
        rw [beq_eq_false_iff_ne]; exact hne
      show BitVec.ofBool (BitVec.ofNat 32 g.val == v16 (ix2 r 0)) = 0#1
      rw [hb]; rfl
    rw [this]
    have : ((0#1).setWidth 32).toInt = 0 := by decide
    rw [this]
    norm_num

/-- The new accumulator at (g, f): the old entry plus, over the 2000 rows of the block, the selector entry times
    the row's combined value (degree scale times the aggregated row, plus the skip row, plus the bias). The product
    contracts the first axis of both operands, onto a zero accumulator, and is then added to the old one. -/
theorem pay2_apply (v3 : Vec Ideal S2000x1 .f32) (v5 v9 : Vec Ideal S2000x64 .f32) (v12 : Vec Ideal S1x64 .f32)
    (v16 : Vec Ideal S2000x1 .i32) (v23 : Vec Ideal S512x64 .f32) (g : Fin 512) (f : Fin 64) :
    k2_pay2 v3 v5 v9 v12 v16 v23 (ix2 g f)
      = v23 (ix2 g f) + ∑ r : Fin 2000, (if v16 (ix2 r 0) = BitVec.ofNat 32 g.val then 1 else 0 : EReal)
          * (v3 (ix2 r 0) * v5 (ix2 r f) + v9 (ix2 r f) + v12 (ix2 0 f)) := by
  unfold k2_pay2
  rw [shapeCast_self, addf_apply]
  congr 1
  show FloatOps.matmul dot_S2000x512_S2000x64_S512x64_0_0_1_1_n_n (some .fp32) _ _ (constant (F := Ideal) S512x64 .f32 0x00000000#32) (ix2 g f) = _
  rw [pool_matmul_apply]
  refine Finset.sum_congr rfl fun r _ => ?_
  rw [onehot_apply]
  congr 1
  rw [addf_apply, addf_apply, mulf_apply, shapeCast_self, shapeCast_self, shapeCast_self, shapeCast_self,
    broadcastTo_apply v3 broadcasts_S2000x1_S2000x64 (ix2 r f) (ix2 r 0) (by
      intro a
      match a with
      | ⟨0, _⟩ => rfl
      | ⟨1, _⟩ => rfl),
    broadcastTo_apply v12 broadcasts_S1x64_S2000x64 (ix2 r f) (ix2 0 f) (by
      intro a
      match a with
      | ⟨0, _⟩ => rfl
      | ⟨1, _⟩ => rfl)]

/-- The head at group g: the rectified accumulator row against the column, plus the constant. -/
theorem pay3_apply (v32 : Vec Ideal S512x64 .f32) (v35 : Vec Ideal S64x1 .f32) (v37 : Vec Ideal S1x1 .f32) (g : Fin 512) :
    k2_pay3 v32 v35 v37 (ix2 g 0)
      = (∑ f : Fin 64, max (v32 (ix2 g f)) 0 * v35 (ix2 f 0)) + v37 (ix2 0 0) := by
  unfold k2_pay3
  rw [addf_apply]
  congr 1
  · show FloatOps.matmul (DotDims.plain 512 64 1) (some .fp32) _ v35 (constant (F := Ideal) ⟨2, ![512, 1]⟩ .f32 0x00000000#32) (ix2 g 0) = _
    rw [PlainDot.matmul_zero_apply]
    refine Finset.sum_congr rfl fun f _ => ?_
    rw [maximumf_apply, broadcast_apply]
    show max (v32 (ix2 g f)) (Ideal.ofBits .f32 0x00000000#32) * _ = _
    rw [Ideal.ofBits_zero_f32]
  · rw [shapeCast_self,
      broadcastTo_apply v37 broadcasts_S1x1_S512x1 (ix2 g 0) (ix2 0 0) (by
        intro a
        match a with
        | ⟨0, _⟩ => rfl
        | ⟨1, _⟩ => rfl)]

/-! ## The fold over the 25 points -/

/-- A function on the first N naturals, extended by zero. -/
def ext0 {M : Type} [Zero M] (N : ℕ) (term : Fin N → M) (n : ℕ) : M := if h : n < N then term ⟨n, h⟩ else 0

theorem ext0_of_lt {M : Type} [Zero M] (N : ℕ) (term : Fin N → M) (n : ℕ) (h : n < N) : ext0 N term n = term ⟨n, h⟩ :=
  dif_pos h

/-- A sum over an initial segment of the naturals is the sum of the extended function over the range. -/
theorem sum_fin_eq_range {M : Type} [AddCommMonoid M] (N : ℕ) (term : Fin N → M) :
    ∑ n : Fin N, term n = ∑ n ∈ Finset.range N, ext0 N term n := by
  rw [← Fin.sum_univ_eq_sum_range]
  exact Finset.sum_congr rfl fun n _ => (ext0_of_lt N term n.val n.isLt).symm

/-- The first R (t + 1) terms are the first R t terms and the next R. -/
theorem sum_range_block {M : Type} [AddCommMonoid M] (F : ℕ → M) (R t : ℕ) :
    ∑ n ∈ Finset.range (R * (t + 1)), F n = ∑ n ∈ Finset.range (R * t), F n + ∑ r : Fin R, F (R * t + r.val) := by
  rw [Nat.mul_succ, Finset.sum_range_add, Fin.sum_univ_eq_sum_range (fun r => F (R * t + r)) R]

/-- A state that starts at zero and, at each of T points, gains the R terms of that point's block ends as the
    sum of all R T terms. Only commutativity and associativity of the addition are used. -/
theorem fold_blocks {M : Type} [AddCommMonoid M] (R T N : ℕ) (hN : R * T = N) (term : Fin N → M) (s : ℕ → M)
    (h0 : s 0 = 0)
    (hs : ∀ t, t < T → s (t + 1) = s t + ∑ r : Fin R, ext0 N term (R * t + r.val)) :
    s T = ∑ n : Fin N, term n := by
  have key : ∀ t, t ≤ T → s t = ∑ n ∈ Finset.range (R * t), ext0 N term n := by
    intro t
    induction t with
    | zero => intro _; rw [h0, Nat.mul_zero, Finset.range_zero, Finset.sum_empty]
    | succ t ih => intro ht; rw [hs t (by omega), ih (by omega), sum_range_block]
  rw [key T le_rfl, hN, sum_fin_eq_range]

/-! ## The arrays the third kernel reads, as the region finds them, and its blocks of them -/

variable (V : (c : Dev nD) → (b : Ref sig .tc) → Buf (Elt Ideal) ((c : Thread nD τ).loc b))

/-- The aggregated rows, the skip rows, the bias row, the degree scales, the group words, the head's column and constant. -/
abbrev aggA (c : Dev nD) : Vec Ideal S50000x64 .f32 := V c main_v44
abbrev skipA (c : Dev nD) : Vec Ideal S50000x64 .f32 := V c main_v34_1
abbrev biasA (c : Dev nD) : Vec Ideal S1x64 .f32 := V c main_v45
abbrev degA (c : Dev nD) : Vec Ideal S50000x1 .f32 := V c main_v18
abbrev grpA (c : Dev nD) : Vec Ideal S50000x1 .i32 := V c main_v4
abbrev whA (c : Dev nD) : Vec Ideal S64x1 .f32 := V c main_arg11
abbrev bhA (c : Dev nD) : Vec Ideal S1x1 .f32 := V c main_v46

/-- The windows' index maps over the grid: the four node-indexed windows are at block t at point t, the others at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row r of point t's block is node 2000 t + r: the aggregated rows, -/
theorem blk0_apply (c : Dev nD) (t : Fin cfg2.N) (r : Fin 2000) (f : Fin 64) (h : 2000 * t.val + r.val < 50000) :
    View.ld (iblk2 V c 0 t) r2_blk (ix2 r f) = aggA V c (ix2 ⟨2000 * t.val + r.val, h⟩ f) := by
  refine (congrFun (View.ld_unit_zero (S := S2000x64) hz2 inb_S2000x64_S2000x64_0_0 (iblk2 V c 0 t)) (ix2 r f)).trans ?_
  obtain ⟨e00, e01, -⟩ := idx_facts t
  show aggA V c (((cfg2.win 0).blk t).view.emb (ix2 r f)) = _
  refine congrArg (aggA V c) (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * f.val = f.val; omega

/-- the skip rows, -/
theorem blk1_apply (c : Dev nD) (t : Fin cfg2.N) (r : Fin 2000) (f : Fin 64) (h : 2000 * t.val + r.val < 50000) :
    View.ld (iblk2 V c 1 t) r2_blk (ix2 r f) = skipA V c (ix2 ⟨2000 * t.val + r.val, h⟩ f) := by
  refine (congrFun (View.ld_unit_zero (S := S2000x64) hz2 inb_S2000x64_S2000x64_0_0 (iblk2 V c 1 t)) (ix2 r f)).trans ?_
  obtain ⟨-, -, e10, e11, -⟩ := idx_facts t
  show skipA V c (((cfg2.win 1).blk t).view.emb (ix2 r f)) = _
  refine congrArg (skipA V c) (funext fun a => Fin.ext ?_)
  match a with
  | ⟨0, _⟩ => show win2_1.index t (0 : Fin 2) * 2000 + 1 * r.val = 2000 * t.val + r.val; omega
  | ⟨1, _⟩ => show win2_1.index t (1 : Fin 2) * 64 + 1 * f.val = f.val; omega

/-- the bias row (one block, the whole row, at every point), -/
theorem blk2_apply (c : Dev nD) (t : Fin cfg2.N) (f : Fin 64) :
    View.ld (iblk2 V c 2 t) r2_row (ix2 0 f) = biasA V c (ix2 0 f) := by
  refine (congrFun (View.ld_unit_zero (S := S1x64) hz2 inb_S1x64_S1x64_0_0 (iblk2 V c 2 t)) (ix2 0 f)).trans ?_
  obtain ⟨-, -, -, -, e20, e21, -⟩ := idx_facts t
  show biasA V c (((cfg2.win 2).blk t).view.emb (ix2 0 f)) = _
  refine congrArg (biasA V c) (funext fun a => Fin.ext ?_)
  match a with
  | ⟨0, _⟩ => show win2_2.index t (0 : Fin 2) * 1 + 1 * 0 = 0; omega
  | ⟨1, _⟩ => show win2_2.index t (1 : Fin 2) * 64 + 1 * f.val = f.val; omega

/-- the degree scales, -/
theorem blk3_apply (c : Dev nD) (t : Fin cfg2.N) (r : Fin 2000) (h : 2000 * t.val + r.val < 50000) :
    View.ld (iblk2 V c 3 t) r2_col (ix2 r 0) = degA V c (ix2 ⟨2000 * t.val + r.val, h⟩ 0) := by
  refine (congrFun (View.ld_unit_zero (S := S2000x1) hz2 inb_S2000x1_S2000x1_0_0 (iblk2 V c 3 t)) (ix2 r 0)).trans ?_
  obtain ⟨-, -, -, -, -, -, e30, e31, -⟩ := idx_facts t
  show degA V c (((cfg2.win 3).blk t).view.emb (ix2 r 0)) = _
  refine congrArg (degA V c) (funext fun a => Fin.ext ?_)
  match a with
  | ⟨0, _⟩ => show win2_3.index t (0 : Fin 2) * 2000 + 1 * r.val = 2000 * t.val + r.val; omega
  | ⟨1, _⟩ => show win2_3.index t (1 : Fin 2) * 1 + 1 * 0 = 0; omega

/-- the group words. -/
theorem blk4_apply (c : Dev nD) (t : Fin cfg2.N) (r : Fin 2000) (h : 2000 * t.val + r.val < 50000) :
    View.ld (iblk2 V c 4 t) r2_col (ix2 r 0) = grpA V c (ix2 ⟨2000 * t.val + r.val, h⟩ 0) := by
  refine (congrFun (View.ld_unit_zero (S := S2000x1) hz2 inb_S2000x1_S2000x1_0_0 (iblk2 V c 4 t)) (ix2 r 0)).trans ?_
  obtain ⟨-, -, -, -, -, -, -, -, e40, e41, -⟩ := idx_facts t
  show grpA V c (((cfg2.win 4).blk t).view.emb (ix2 r 0)) = _
  refine congrArg (grpA V c) (funext fun a => Fin.ext ?_)
  match a with
  | ⟨0, _⟩ => show win2_4.index t (0 : Fin 2) * 2000 + 1 * r.val = 2000 * t.val + r.val; omega
  | ⟨1, _⟩ => show win2_4.index t (1 : Fin 2) * 1 + 1 * 0 = 0; omega

/-! ## The accumulator after all the points -/

/-- Before the first point the accumulator is already the zeros it is reset to there. -/
theorem acc2_ite (c : Dev nD) (t : ℕ) : (if t = 0 then k2_pay1 else acc2 V c t) = acc2 V c t := by
  by_cases h : t = 0
  · rw [if_pos h, h]; rfl
  · rw [if_neg h]

/-- After the 25 points the accumulator's entry (g, f) is the sum over all 50000 nodes of the node's selector entry
    for group g times its combined value at feature f: point t contributes the nodes 2000 t … 2000 t + 1999. -/
theorem acc2_apply (c : Dev nD) (g : Fin 512) (f : Fin 64) :
    acc2 V c 25 (ix2 g f)
      = ∑ n : Fin 50000, (if grpA V c (ix2 n 0) = BitVec.ofNat 32 g.val then 1 else 0 : EReal)
          * (degA V c (ix2 n 0) * aggA V c (ix2 n f) + skipA V c (ix2 n f) + biasA V c (ix2 0 f)) := by
  refine fold_blocks 2000 25 50000 rfl
    (fun n : Fin 50000 => (if grpA V c (ix2 n 0) = BitVec.ofNat 32 g.val then 1 else 0 : EReal)
          * (degA V c (ix2 n 0) * aggA V c (ix2 n f) + skipA V c (ix2 n f) + biasA V c (ix2 0 f)))
    (fun t => acc2 V c t (ix2 g f)) (pay1_apply g f) fun t ht => ?_
  show acc2 V c (t + 1) (ix2 g f) = acc2 V c t (ix2 g f) + _
  rw [acc2_succ, pay2_apply, acc2_ite]
  congr 1
  refine Finset.sum_congr rfl fun r _ => ?_
  have hr := r.isLt
  have hpt : (pt2 t).val = t := Nat.mod_eq_of_lt ht
  have hlt : 2000 * (pt2 t).val + r.val < 50000 := by rw [hpt]; omega
  have hn : (⟨2000 * (pt2 t).val + r.val, hlt⟩ : Fin 50000) = ⟨2000 * t + r.val, by omega⟩ :=
    Fin.ext (by show 2000 * (pt2 t).val + r.val = 2000 * t + r.val; rw [hpt])
  rw [ext0_of_lt _ _ _ (by omega : 2000 * t + r.val < 50000), blk0_apply V c (pt2 t) r f hlt, blk1_apply V c (pt2 t) r f hlt,
    blk2_apply, blk3_apply V c (pt2 t) r hlt, blk4_apply V c (pt2 t) r hlt, hn]

/-! ## The output array after the run -/

/-- The head's column and constant are each one block, the whole array, at every point. -/
theorem blk5_eq (c : Dev nD) (t : Fin cfg2.N) : (iblk2 V c 5 t : Vec Ideal S64x1 .f32) = whA V c := by
  obtain ⟨-, -, -, -, -, -, -, -, -, -, e50, e51, -⟩ := idx_facts t
  funext j
  show whA V c (((cfg2.win 5).blk t).view.emb j) = whA V c j
  refine congrArg (whA V c) (funext fun a => Fin.ext ?_)
  match a with
  | ⟨0, _⟩ => show win2_5.index t (0 : Fin 2) * 64 + 1 * (j 0).val = (j 0).val; omega
  | ⟨1, _⟩ => show win2_5.index t (1 : Fin 2) * 1 + 1 * (j 1).val = (j 1).val; omega

theorem blk6_eq (c : Dev nD) (t : Fin cfg2.N) : (iblk2 V c 6 t : Vec Ideal S1x1 .f32) = bhA V c := by
  obtain ⟨-, -, -, -, -, -, -, -, -, -, -, -, e60, e61, -⟩ := idx_facts t
  funext j
  show bhA V c (((cfg2.win 6).blk t).view.emb j) = bhA V c j
  refine congrArg (bhA V c) (funext fun a => Fin.ext ?_)
  match a with
  | ⟨0, _⟩ => show win2_6.index t (0 : Fin 2) * 1 + 1 * (j 0).val = (j 0).val; omega
  | ⟨1, _⟩ => show win2_6.index t (1 : Fin 2) * 1 + 1 * (j 1).val = (j 1).val; omega

/-- What the output array ends holding: the head of the whole accumulation. -/
abbrev headG (c : Dev nD) : Vec Ideal S512x1 .f32 := out2_7 (acc2 V c 25) (whA V c) (bhA V c)

/-- What a point writes back is its block — the whole array — of the head of the whole accumulation. -/
theorem flushed7_eq (c : Dev nD) (t : Fin cfg2.N) :
    (dat2 V c).flushed 7 t = ((cfg2.win 7).blk t).view.read (Elt Ideal) (headG V c) := by
  show (cfg2.win 7).cut (grid2.coords t) ((dat2 V c).after 7 t) = _
  rw [after2_7]
  obtain ⟨-, -, -, -, -, -, -, -, -, -, -, -, -, -, e70, e71⟩ := idx_facts t
  funext j
  show out2_7 (acc2 V c 25) (iblk2 V c 5 t) (iblk2 V c 6 t) j
      = out2_7 (acc2 V c 25) (whA V c) (bhA V c) (((cfg2.win 7).blk t).view.emb j)
  rw [blk5_eq, blk6_eq]
  refine congrArg (out2_7 (acc2 V c 25) (whA V c) (bhA V c)) (funext fun a => Fin.ext ?_)
  match a with
  | ⟨0, _⟩ => show (j 0).val = win2_7.index t (0 : Fin 2) * 512 + 1 * (j 0).val; omega
  | ⟨1, _⟩ => show (j 1).val = win2_7.index t (1 : Fin 2) * 1 + 1 * (j 1).val; omega

/-- An index of the output array is in a point's block when each coordinate is in the block's range on its axis. -/
theorem mem_blk7 (t : Fin cfg2.N) (i : S512x1.Idx) :
    i ∈ ((cfg2.win 7).blk t).view.set ↔ ∀ a : Fin 2, win2_7.index t a * S512x1.size a ≤ (i a).val ∧ (i a).val < win2_7.index t a * S512x1.size a + S512x1.size a := by
  show i ∈ ((View.whole main_v47).slice (win2_7.rect t)).set ↔ _
  rw [View.set_slice_whole, Rect.mem_set_unit]
  exact Iff.rfl

/-- The last point writes the whole array back, so the array ends holding the head of the whole accumulation. -/
theorem arr7_eq (c : Dev nD) : (dat2 V c).arrAt 7 cfg2.N = headG V c :=
  (dat2 V c).arrAt_eq_of_cover 7 (headG V c) (fun t _ => flushed7_eq V c t) (fun i => by
    refine ⟨pt2 24, (flush2_7 (pt2 24)).mpr (by decide), ?_⟩
    rw [mem_blk7]
    obtain ⟨-, -, -, -, -, -, -, -, -, -, -, -, -, -, e70, e71⟩ := idx_facts (pt2 24)
    intro a
    match a with
    | ⟨0, _⟩ =>
      show win2_7.index (pt2 24) (0 : Fin 2) * 512 ≤ (i 0).val ∧ (i 0).val < win2_7.index (pt2 24) (0 : Fin 2) * 512 + 512
      have := (i 0).isLt
      have h0 : (i 0).val < 512 := this
      omega
    | ⟨1, _⟩ =>
      show win2_7.index (pt2 24) (1 : Fin 2) * 1 ≤ (i 1).val ∧ (i 1).val < win2_7.index (pt2 24) (1 : Fin 2) * 1 + 1
      have h1 : (i 1).val < 1 := (i 1).isLt
      omega)

/-- The output at group g: the rectified pooled row of g — over all 50000 nodes, the node's selector entry for g
    times its combined value — against the head's column, plus the head's constant. -/
theorem final2_7 (c : Dev nD) (g : Fin 512) :
    ((dat2 (F := Ideal) V c).arrAt 7 cfg2.N : S512x1.Idx → EReal) (ix2 g 0)
      = (∑ f : Fin 64, max (∑ n : Fin 50000, (if grpA V c (ix2 n 0) = BitVec.ofNat 32 g.val then 1 else 0 : EReal)
            * (degA V c (ix2 n 0) * aggA V c (ix2 n f) + skipA V c (ix2 n f) + biasA V c (ix2 0 f))) 0
          * whA V c (ix2 f 0)) + bhA V c (ix2 0 0) := by
  rw [arr7_eq]
  show out2_7 (acc2 V c 25) (whA V c) (bhA V c) (ix2 g 0) = _
  unfold out2_7
  rw [View.canon_unit_zero hz2, View.ld_unit_zero hz2, View.ld_unit_zero hz2, View.ld_unit_zero hz2, pay3_apply]
  refine congrArg (fun x : EReal => x + bhA V c (ix2 0 0)) (Finset.sum_congr rfl fun f _ => ?_)
  rw [acc2_apply]

end Cert.KernelIdeal.Val2

end
-- ==== Proof.LibRowGather.lean ====
/-
  A gather of whole rows out of a table, one start index per result row, read at an index.

  The table has N rows; a row is either a vector of C entries or an A x B block. The start indices are an M x 1 array of
  words. Result row q is the table row named by word (q, 0), read as a signed integer and clamped into [0, N - 1]: a
  negative word names row 0, a word of N or more names row N - 1. Inside the row nothing moves: entry j of result row q
  is entry j of that table row, and entry (a, b) of result block q is entry (a, b) of that table block.

  Why. The operand index of a gather is, on each table axis, the clamped start plus a batching coordinate plus an offset
  coordinate. There is no batching axis, so the middle term is 0 on every axis. The row axis is the one axis in the
  start index map, so its start is the word clamped to N - 1 (the slice is one row tall), and it is collapsed, so it
  has no offset coordinate. Every other axis is outside the start index map, so its start is 0, and it is an offset
  axis, so its offset coordinate is the result's coordinate on the matching axis.

  Each of the two dimension records below is fixed by its sizes together with a proof of the gather's conditions on them;
  a record written with literal sizes and the same seven fields is an instance of one of them.
-/
import Idealize.ShloMosaic.Lib.ValueIdx
import proofs.«422353_j75677323755530_3_alg».proof.Proof.LibRows

noncomputable section

namespace Cert.LibRowGather

open Idealize.ShloMosaic Idealize.ShloMosaic.ValueIdx

/-- A gather of M rows of C columns out of a table of N rows, one start index per result row. -/
abbrev rowsGather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

section Rows2

variable {N C M w : Nat} (wf : GatherDims.WF ⟨2, ![N, C]⟩ ⟨2, ![M, 1]⟩ ⟨2, ![M, C]⟩ [1] [0] [] [0] [] 1 ![1, C])
  (idx : IVec ⟨2, ![M, 1]⟩ w) (q : Fin M) (j : Fin C)

/-- Result entry (q, j) reads the one component of its start index at (q, 0). -/
private theorem rows2_siIdx :
    (rowsGather2 N C M wf).siIdx (ix2 q j) ⟨List.idxOf (0 : Fin 2) (rowsGather2 N C M wf).startIndexMap,
      List.idxOf_lt_length_iff.2 (List.mem_singleton.mpr rfl)⟩ = ix2 q 0 := by
  funext b
  refine Fin.ext ?_
  match b with
  | ⟨0, _⟩ => rfl
  | ⟨1, _⟩ => rfl

/-- On the row axis the slice starts at word (q, 0), read signed and clamped to the last row. -/
private theorem rows2_start0 :
    (rowsGather2 N C M wf).start (ix2 q j) idx 0 = min (idx (ix2 q 0)).toInt.toNat (N - 1) := by
  unfold GatherDims.start
  rw [dif_pos (show (0 : Fin 2) ∈ (rowsGather2 N C M wf).startIndexMap from List.mem_singleton.mpr rfl),
    rows2_siIdx wf q j]
  rfl

/-- The column axis is outside the start index map: its slice starts at 0. -/
private theorem rows2_start1 : (rowsGather2 N C M wf).start (ix2 q j) idx 1 = 0 := by
  unfold GatherDims.start
  rw [dif_neg (show (1 : Fin 2) ∉ ([0] : List (Fin 2)) by decide)]

/-- The row axis is collapsed: it has no offset coordinate. -/
private theorem rows2_off0 : (rowsGather2 N C M wf).offCoord (ix2 q j) 0 = 0 :=
  GatherDims.offCoord_eq_zero _ _ _ (fun h => ((GatherDims.mem_sKept _ _).mp h).1 (List.mem_singleton.mpr rfl))

/-- The column axis is the one offset axis: its offset coordinate is the result's column. -/
private theorem rows2_off1 : (rowsGather2 N C M wf).offCoord (ix2 q j) 1 = j.val := by
  unfold GatherDims.offCoord
  rw [dif_pos ((GatherDims.mem_sKept _ _).mpr ⟨(show (1 : Fin 2) ∉ ([0] : List (Fin 2)) by decide), List.not_mem_nil⟩)]
  rfl

end Rows2

/-- THE ROW GATHER READ AT (q, j): column j of the table row that word (q, 0) names. -/
theorem gather_rows2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (q : Fin M) (j : Fin C) :
    Host.gather (rowsGather2 N C M wf) x idx (ix2 q j) = x (ix2 (Cert.LibRows.rowClamp N hN (idx (ix2 q 0))) j) := by
  unfold Host.gather
  congr 1
  funext e
  refine Fin.ext ?_
  match e with
  | ⟨0, _⟩ =>
    show (rowsGather2 N C M wf).start (ix2 q j) idx 0 + (rowsGather2 N C M wf).batchCoord (ix2 q j) 0
      + (rowsGather2 N C M wf).offCoord (ix2 q j) 0 = min (idx (ix2 q 0)).toInt.toNat (N - 1)
    rw [rows2_start0 wf idx q j, GatherDims.batchCoord_eq_zero _ _ _ List.not_mem_nil, rows2_off0 wf q j]
    simp only [Nat.add_zero]
  | ⟨1, _⟩ =>
    show (rowsGather2 N C M wf).start (ix2 q j) idx 1 + (rowsGather2 N C M wf).batchCoord (ix2 q j) 1
      + (rowsGather2 N C M wf).offCoord (ix2 q j) 1 = j.val
    rw [rows2_start1 wf idx q j, GatherDims.batchCoord_eq_zero _ _ _ List.not_mem_nil, rows2_off1 wf q j]
    simp only [Nat.add_zero, Nat.zero_add]

/-- A gather of M blocks of A x B entries out of a table of N blocks, one start index per result block. -/
abbrev rowsGather2of3 (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

section Rows3

variable {N A B M w : Nat}
  (wf : GatherDims.WF ⟨3, ![N, A, B]⟩ ⟨2, ![M, 1]⟩ ⟨3, ![M, A, B]⟩ [1, 2] [0] [] [0] [] 1 ![1, A, B])
  (idx : IVec ⟨2, ![M, 1]⟩ w) (q : Fin M) (a : Fin A) (b : Fin B)

/-- Result entry (q, a, b) reads the one component of its start index at (q, 0). -/
private theorem rows3_siIdx :
    (rowsGather2of3 N A B M wf).siIdx (ix3 q a b) ⟨List.idxOf (0 : Fin 3) (rowsGather2of3 N A B M wf).startIndexMap,
      List.idxOf_lt_length_iff.2 (List.mem_singleton.mpr rfl)⟩ = ix2 q 0 := by
  funext c
  refine Fin.ext ?_
  match c with
  | ⟨0, _⟩ => rfl
  | ⟨1, _⟩ => rfl

/-- On the block axis the slice starts at word (q, 0), read signed and clamped to the last block. -/
private theorem rows3_start0 :
    (rowsGather2of3 N A B M wf).start (ix3 q a b) idx 0 = min (idx (ix2 q 0)).toInt.toNat (N - 1) := by
  unfold GatherDims.start
  rw [dif_pos (show (0 : Fin 3) ∈ (rowsGather2of3 N A B M wf).startIndexMap from List.mem_singleton.mpr rfl),
    rows3_siIdx wf q a b]
  rfl

/-- The two axes inside a block are outside the start index map: their slices start at 0. -/
private theorem rows3_start1 : (rowsGather2of3 N A B M wf).start (ix3 q a b) idx 1 = 0 := by
  unfold GatherDims.start
  rw [dif_neg (show (1 : Fin 3) ∉ ([0] : List (Fin 3)) by decide)]

private theorem rows3_start2 : (rowsGather2of3 N A B M wf).start (ix3 q a b) idx 2 = 0 := by
  unfold GatherDims.start
  rw [dif_neg (show (2 : Fin 3) ∉ ([0] : List (Fin 3)) by decide)]

/-- The block axis is collapsed: it has no offset coordinate. -/
private theorem rows3_off0 : (rowsGather2of3 N A B M wf).offCoord (ix3 q a b) 0 = 0 :=
  GatherDims.offCoord_eq_zero _ _ _ (fun h => ((GatherDims.mem_sKept _ _).mp h).1 (List.mem_singleton.mpr rfl))

/-- The first axis inside a block is the first offset axis: its offset coordinate is the result's a. -/
private theorem rows3_off1 : (rowsGather2of3 N A B M wf).offCoord (ix3 q a b) 1 = a.val := by
  unfold GatherDims.offCoord
  rw [dif_pos ((GatherDims.mem_sKept _ _).mpr ⟨(show (1 : Fin 3) ∉ ([0] : List (Fin 3)) by decide), List.not_mem_nil⟩)]
  rfl

/-- The second axis inside a block is the second offset axis: its offset coordinate is the result's b. -/
private theorem rows3_off2 : (rowsGather2of3 N A B M wf).offCoord (ix3 q a b) 2 = b.val := by
  unfold GatherDims.offCoord
  rw [dif_pos ((GatherDims.mem_sKept _ _).mpr ⟨(show (2 : Fin 3) ∉ ([0] : List (Fin 3)) by decide), List.not_mem_nil⟩)]
  rfl

end Rows3

/-- THE BLOCK GATHER READ AT (q, a, b): entry (a, b) of the table block that word (q, 0) names. -/
theorem gather_rows2of3_apply {α : Type} {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (q : Fin M) (a : Fin A) (b : Fin B) :
    Host.gather (rowsGather2of3 N A B M wf) x idx (ix3 q a b)
      = x (ix3 (Cert.LibRows.rowClamp N hN (idx (ix2 q 0))) a b) := by
  unfold Host.gather
  congr 1
  funext e
  refine Fin.ext ?_
  match e with
  | ⟨0, _⟩ =>
    show (rowsGather2of3 N A B M wf).start (ix3 q a b) idx 0 + (rowsGather2of3 N A B M wf).batchCoord (ix3 q a b) 0
      + (rowsGather2of3 N A B M wf).offCoord (ix3 q a b) 0 = min (idx (ix2 q 0)).toInt.toNat (N - 1)
    rw [rows3_start0 wf idx q a b, GatherDims.batchCoord_eq_zero _ _ _ List.not_mem_nil, rows3_off0 wf q a b]
    simp only [Nat.add_zero]
  | ⟨1, _⟩ =>
    show (rowsGather2of3 N A B M wf).start (ix3 q a b) idx 1 + (rowsGather2of3 N A B M wf).batchCoord (ix3 q a b) 1
      + (rowsGather2of3 N A B M wf).offCoord (ix3 q a b) 1 = a.val
    rw [rows3_start1 wf idx q a b, GatherDims.batchCoord_eq_zero _ _ _ List.not_mem_nil, rows3_off1 wf q a b]
    simp only [Nat.add_zero, Nat.zero_add]
  | ⟨2, _⟩ =>
    show (rowsGather2of3 N A B M wf).start (ix3 q a b) idx 2 + (rowsGather2of3 N A B M wf).batchCoord (ix3 q a b) 2
      + (rowsGather2of3 N A B M wf).offCoord (ix3 q a b) 2 = b.val
    rw [rows3_start2 wf idx q a b, GatherDims.batchCoord_eq_zero _ _ _ List.not_mem_nil, rows3_off2 wf q a b]
    simp only [Nat.add_zero, Nat.zero_add]

end Cert.LibRowGather

end
-- ==== Proof.KiHostB.lean ====
/-
  What the host leaves between and after the three regions, read at an index.

  Between the first two regions the host wraps the edges' source words as array indexing wraps them, gathers the rows the
  first region left by those words (a gather clamps), and scatter-adds the gathered rows into zeros by the edges' target
  words (a scatter-add drops a word that names no row): entry (n, j) of the result is the sum, over the edges that hit
  node n, of column j of the source node's row. Between the last two regions it does the same with the second region's
  rows. Around these it reshapes three bias vectors and the head's constant to rows, and at the end flattens the last
  region's column. Every other buffer named here is one no operation of the stretch writes.
-/
import proofs.«422353_j75677323755530_3_alg».proof.Proof.Gen.KernelIdeal.Regions
import proofs.«422353_j75677323755530_3_alg».proof.Proof.Idx
import proofs.«422353_j75677323755530_3_alg».proof.Proof.LibRows
import proofs.«422353_j75677323755530_3_alg».proof.Proof.LibRowGather
import proofs.«422353_j75677323755530_3_alg».proof.Proof.KiHostA
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Idealize.ShloMosaic.TcCoe Idealize.ShloMosaic.StableHlo
open Cert.KernelIdeal Cert.KernelIdeal.Gen Cert.Bridge

/-! ## The index words, read at an index -/

/-- A vector of 800000 words laid out as a column of one-word index vectors. -/
def colOf (d : IVec S800000 32) : IVec S800000x1 32 := broadcastInDim S800000x1 ![0] bcast_S800000_S800000x1_0 d

/-- A vector of words, each wrapped as array indexing wraps it: compared with 0, 50000 added, the sum taken where negative. -/
def wrapVec (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The column at row e is the vector at e. -/
theorem colOf_apply (d : IVec S800000 32) (e : Fin 800000) (u : Fin 1) : colOf d (ix2 e u) = d (ix1 e) := by
  unfold colOf
  exact broadcastInDim_apply _ bcast_S800000_S800000x1_0 d (ix2 e u) (ix1 e) (fun a => match a with
    | ⟨0, _⟩ => by show e.val = if (800000 : Nat) = 1 then 0 else e.val; rw [if_neg (by decide)])

/-- A scalar word spread over 800000 entries is that word everywhere. -/
theorem spread_apply (b : BitVec 32) (i : S800000.Idx) :
    broadcastInDim S800000 ![] bcast_S_S800000 (constantI S_ 32 b) i = b :=
  broadcastInDim_apply _ bcast_S_S800000 (constantI S_ 32 b) i ix0 (fun a => a.elim0)

/-- The wrapped vector at e is the wrap of the word at e. -/
theorem wrapVec_apply (s : IVec S800000 32) (e : Fin 800000) : wrapVec s (ix1 e) = wrapW (s (ix1 e)) := by
  show Scalar.select (IntOp.cmpi .slt (s (ix1 e)) (broadcastInDim S800000 ![] bcast_S_S800000 (constantI S_ 32 0#32) (ix1 e)))
      (IntOp.addi (s (ix1 e)) (broadcastInDim S800000 ![] bcast_S_S800000 (constantI S_ 32 50000#32) (ix1 e))) (s (ix1 e)) = _
  rw [spread_apply, spread_apply]
  rfl

/-- The float word 0 spread over a table is 0 everywhere. -/
theorem zeros_apply {C : Nat} (bz : S_.BroadcastsInDim (⟨2, ![50000, C]⟩ : Shape) (![] : Fin 0 → Fin 2))
    (i : (⟨2, ![50000, C]⟩ : Shape).Idx) :
    broadcastInDim ⟨2, ![50000, C]⟩ ![] bz (constant (F := Ideal) S_ .f32 0x00000000#32) i = (0 : EReal) := by
  rw [broadcastInDim_apply _ bz _ i ix0 (fun a => a.elim0), constant_apply, Ideal.ofBits_zero_f32]

/-! ## Rows carried along the edges: a row gather by the wrapped source words, scatter-added into zeros by the target words -/

/-- Entry (n, j) of the scatter-add into zeros of the gathered rows: the sum, over the edges whose target word read signed
    is n, of column j of the table row named by the edge's source word wrapped and clamped. -/
theorem aggr_apply {C : Nat}
    (sd : ScatterDims ⟨2, ![50000, C]⟩ ⟨2, ![800000, 1]⟩ ⟨2, ![800000, C]⟩)
    (gd : GatherDims ⟨2, ![50000, C]⟩ ⟨2, ![800000, 1]⟩ ⟨2, ![800000, C]⟩)
    (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (hs : sd = Cert.LibRows.rowsScatter 50000 800000 C wfS) (hg : gd = Cert.LibRowGather.rowsGather2 50000 C 800000 wfG)
    (bz : S_.BroadcastsInDim (⟨2, ![50000, C]⟩ : Shape) (![] : Fin 0 → Fin 2))
    (tab : FVec Ideal ⟨2, ![50000, C]⟩ .f32) (s d : IVec S800000 32) (n : Fin 50000) (j : Fin C) :
    Host.scatterAdd (F := Ideal) sd (broadcastInDim ⟨2, ![50000, C]⟩ ![] bz (constant (F := Ideal) S_ .f32 0x00000000#32))
        (colOf d) (Host.gather gd tab (colOf (wrapVec s))) (ix2 n j)
      = ∑ e ∈ Finset.univ.filter (fun e : Fin 800000 => Cert.LibRows.RowHit 50000 (d (ix1 e)) n),
          tab (ix2 (Cert.LibRows.rowClamp 50000 (by decide) (wrapW (s (ix1 e)))) j) := by
  subst hs hg
  generalize hz : broadcastInDim ⟨2, ![50000, C]⟩ ![] bz (constant (F := Ideal) S_ .f32 0x00000000#32) = z
  rw [Cert.LibRows.scatterAdd_rows_apply]
  have hz0 : z (ix2 n j) = (0 : EReal) := by rw [← hz]; exact zeros_apply bz _
  rw [hz0, zero_add]
  refine Finset.sum_congr (Finset.filter_congr fun e _ => by rw [colOf_apply]) fun e _ => ?_
  rw [Cert.LibRowGather.gather_rows2_apply (by decide : 0 < 50000), colOf_apply, wrapVec_apply]

/-! ## The three later host stretches, from any contents -/

section After

variable (W : Valuation τ sig (Elt Ideal))

/-- The stretch between the first two regions leaves in its scatter's result the rows of `main_v21_0` gathered by the wrapped
    source words and scatter-added into zeros by the target words. -/
theorem after1_v31 :
    (StableHlo.after hostOps1 W (Proc.devRef .tc main_v31) : S50000x128.Idx → EReal)
      = Host.scatterAdd (F := Ideal) scatter_S50000x128_S800000x1_S800000x128_1_0_0_1
          (broadcastInDim S50000x128 ![] bcast_S_S50000x128 (constant (F := Ideal) S_ .f32 0x00000000#32))
          (colOf (W main_v3 : S800000.Idx → BitVec 32))
          (Host.gather gather_S50000x128_S800000x1_S800000x128_1_0_n_n_0_1_1128 (W main_v21_0 : S50000x128.Idx → EReal)
            (colOf (wrapVec (W main_v1 : S800000.Idx → BitVec 32)))) := by
  dsimp only [hostOps1]
  after_results_simp
  rfl

theorem after1_v32 :
    (StableHlo.after hostOps1 W (Proc.devRef .tc main_v32) : S1x128.Idx → EReal)
      = shapeCast S1x128 (W main_arg4 : S128.Idx → EReal) shapeCasts_S128_S1x128 := by
  dsimp only [hostOps1]
  after_results_simp
  rfl

theorem after1_v33 :
    (StableHlo.after hostOps1 W (Proc.devRef .tc main_v33) : S1x64.Idx → EReal)
      = shapeCast S1x64 (W main_arg10 : S64.Idx → EReal) shapeCasts_S64_S1x64 := by
  dsimp only [hostOps1]
  after_results_simp
  rfl

/-- The stretch between the last two regions does the same with the rows of `main_v34_0`. -/
theorem after2_v44 :
    (StableHlo.after hostOps2 W (Proc.devRef .tc main_v44) : S50000x64.Idx → EReal)
      = Host.scatterAdd (F := Ideal) scatter_S50000x64_S800000x1_S800000x64_1_0_0_1
          (broadcastInDim S50000x64 ![] bcast_S_S50000x64 (constant (F := Ideal) S_ .f32 0x00000000#32))
          (colOf (W main_v3 : S800000.Idx → BitVec 32))
          (Host.gather gather_S50000x64_S800000x1_S800000x64_1_0_n_n_0_1_164 (W main_v34_0 : S50000x64.Idx → EReal)
            (colOf (wrapVec (W main_v1 : S800000.Idx → BitVec 32)))) := by
  dsimp only [hostOps2]
  after_results_simp
  rfl

theorem after2_v45 :
    (StableHlo.after hostOps2 W (Proc.devRef .tc main_v45) : S1x64.Idx → EReal)
      = shapeCast S1x64 (W main_arg8 : S64.Idx → EReal) shapeCasts_S64_S1x64 := by
  dsimp only [hostOps2]
  after_results_simp
  rfl

theorem after2_v46 :
    (StableHlo.after hostOps2 W (Proc.devRef .tc main_v46) : S1x1.Idx → EReal)
      = shapeCast S1x1 (W main_arg12 : S1.Idx → EReal) shapeCasts_S1_S1x1 := by
  dsimp only [hostOps2]
  after_results_simp
  rfl

theorem after3_v48 :
    (StableHlo.after hostOps3 W (Proc.devRef .tc main_v48) : S512.Idx → EReal)
      = shapeCast S512 (W main_v47 : S512x1.Idx → EReal) shapeCasts_S512x1_S512 := by
  dsimp only [hostOps3]
  after_results_simp
  rfl

end After

variable (m : (ℓ : Loc nD τ sig) → Buf (Elt Ideal) ℓ) (outs : Outs (F := Ideal)) (c : Dev nD)

/-! ## What the regions leave, and what no item between them touches -/

theorem v6_v21_0 : V6 m outs c main_v21_0 = outs 6 main_v21_0 c := by
  show Function.update (Function.update (V5 m c) _ _) _ _ _ = _
  rw [Function.update_of_ne, Function.update_self]
  decide

theorem v8_v34_0 : V8 m outs c main_v34_0 = outs 8 main_v34_0 c := by
  show Function.update (Function.update (V7 m outs c) _ _) _ _ _ = _
  rw [Function.update_of_ne, Function.update_self]
  decide

theorem v10_v47 : V10 m outs c main_v47 = outs 10 main_v47 c := by
  show Function.update (V9 m outs c) _ _ _ = _
  rw [Function.update_self]

theorem kept7_v18 : V7 m outs c main_v18 = V5 m c main_v18 :=
  (V7_of m outs c main_v18 (by decide)).trans (V6_of m outs c main_v18 (by decide))

theorem kept7_v21_1 : V7 m outs c main_v21_1 = outs 6 main_v21_1 c := by
  refine (V7_of m outs c main_v21_1 (by decide)).trans ?_
  show Function.update (Function.update (V5 m c) _ _) _ _ _ = _
  rw [Function.update_self]

theorem kept7_arg7 : V7 m outs c main_arg7 = m ((c : Thread nD τ).loc main_arg7) :=
  (V7_of m outs c main_arg7 (by decide)).trans <| (V6_of m outs c main_arg7 (by decide)).trans (v5_arg7 m c)

theorem kept7_arg9 : V7 m outs c main_arg9 = m ((c : Thread nD τ).loc main_arg9) :=
  (V7_of m outs c main_arg9 (by decide)).trans <| (V6_of m outs c main_arg9 (by decide)).trans (v5_arg9 m c)

/-- A buffer that neither of the first two regions may change and neither stretch after them writes is, before the third
    region, as it was before the first. -/
theorem kept9_of (r : Ref sig .tc) (h5 : r ∉ ([main_v21_0, main_v21_1] : List (Ref sig .tc))) (h6 : r ∉ hostOps1_W)
    (h7 : r ∉ ([main_v34_0, main_v34_1] : List (Ref sig .tc))) (h8 : r ∉ hostOps2_W) :
    V9 m outs c r = V5 m c r :=
  (V9_of m outs c r h8).trans <| (V8_of m outs c r h7).trans <| (V7_of m outs c r h6).trans (V6_of m outs c r h5)

theorem kept9_v18 : V9 m outs c main_v18 = V5 m c main_v18 :=
  kept9_of m outs c main_v18 (by decide) (by decide) (by decide) (by decide)

theorem kept9_v4 : V9 m outs c main_v4 = V5 m c main_v4 :=
  kept9_of m outs c main_v4 (by decide) (by decide) (by decide) (by decide)

theorem kept9_v34_1 : V9 m outs c main_v34_1 = outs 8 main_v34_1 c := by
  refine (V9_of m outs c main_v34_1 (by decide)).trans ?_
  show Function.update (Function.update (V7 m outs c) _ _) _ _ _ = _
  rw [Function.update_self]

theorem kept9_arg11 : V9 m outs c main_arg11 = m ((c : Thread nD τ).loc main_arg11) :=
  (kept9_of m outs c main_arg11 (by decide) (by decide) (by decide) (by decide)).trans (v5_arg11 m c)

/-! ## The stretch between the first and the second region -/

/-- The collected rows of the first layer: entry (n, j) is the sum, over the edges that hit node n, of column j of the
    row the first region left for the edge's source node. -/
theorem v7_v31 (n : Fin 50000) (j : Fin 128) :
    (V7 m outs c main_v31 : S50000x128.Idx → EReal) (ix2 n j)
      = (∑ e ∈ Cert.Spec.into (hitOf (m ((c : Thread nD τ).loc main_arg1) : EdgeTab)) n,
          (V6 m outs c main_v21_0 : S50000x128.Idx → EReal) (ix2 (srcOf (m ((c : Thread nD τ).loc main_arg1) : EdgeTab) e) j) : EReal) := by
  have k1 : V6 m outs c main_v1 = V5 m c main_v1 := V6_of m outs c main_v1 (by decide)
  have k3 : V6 m outs c main_v3 = V5 m c main_v3 := V6_of m outs c main_v3 (by decide)
  refine (congrFun (after1_v31 (V6 m outs c)) (ix2 n j)).trans ?_
  rw [k1, k3]
  refine (aggr_apply scatter_S50000x128_S800000x1_S800000x128_1_0_0_1 gather_S50000x128_S800000x1_S800000x128_1_0_n_n_0_1_1128
    scatter_S50000x128_S800000x1_S800000x128_1_0_0_1_wf gather_S50000x128_S800000x1_S800000x128_1_0_n_n_0_1_1128_wf rfl rfl
    bcast_S_S50000x128 (V6 m outs c main_v21_0) (V5 m c main_v1) (V5 m c main_v3) n j).trans ?_
  unfold Cert.Spec.into
  refine Finset.sum_congr (Finset.filter_congr fun e _ => ?_) fun e _ => ?_
  · unfold hitOf; rw [v5_v3]
  · unfold srcOf; rw [v5_v1]

/-- The first layer's bias as a row. -/
theorem v7_v32 (j : Fin 128) :
    (V7 m outs c main_v32 : S1x128.Idx → EReal) (ix2 0 j) = (m ((c : Thread nD τ).loc main_arg4) : S128.Idx → EReal) (ix1 j) := by
  refine (congrFun (after1_v32 (V6 m outs c)) (ix2 0 j)).trans ?_
  rw [(V6_of m outs c main_arg4 (by decide)).trans (v5_arg4 m c)]
  exact shapeCast_a_1a_apply _ _ 0 j

/-- The second layer's skip bias as a row. -/
theorem v7_v33 (f : Fin 64) :
    (V7 m outs c main_v33 : S1x64.Idx → EReal) (ix2 0 f) = (m ((c : Thread nD τ).loc main_arg10) : S64.Idx → EReal) (ix1 f) := by
  refine (congrFun (after1_v33 (V6 m outs c)) (ix2 0 f)).trans ?_
  rw [(V6_of m outs c main_arg10 (by decide)).trans (v5_arg10 m c)]
  exact shapeCast_a_1a_apply _ _ 0 f

/-! ## The stretch between the second and the third region -/

/-- A buffer neither of the first two regions may change and the stretch between them does not write is, after the second
    region, as it was before the first. -/
theorem kept8_of (r : Ref sig .tc) (h5 : r ∉ ([main_v21_0, main_v21_1] : List (Ref sig .tc))) (h6 : r ∉ hostOps1_W)
    (h7 : r ∉ ([main_v34_0, main_v34_1] : List (Ref sig .tc))) : V8 m outs c r = V5 m c r :=
  (V8_of m outs c r h7).trans <| (V7_of m outs c r h6).trans (V6_of m outs c r h5)

/-- The collected rows of the second layer: entry (n, f) is the sum, over the edges that hit node n, of column f of the
    row the second region left for the edge's source node. -/
theorem v9_v44 (n : Fin 50000) (f : Fin 64) :
    (V9 m outs c main_v44 : S50000x64.Idx → EReal) (ix2 n f)
      = (∑ e ∈ Cert.Spec.into (hitOf (m ((c : Thread nD τ).loc main_arg1) : EdgeTab)) n,
          (V8 m outs c main_v34_0 : S50000x64.Idx → EReal) (ix2 (srcOf (m ((c : Thread nD τ).loc main_arg1) : EdgeTab) e) f) : EReal) := by
  have k1 : V8 m outs c main_v1 = V5 m c main_v1 := kept8_of m outs c main_v1 (by decide) (by decide) (by decide)
  have k3 : V8 m outs c main_v3 = V5 m c main_v3 := kept8_of m outs c main_v3 (by decide) (by decide) (by decide)
  refine (congrFun (after2_v44 (V8 m outs c)) (ix2 n f)).trans ?_
  rw [k1, k3]
  refine (aggr_apply scatter_S50000x64_S800000x1_S800000x64_1_0_0_1 gather_S50000x64_S800000x1_S800000x64_1_0_n_n_0_1_164
    scatter_S50000x64_S800000x1_S800000x64_1_0_0_1_wf gather_S50000x64_S800000x1_S800000x64_1_0_n_n_0_1_164_wf rfl rfl
    bcast_S_S50000x64 (V8 m outs c main_v34_0) (V5 m c main_v1) (V5 m c main_v3) n f).trans ?_
  unfold Cert.Spec.into
  refine Finset.sum_congr (Finset.filter_congr fun e _ => ?_) fun e _ => ?_
  · unfold hitOf; rw [v5_v3]
  · unfold srcOf; rw [v5_v1]

/-- The second layer's bias as a row. -/
theorem v9_v45 (f : Fin 64) :
    (V9 m outs c main_v45 : S1x64.Idx → EReal) (ix2 0 f) = (m ((c : Thread nD τ).loc main_arg8) : S64.Idx → EReal) (ix1 f) := by
  refine (congrFun (after2_v45 (V8 m outs c)) (ix2 0 f)).trans ?_
  rw [(kept8_of m outs c main_arg8 (by decide) (by decide) (by decide)).trans (v5_arg8 m c)]
  exact shapeCast_a_1a_apply _ _ 0 f

/-- The head's constant as a 1 x 1 table. -/
theorem v9_v46 :
    (V9 m outs c main_v46 : S1x1.Idx → EReal) (ix2 0 0) = (m ((c : Thread nD τ).loc main_arg12) : S1.Idx → EReal) (ix1 0) := by
  refine (congrFun (after2_v46 (V8 m outs c)) (ix2 0 0)).trans ?_
  rw [(kept8_of m outs c main_arg12 (by decide) (by decide) (by decide)).trans (v5_arg12 m c)]
  exact shapeCast_a_1a_apply _ _ 0 0

/-! ## The stretch after the third region -/

/-- The result: the third region's column, flattened. -/
theorem v11_v48 (g : Fin 512) :
    (V11 m outs c main_v48 : S512.Idx → EReal) (ix1 g) = (V10 m outs c main_v47 : S512x1.Idx → EReal) (ix2 g 0) := by
  refine (congrFun (after3_v48 (V10 m outs c)) (ix1 g)).trans ?_
  refine shapeCast_apply _ shapeCasts_S512x1_S512 (ix1 g) (ix2 g 0) ?_
  rw [Shape.rowMajor_val_two, Shape.rowMajor_val_one]
  show g.val * 1 + 0 = g.val
  omega

end Cert.KernelIdeal.Val

end
-- ==== Proof.KiResult.lean ====
/-
  The first program's result, entry by entry: following the arrays from the arguments through the three kernels and
  the gathers and scatter-adds between them, its result at group g is Spec's `outK` of the argument arrays.

  Each step names one intermediate array at an index. A kernel's output array is read through what its grid points
  write back; a scatter-add of gathered rows is the sum, over the edges that hit a node, of the source node's row.
-/
import proofs.«422353_j75677323755530_3_alg».proof.Proof.Spec
import proofs.«422353_j75677323755530_3_alg».proof.Proof.Idx
import proofs.«422353_j75677323755530_3_alg».proof.Proof.Dis
import proofs.«422353_j75677323755530_3_alg».proof.Proof.KiValue0
import proofs.«422353_j75677323755530_3_alg».proof.Proof.KiHostA
import proofs.«422353_j75677323755530_3_alg».proof.Proof.KiValue1
import proofs.«422353_j75677323755530_3_alg».proof.Proof.KiValue2
import proofs.«422353_j75677323755530_3_alg».proof.Proof.KiHostB

noncomputable section

namespace Cert.KernelIdeal.Val

open Idealize.ShloMosaic Idealize.ShloMosaic.ValueIdx Idealize.ShloMosaic.TcCoe Idealize.SL.Sem
open Cert.KernelIdeal Cert.KernelIdeal.Gen Cert.KernelIdeal.Reg Cert.Bridge Cert.Spec
open Cert.KernelIdeal.Val0 Cert.KernelIdeal.Val1 Cert.KernelIdeal.Val2

variable (m : (ℓ : Loc nD τ sig) → Buf (Elt Ideal) ℓ) (c : Dev nD)

/-- The edge table and the group table of the launch. -/
abbrev aEi : EdgeTab := m ((c : Thread nD τ).loc main_arg1)
abbrev aGr : GroupTab := m ((c : Thread nD τ).loc main_arg2)
/-- The float arguments as plain two- and one-index functions. -/
abbrev aX (n : Fin 50000) (k : Fin 128) : EReal := (m ((c : Thread nD τ).loc main_arg0) : S50000x128.Idx → EReal) (ix2 n k)
abbrev aW1 (k j : Fin 128) : EReal := (m ((c : Thread nD τ).loc main_arg3) : S128x128.Idx → EReal) (ix2 k j)
abbrev aB1 (j : Fin 128) : EReal := (m ((c : Thread nD τ).loc main_arg4) : S128.Idx → EReal) (ix1 j)
abbrev aL1 (k j : Fin 128) : EReal := (m ((c : Thread nD τ).loc main_arg5) : S128x128.Idx → EReal) (ix2 k j)
abbrev aC1 (j : Fin 128) : EReal := (m ((c : Thread nD τ).loc main_arg6) : S128.Idx → EReal) (ix1 j)
abbrev aW2 (k : Fin 128) (f : Fin 64) : EReal := (m ((c : Thread nD τ).loc main_arg7) : S128x64.Idx → EReal) (ix2 k f)
abbrev aB2 (f : Fin 64) : EReal := (m ((c : Thread nD τ).loc main_arg8) : S64.Idx → EReal) (ix1 f)
abbrev aL2 (k : Fin 128) (f : Fin 64) : EReal := (m ((c : Thread nD τ).loc main_arg9) : S128x64.Idx → EReal) (ix2 k f)
abbrev aC2 (f : Fin 64) : EReal := (m ((c : Thread nD τ).loc main_arg10) : S64.Idx → EReal) (ix1 f)
abbrev aWh (f : Fin 64) : EReal := (m ((c : Thread nD τ).loc main_arg11) : S64x1.Idx → EReal) (ix2 f 0)
abbrev aBh : EReal := (m ((c : Thread nD τ).loc main_arg12) : S1.Idx → EReal) (ix1 0)

/-- The buffers' contents when region 0 is entered, read at the TensorCore's references. -/
abbrev E5 : (c : Dev nD) → (b : Ref sig .tc) → Buf (Elt Ideal) ((c : Thread nD τ).loc b) := fun c b => V5 m c b

/-- What region 0 leaves in its first output: each node's projected row, scaled by the node's degree scale. -/
theorem xws1_at (n : Fin 50000) (j : Fin 128) :
    ((dat0 (F := Ideal) (E5 m) c).arrAt 4 cfg0.N : Vec Ideal S50000x128 .f32) (ix2 n j)
      = mm (aX m c) (aW1 m c) n j * disOf (aEi m c) n := by
  refine (final0_4 (E5 m) c n j).trans ?_
  have hx : ∀ k : Fin 128, (xarr (E5 m) c (ix2 n k) : EReal) = aX m c n k := fun k =>
    congrFun (v5_arg0 m c) (ix2 n k)
  have hw : ∀ k : Fin 128, (warr (E5 m) c (ix2 k (⟨j.val, by omega⟩ : Fin 256)) : EReal) = aW1 m c k j := fun k =>
    v5_v19_lo m c k j
  have hd : (darr (E5 m) c (ix2 n (0 : Fin 1)) : EReal) = disOf (aEi m c) n := v5_v18 m c n
  rw [hd]
  unfold mm
  exact congrArg (· * disOf (aEi m c) n) (Finset.sum_congr rfl fun k _ => by rw [hx k, hw k])

/-- What region 0 leaves in its second output: the skip path's projected row plus its bias. -/
theorem skip1_at (n : Fin 50000) (j : Fin 128) :
    ((dat0 (F := Ideal) (E5 m) c).arrAt 5 cfg0.N : Vec Ideal S50000x128 .f32) (ix2 n j)
      = mm (aX m c) (aL1 m c) n j + aC1 m c j := by
  refine (final0_5 (E5 m) c n j).trans ?_
  have hx : ∀ k : Fin 128, (xarr (E5 m) c (ix2 n k) : EReal) = aX m c n k := fun k =>
    congrFun (v5_arg0 m c) (ix2 n k)
  have hw : ∀ k : Fin 128, (warr (E5 m) c (ix2 k (⟨128 + j.val, by omega⟩ : Fin 256)) : EReal) = aL1 m c k j := fun k =>
    v5_v19_hi m c k j
  have hb : (barr (E5 m) c (ix2 (0 : Fin 1) j) : EReal) = aC1 m c j := v5_v20 m c j
  rw [hb]
  unfold mm
  exact congrArg (· + aC1 m c j) (Finset.sum_congr rfl fun k _ => by rw [hx k, hw k])

/-! ## The rest of the way, for any contents `outs` the regions leave that are what their grid points write back -/

variable (outs : Outs (F := Ideal))

/-- The buffers' contents when regions 1 and 2 are entered, read at the TensorCore's references. -/
abbrev E7 : (c : Dev nD) → (b : Ref sig .tc) → Buf (Elt Ideal) ((c : Thread nD τ).loc b) := fun c b => V7 m outs c b
abbrev E9 : (c : Dev nD) → (b : Ref sig .tc) → Buf (Elt Ideal) ((c : Thread nD τ).loc b) := fun c b => V9 m outs c b

/-- The first layer, rectified: what the second layer takes as its node table. -/
abbrev hid (n : Fin 50000) (k : Fin 128) : EReal :=
  relu (convK (srcOf (aEi m c)) (hitOf (aEi m c)) (disOf (aEi m c)) (aX m c) (aW1 m c) (aL1 m c) (aB1 m c) (aC1 m c) n k)

/-- The first aggregate: over the edges that hit n, the source node's scaled projected row. -/
theorem agg1_at (h60 : outs 6 main_v21_0 c = (dat0 (F := Ideal) (E5 m) c).arrAt 4 cfg0.N) (n : Fin 50000) (j : Fin 128) :
    (V7 m outs c main_v31 : S50000x128.Idx → EReal) (ix2 n j)
      = ∑ e ∈ into (hitOf (aEi m c)) n, mm (aX m c) (aW1 m c) (srcOf (aEi m c) e) j * disOf (aEi m c) (srcOf (aEi m c) e) := by
  refine (v7_v31 m outs c n j).trans ?_
  refine Finset.sum_congr (M := EReal) rfl fun e _ => ?_
  refine (congrFun (v6_v21_0 m outs c) _).trans ((congrFun h60 _).trans ?_)
  exact xws1_at m c (srcOf (aEi m c) e) j

/-- What region 1 leaves in its first output: the rectified first layer's projected row, scaled. -/
theorem xws2_at (h60 : outs 6 main_v21_0 c = (dat0 (F := Ideal) (E5 m) c).arrAt 4 cfg0.N)
    (h61 : outs 6 main_v21_1 c = (dat0 (F := Ideal) (E5 m) c).arrAt 5 cfg0.N) (n : Fin 50000) (f : Fin 64) :
    ((dat1 (F := Ideal) (E7 m outs) c).arrAt 7 cfg1.N : S50000x64.Idx → EReal) (ix2 n f)
      = mm (hid m c) (aW2 m c) n f * disOf (aEi m c) n := by
  refine (final1_7 (E7 m outs) c n f).trans ?_
  have hs : (scaleIn (E7 m outs) c (ix2 n 0) : EReal) = disOf (aEi m c) n :=
    (congrFun (kept7_v18 m outs c) _).trans (v5_v18 m c n)
  have ha : ∀ k : Fin 128, (aggIn (E7 m outs) c (ix2 n k) : EReal)
      = ∑ e ∈ into (hitOf (aEi m c)) n, mm (aX m c) (aW1 m c) (srcOf (aEi m c) e) k * disOf (aEi m c) (srcOf (aEi m c) e) :=
    fun k => agg1_at m c outs h60 n k
  have hk : ∀ k : Fin 128, (skipIn (E7 m outs) c (ix2 n k) : EReal) = mm (aX m c) (aL1 m c) n k + aC1 m c k := fun k =>
    (congrFun (kept7_v21_1 m outs c) _).trans ((congrFun h61 _).trans (skip1_at m c n k))
  have hb : ∀ k : Fin 128, (biasIn (E7 m outs) c (ix2 0 k) : EReal) = aB1 m c k := fun k => v7_v32 m outs c k
  have hw : ∀ k : Fin 128, (weightIn (E7 m outs) c (ix2 k f) : EReal) = aW2 m c k f := fun k =>
    congrFun (kept7_arg7 m outs c) (ix2 k f)
  rw [hs]
  unfold mm
  refine congrArg (· * disOf (aEi m c) n) (Finset.sum_congr rfl fun k _ => ?_)
  rw [ha k, hk k, hb k, hw k]
  rfl

/-- What region 1 leaves in its second output: the rectified first layer's skip row plus its bias. -/
theorem skip2_at (h60 : outs 6 main_v21_0 c = (dat0 (F := Ideal) (E5 m) c).arrAt 4 cfg0.N)
    (h61 : outs 6 main_v21_1 c = (dat0 (F := Ideal) (E5 m) c).arrAt 5 cfg0.N) (n : Fin 50000) (f : Fin 64) :
    ((dat1 (F := Ideal) (E7 m outs) c).arrAt 8 cfg1.N : S50000x64.Idx → EReal) (ix2 n f)
      = mm (hid m c) (aL2 m c) n f + aC2 m c f := by
  refine (final1_8 (E7 m outs) c n f).trans ?_
  have hs : (scaleIn (E7 m outs) c (ix2 n 0) : EReal) = disOf (aEi m c) n :=
    (congrFun (kept7_v18 m outs c) _).trans (v5_v18 m c n)
  have ha : ∀ k : Fin 128, (aggIn (E7 m outs) c (ix2 n k) : EReal)
      = ∑ e ∈ into (hitOf (aEi m c)) n, mm (aX m c) (aW1 m c) (srcOf (aEi m c) e) k * disOf (aEi m c) (srcOf (aEi m c) e) :=
    fun k => agg1_at m c outs h60 n k
  have hk : ∀ k : Fin 128, (skipIn (E7 m outs) c (ix2 n k) : EReal) = mm (aX m c) (aL1 m c) n k + aC1 m c k := fun k =>
    (congrFun (kept7_v21_1 m outs c) _).trans ((congrFun h61 _).trans (skip1_at m c n k))
  have hb : ∀ k : Fin 128, (biasIn (E7 m outs) c (ix2 0 k) : EReal) = aB1 m c k := fun k => v7_v32 m outs c k
  have hw : ∀ k : Fin 128, (weight2In (E7 m outs) c (ix2 k f) : EReal) = aL2 m c k f := fun k =>
    congrFun (kept7_arg9 m outs c) (ix2 k f)
  have hc : (bias2In (E7 m outs) c (ix2 0 f) : EReal) = aC2 m c f := v7_v33 m outs c f
  rw [hc]
  unfold mm
  refine congrArg (· + aC2 m c f) (Finset.sum_congr rfl fun k _ => ?_)
  rw [hs, ha k, hk k, hb k, hw k]
  rfl

/-- The second aggregate: over the edges that hit n, the source node's scaled second-layer row. -/
theorem agg2_at (h60 : outs 6 main_v21_0 c = (dat0 (F := Ideal) (E5 m) c).arrAt 4 cfg0.N)
    (h61 : outs 6 main_v21_1 c = (dat0 (F := Ideal) (E5 m) c).arrAt 5 cfg0.N)
    (h80 : outs 8 main_v34_0 c = (dat1 (F := Ideal) (E7 m outs) c).arrAt 7 cfg1.N) (n : Fin 50000) (f : Fin 64) :
    (V9 m outs c main_v44 : S50000x64.Idx → EReal) (ix2 n f)
      = ∑ e ∈ into (hitOf (aEi m c)) n, mm (hid m c) (aW2 m c) (srcOf (aEi m c) e) f * disOf (aEi m c) (srcOf (aEi m c) e) := by
  refine (v9_v44 m outs c n f).trans ?_
  refine Finset.sum_congr (M := EReal) rfl fun e _ => ?_
  refine (congrFun (v8_v34_0 m outs c) _).trans ((congrFun h80 _).trans ?_)
  exact xws2_at m c outs h60 h61 (srcOf (aEi m c) e) f

/-- The first program's result at group g. -/
theorem result_of (h60 : outs 6 main_v21_0 c = (dat0 (F := Ideal) (E5 m) c).arrAt 4 cfg0.N)
    (h61 : outs 6 main_v21_1 c = (dat0 (F := Ideal) (E5 m) c).arrAt 5 cfg0.N)
    (h80 : outs 8 main_v34_0 c = (dat1 (F := Ideal) (E7 m outs) c).arrAt 7 cfg1.N)
    (h81 : outs 8 main_v34_1 c = (dat1 (F := Ideal) (E7 m outs) c).arrAt 8 cfg1.N)
    (h10 : outs 10 main_v47 c = (dat2 (F := Ideal) (E9 m outs) c).arrAt 7 cfg2.N) (g : Fin 512) :
    (V11 m outs c main_v48 : S512.Idx → EReal) (ix1 g)
      = outK (srcOf (aEi m c)) (hitOf (aEi m c)) (selOf (aGr m c)) (disOf (aEi m c)) (aX m c)
          (aW1 m c) (aL1 m c) (aB1 m c) (aC1 m c) (aW2 m c) (aL2 m c) (aB2 m c) (aC2 m c) (aWh m c) (aBh m c) g := by
  refine (v11_v48 m outs c g).trans ((congrFun (v10_v47 m outs c) _).trans ((congrFun h10 _).trans ?_))
  refine (final2_7 (E9 m outs) c g).trans ?_
  have hd : ∀ n : Fin 50000, (degA (E9 m outs) c (ix2 n 0) : EReal) = disOf (aEi m c) n := fun n =>
    (congrFun (kept9_v18 m outs c) _).trans (v5_v18 m c n)
  have ha : ∀ (n : Fin 50000) (f : Fin 64), (aggA (E9 m outs) c (ix2 n f) : EReal)
      = ∑ e ∈ into (hitOf (aEi m c)) n, mm (hid m c) (aW2 m c) (srcOf (aEi m c) e) f * disOf (aEi m c) (srcOf (aEi m c) e) :=
    fun n f => agg2_at m c outs h60 h61 h80 n f
  have hk : ∀ (n : Fin 50000) (f : Fin 64), (skipA (E9 m outs) c (ix2 n f) : EReal) = mm (hid m c) (aL2 m c) n f + aC2 m c f :=
    fun n f => (congrFun (kept9_v34_1 m outs c) _).trans ((congrFun h81 _).trans (skip2_at m c outs h60 h61 n f))
  have hb : ∀ f : Fin 64, (biasA (E9 m outs) c (ix2 0 f) : EReal) = aB2 m c f := fun f => v9_v45 m outs c f
  have hg : ∀ n : Fin 50000, (grpA (E9 m outs) c (ix2 n 0) : BitVec 32) = aGr m c (ix1 n) := fun n =>
    (congrFun (kept9_v4 m outs c) _).trans (v5_v4 m c n)
  have hw : ∀ f : Fin 64, (whA (E9 m outs) c (ix2 f 0) : EReal) = aWh m c f := fun f =>
    congrFun (kept9_arg11 m outs c) (ix2 f 0)
  have hh : (bhA (E9 m outs) c (ix2 0 0) : EReal) = aBh m c := v9_v46 m outs c
  rw [hh]
  unfold outK head poolK
  refine congrArg (· + aBh m c) (Finset.sum_congr rfl fun f _ => ?_)
  rw [hw f]
  refine congrArg (fun v => max v 0 * aWh m c f) (Finset.sum_congr rfl fun n _ => ?_)
  rw [hg n, hd n, ha n f, hk n f, hb f]
  rfl

end Cert.KernelIdeal.Val

end
-- ==== Proof.RefValue.lean ====
/-
  What the reference program computes, entry by entry: its result at group g is Spec's `outR` of the argument
  arrays — two layers with the product of the two degree scales on each edge (the first rectified), the group sums
  over the nodes counted in the group, and the head.

  The reading goes from the inside out, one intermediate array at a time, each stated at explicit coordinates:
  the index words of the edge table (flattened rows, wrapped as array indexing wraps them), the per-edge product of
  the two degree scales, the projected node rows (a table times a matrix), the rows carried along the edges and summed
  into the nodes they hit, the bias and the skip term, the rectifier; the same again for the second layer over the
  rectified first; then the group sums, the head, and the final flattening of a 512 x 1 column.
-/
import proofs.«422353_j75677323755530_3_alg».proof.Proof.RefGen
import proofs.«422353_j75677323755530_3_alg».proof.Proof.Idx
import proofs.«422353_j75677323755530_3_alg».proof.Proof.Dis
import proofs.«422353_j75677323755530_3_alg».proof.Proof.LibRows
import proofs.«422353_j75677323755530_3_alg».proof.Proof.LibRowGather

noncomputable section

namespace Cert.RefValue

open Idealize.ShloMosaic Idealize.ShloMosaic.ValueIdx Cert.ReferenceIdeal Cert.Bridge Cert.LibRows Cert.LibRowGather
open Cert.ReferenceIdeal.Read

/-! ## A gather of scalars out of a vector, read at an index -/

/-- A gather of M scalars out of a table of N scalars, one start index per result entry. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result entry q is the table entry named by word (q, 0), read as a signed integer and clamped into the table:
    the table's one axis is in the start index map (so its start is the clamped word) and is collapsed (so it has no
    offset coordinate), and there is no batching axis. -/
theorem gather_vec_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (q : Fin M) :
    Host.gather (vecGather N M wf) x idx (ix1 q) = x (ix1 (rowClamp N hN (idx (ix2 q 0)))) := by
  unfold Host.gather
  congr 1
  funext a
  refine Fin.ext ?_
  match a with
  | ⟨0, _⟩ =>
    show (vecGather N M wf).start (ix1 q) idx 0 + (vecGather N M wf).batchCoord (ix1 q) 0
      + (vecGather N M wf).offCoord (ix1 q) 0 = min (idx (ix2 q 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 q) ⟨List.idxOf (0 : Fin 1) (vecGather N M wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

/-! ## The program's gathers and scatters are the row and scalar ones at its sizes -/

theorem gatherVec_eq : gather_S50000_S800000x1_S800000_n_0_n_n_0_1_1
    = vecGather 50000 800000 Facts₀.gather_S50000_S800000x1_S800000_n_0_n_n_0_1_1_wf := rfl
theorem gatherRows128_eq : gather_S50000x128_S800000x1_S800000x128_1_0_n_n_0_1_1128
    = rowsGather2 50000 128 800000 Facts₀.gather_S50000x128_S800000x1_S800000x128_1_0_n_n_0_1_1128_wf := rfl
theorem gatherRows64_eq : gather_S50000x64_S800000x1_S800000x64_1_0_n_n_0_1_164
    = rowsGather2 50000 64 800000 Facts₀.gather_S50000x64_S800000x1_S800000x64_1_0_n_n_0_1_164_wf := rfl
theorem scatter128_eq : scatter_S50000x128_S800000x1_S800000x128_1_0_0_1
    = rowsScatter 50000 800000 128 Facts₀.scatter_S50000x128_S800000x1_S800000x128_1_0_0_1_wf := rfl
theorem scatter64_eq : scatter_S50000x64_S800000x1_S800000x64_1_0_0_1
    = rowsScatter 50000 800000 64 Facts₀.scatter_S50000x64_S800000x1_S800000x64_1_0_0_1_wf := rfl
theorem scatterPool_eq : scatter_S512x64_S50000x1_S50000x64_1_0_0_1
    = rowsScatter 512 50000 64 Facts₀.scatter_S512x64_S50000x1_S50000x64_1_0_0_1_wf := rfl

/-- The zero word is the number 0. -/
theorem zero_word : (FloatOps.ofBits (F := Ideal) .f32 0x00000000#32 : EReal) = 0 := Ideal.ofBits_zero_f32

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal)) (x9 : (⟨S128x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-! ## The index words -/

/-- The flattened first row of the edge table: the source words. -/
theorem v1_at (e : Fin 800000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- The flattened second row of the edge table: the target words. -/
theorem v3_at (e : Fin 800000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The source words again, as the second layer reads them. -/
theorem v56_at (e : Fin 800000) : val_main_v56 (F := Ideal) x1 (ix1 e) = x1 (ix2 0 e) := by
  rw [val_main_v56_apply, val_main_v55_apply]
  refine congrArg x1 (funext fun a => Fin.ext ?_)
  match a with
  | ⟨0, _⟩ => rfl
  | ⟨1, _⟩ => exact Nat.mod_eq_of_lt e.isLt

/-- The target words again, as the second layer reads them. -/
theorem v58_at (e : Fin 800000) : val_main_v58 (F := Ideal) x1 (ix1 e) = x1 (ix2 1 e) := by
  rw [val_main_v58_apply, val_main_v57_apply]
  refine congrArg x1 (funext fun a => Fin.ext ?_)
  match a with
  | ⟨0, _⟩ => rfl
  | ⟨1, _⟩ => exact Nat.mod_eq_of_lt e.isLt

/-- A source word wrapped as array indexing wraps it: 50000 is added where it is negative. -/
theorem w22_at (e : Fin 800000) : val_main_v22 (F := Ideal) x1 (ix1 e) = wrapW (x1 (ix2 0 e)) := by
  rw [val_main_v22_apply, val_main_v19_apply, val_main_v21_apply, val_main_v18_apply, val_main_v20_apply,
    val_main_c_apply, val_main_c_6_apply, v1_at]
  rfl

/-- A target word wrapped the same way. -/
theorem w29_at (e : Fin 800000) : val_main_v29 (F := Ideal) x1 (ix1 e) = wrapW (x1 (ix2 1 e)) := by
  rw [val_main_v29_apply, val_main_v26_apply, val_main_v28_apply, val_main_v25_apply, val_main_v27_apply,
    val_main_c_7_apply, val_main_c_8_apply, v3_at]
  rfl

/-- A source word wrapped, as the row gather of the first layer reads it. -/
theorem w38_at (e : Fin 800000) : val_main_v38 (F := Ideal) x1 (ix1 e) = wrapW (x1 (ix2 0 e)) := by
  rw [val_main_v38_apply, val_main_v35_apply, val_main_v37_apply, val_main_v34_apply, val_main_v36_apply,
    val_main_c_9_apply, val_main_c_10_apply, v1_at]
  rfl

/-- A source word wrapped, in the second layer. -/
theorem w77_at (e : Fin 800000) : val_main_v77 (F := Ideal) x1 (ix1 e) = wrapW (x1 (ix2 0 e)) := by
  rw [val_main_v77_apply, val_main_v74_apply, val_main_v76_apply, val_main_v73_apply, val_main_v75_apply,
    val_main_c_19_apply, val_main_c_20_apply, v56_at]
  rfl

/-- A target word wrapped, in the second layer. -/
theorem w84_at (e : Fin 800000) : val_main_v84 (F := Ideal) x1 (ix1 e) = wrapW (x1 (ix2 1 e)) := by
  rw [val_main_v84_apply, val_main_v81_apply, val_main_v83_apply, val_main_v80_apply, val_main_v82_apply,
    val_main_c_21_apply, val_main_c_22_apply, v58_at]
  rfl

/-- A source word wrapped, as the row gather of the second layer reads it. -/
theorem w93_at (e : Fin 800000) : val_main_v93 (F := Ideal) x1 (ix1 e) = wrapW (x1 (ix2 0 e)) := by
  rw [val_main_v93_apply, val_main_v90_apply, val_main_v92_apply, val_main_v89_apply, val_main_v91_apply,
    val_main_c_23_apply, val_main_c_24_apply, v56_at]
  rfl

/-- The wrapped source words as a column of start indices. -/
theorem v23_at (e : Fin 800000) : val_main_v23 (F := Ideal) x1 (ix2 e 0) = wrapW (x1 (ix2 0 e)) := by
  rw [val_main_v23_apply, show idx_main_v23 (ix2 e 0) = ix1 e from funext fun a => by match a with | ⟨0, _⟩ => rfl,
    w22_at]

/-- The wrapped target words as a column of start indices. -/
theorem v30_at (e : Fin 800000) : val_main_v30 (F := Ideal) x1 (ix2 e 0) = wrapW (x1 (ix2 1 e)) := by
  rw [val_main_v30_apply, show idx_main_v30 (ix2 e 0) = ix1 e from funext fun a => by match a with | ⟨0, _⟩ => rfl,
    w29_at]

/-- The wrapped source words as a column, for the row gather. -/
theorem v39_at (e : Fin 800000) : val_main_v39 (F := Ideal) x1 (ix2 e 0) = wrapW (x1 (ix2 0 e)) := by
  rw [val_main_v39_apply, show idx_main_v39 (ix2 e 0) = ix1 e from funext fun a => by match a with | ⟨0, _⟩ => rfl,
    w38_at]

/-- The target words, unwrapped, as the column of scatter indices. -/
theorem v44_at (e : Fin 800000) : val_main_v44 (F := Ideal) x1 (ix2 e 0) = x1 (ix2 1 e) := by
  rw [val_main_v44_apply, show idx_main_v44 (ix2 e 0) = ix1 e from funext fun a => by match a with | ⟨0, _⟩ => rfl,
    v3_at]

/-- Second layer: the wrapped source words as a column. -/
theorem v78_at (e : Fin 800000) : val_main_v78 (F := Ideal) x1 (ix2 e 0) = wrapW (x1 (ix2 0 e)) := by
  rw [val_main_v78_apply, show idx_main_v78 (ix2 e 0) = ix1 e from funext fun a => by match a with | ⟨0, _⟩ => rfl,
    w77_at]

/-- Second layer: the wrapped target words as a column. -/
theorem v85_at (e : Fin 800000) : val_main_v85 (F := Ideal) x1 (ix2 e 0) = wrapW (x1 (ix2 1 e)) := by
  rw [val_main_v85_apply, show idx_main_v85 (ix2 e 0) = ix1 e from funext fun a => by match a with | ⟨0, _⟩ => rfl,
    w84_at]

/-- Second layer: the wrapped source words as a column, for the row gather. -/
theorem v94_at (e : Fin 800000) : val_main_v94 (F := Ideal) x1 (ix2 e 0) = wrapW (x1 (ix2 0 e)) := by
  rw [val_main_v94_apply, show idx_main_v94 (ix2 e 0) = ix1 e from funext fun a => by match a with | ⟨0, _⟩ => rfl,
    w93_at]

/-- Second layer: the target words as the column of scatter indices. -/
theorem v99_at (e : Fin 800000) : val_main_v99 (F := Ideal) x1 (ix2 e 0) = x1 (ix2 1 e) := by
  rw [val_main_v99_apply, show idx_main_v99 (ix2 e 0) = ix1 e from funext fun a => by match a with | ⟨0, _⟩ => rfl,
    v58_at]

/-! ## The product of the two degree scales on each edge -/

/-- The scale of the node an edge's source word names. -/
theorem v24_at (e : Fin 800000) : val_main_v24 (F := Ideal) x1 (ix1 e) = disOf x1 (srcOf x1 e) := by
  unfold val_main_v24
  rw [gatherVec_eq, gather_vec_apply (N := 50000) (by decide), v23_at]
  rfl

/-- The scale of the node an edge's target word names when it is read as an array index. -/
theorem v31_at (e : Fin 800000) : val_main_v31 (F := Ideal) x1 (ix1 e) = disOf x1 (dstOf x1 e) := by
  unfold val_main_v31
  rw [gatherVec_eq, gather_vec_apply (N := 50000) (by decide), v30_at]
  rfl

/-- Their product, per edge. -/
theorem v32_at (e : Fin 800000) : val_main_v32 (F := Ideal) x1 (ix1 e) = disOf x1 (srcOf x1 e) * disOf x1 (dstOf x1 e) := by
  rw [val_main_v32_apply, v24_at, v31_at]
  rfl

/-- The product spread along a row of 128 columns. -/
theorem v41_at (e : Fin 800000) (j : Fin 128) : val_main_v41 (F := Ideal) x1 (ix2 e j) = disOf x1 (srcOf x1 e) * disOf x1 (dstOf x1 e) := by
  rw [val_main_v41_apply, val_main_v33_apply,
    show idx_main_v33 (idx_main_v41 (ix2 e j)) = ix1 e from funext fun a => by match a with | ⟨0, _⟩ => rfl, v32_at]

/-- Second layer: the scale of the source node, the second copy of the scale vector being the first. -/
theorem v79_at (e : Fin 800000) : val_main_v79 (F := Ideal) x1 (ix1 e) = disOf x1 (srcOf x1 e) := by
  unfold val_main_v79
  rw [v72_eq_v17, gatherVec_eq, gather_vec_apply (N := 50000) (by decide), v78_at]
  rfl

/-- Second layer: the scale of the target node. -/
theorem v86_at (e : Fin 800000) : val_main_v86 (F := Ideal) x1 (ix1 e) = disOf x1 (dstOf x1 e) := by
  unfold val_main_v86
  rw [v72_eq_v17, gatherVec_eq, gather_vec_apply (N := 50000) (by decide), v85_at]
  rfl

/-- Second layer: their product, per edge. -/
theorem v87_at (e : Fin 800000) : val_main_v87 (F := Ideal) x1 (ix1 e) = disOf x1 (srcOf x1 e) * disOf x1 (dstOf x1 e) := by
  rw [val_main_v87_apply, v79_at, v86_at]
  rfl

/-- Second layer: the product spread along a row of 64 columns. -/
theorem v96_at (e : Fin 800000) (f : Fin 64) : val_main_v96 (F := Ideal) x1 (ix2 e f) = disOf x1 (srcOf x1 e) * disOf x1 (dstOf x1 e) := by
  rw [val_main_v96_apply, val_main_v88_apply,
    show idx_main_v88 (idx_main_v96 (ix2 e f)) = ix1 e from funext fun a => by match a with | ⟨0, _⟩ => rfl, v87_at]

/-! ## The first layer -/

/-- The projected rows: the node table times the first weight matrix. -/
theorem v4_at (n : Fin 50000) (j : Fin 128) :
    val_main_v4 (F := Ideal) x0 x3 (ix2 n j) = Spec.mm (fun n k => x0 (ix2 n k)) (fun k j => x3 (ix2 k j)) n j := by
  rw [val_main_v4_apply]
  unfold Spec.mm
  refine Finset.sum_congr rfl fun k _ => ?_
  rw [show lidx_main_v4 (ix2 n j) k = ix2 n k from funext fun a => by match a with | ⟨0, _⟩ => rfl | ⟨1, _⟩ => rfl,
    show ridx_main_v4 (ix2 n j) k = ix2 k j from funext fun a => by match a with | ⟨0, _⟩ => rfl | ⟨1, _⟩ => rfl]

/-- The projected row of an edge's source node. -/
theorem v40_at (e : Fin 800000) (j : Fin 128) :
    val_main_v40 (F := Ideal) x0 x1 x3 (ix2 e j) = Spec.mm (fun n k => x0 (ix2 n k)) (fun k j => x3 (ix2 k j)) (srcOf x1 e) j := by
  unfold val_main_v40
  rw [gatherRows128_eq, gather_rows2_apply (N := 50000) (by decide), v39_at, v4_at]
  rfl

/-- The row an edge carries: its source's projected row times the product of the two scales. -/
theorem v42_at (e : Fin 800000) (j : Fin 128) :
    val_main_v42 (F := Ideal) x0 x1 x3 (ix2 e j) = (disOf x1 (srcOf x1 e) * disOf x1 (dstOf x1 e)) * Spec.mm (fun n k => x0 (ix2 n k)) (fun k j => x3 (ix2 k j)) (srcOf x1 e) j := by
  rw [val_main_v42_apply, v41_at, v40_at]
  rfl

/-- The rows collected at node n: zero plus the sum over the edges that hit n. -/
theorem v45_at (n : Fin 50000) (j : Fin 128) :
    val_main_v45 (F := Ideal) x0 x1 x3 (ix2 n j)
      = ∑ e ∈ Spec.into (hitOf x1) n, (disOf x1 (srcOf x1 e) * disOf x1 (dstOf x1 e)) * Spec.mm (fun n k => x0 (ix2 n k)) (fun k j => x3 (ix2 k j)) (srcOf x1 e) j := by
  unfold val_main_v45
  rw [scatter128_eq, scatterAdd_rows_apply, val_main_v43_apply, val_main_cst_11_apply, zero_word, zero_add]
  refine Finset.sum_congr (Finset.ext fun q => ?_) (fun q _ => v42_at x0 x1 x3 q j)
  rw [Finset.mem_filter, Spec.into, Finset.mem_filter, v44_at]
  exact Iff.rfl

/-- The bias of the first layer, spread over the nodes. -/
theorem v47_at (n : Fin 50000) (j : Fin 128) : val_main_v47 (F := Ideal) x4 (ix2 n j) = x4 (ix1 j) := by
  rw [val_main_v47_apply, val_main_v46_apply]
  exact congrArg x4 (funext fun a => by match a with | ⟨0, _⟩ => rfl)

/-- The skip term's product: the node table times the first skip matrix. -/
theorem v49_at (n : Fin 50000) (j : Fin 128) :
    val_main_v49 (F := Ideal) x0 x5 (ix2 n j) = Spec.mm (fun n k => x0 (ix2 n k)) (fun k j => x5 (ix2 k j)) n j := by
  rw [val_main_v49_apply]
  unfold Spec.mm
  refine Finset.sum_congr rfl fun k _ => ?_
  rw [show lidx_main_v49 (ix2 n j) k = ix2 n k from funext fun a => by match a with | ⟨0, _⟩ => rfl | ⟨1, _⟩ => rfl,
    show ridx_main_v49 (ix2 n j) k = ix2 k j from funext fun a => by match a with | ⟨0, _⟩ => rfl | ⟨1, _⟩ => rfl]

/-- The skip term's constant, spread over the nodes. -/
theorem v51_at (n : Fin 50000) (j : Fin 128) : val_main_v51 (F := Ideal) x6 (ix2 n j) = x6 (ix1 j) := by
  rw [val_main_v51_apply, val_main_v50_apply]
  exact congrArg x6 (funext fun a => by match a with | ⟨0, _⟩ => rfl)

/-- The first layer before the rectifier: (collected rows + bias) + (skip product + constant). -/
theorem v53_at (n : Fin 50000) (j : Fin 128) :
    val_main_v53 (F := Ideal) x0 x1 x3 x4 x5 x6 (ix2 n j)
      = Spec.convR (srcOf x1) (dstOf x1) (hitOf x1) (disOf x1) (fun n k => x0 (ix2 n k)) (fun k j => x3 (ix2 k j)) (fun k j => x5 (ix2 k j)) (fun j => x4 (ix1 j)) (fun j => x6 (ix1 j)) n j := by
  rw [val_main_v53_apply, val_main_v48_apply, val_main_v52_apply, v45_at, v47_at, v49_at, v51_at]
  rfl

/-- The rectified first layer, as a table over nodes and 128 columns. -/
def lay1 : Fin 50000 → Fin 128 → EReal := fun n j =>
  Spec.relu (Spec.convR (srcOf x1) (dstOf x1) (hitOf x1) (disOf x1) (fun n k => x0 (ix2 n k)) (fun k j => x3 (ix2 k j)) (fun k j => x5 (ix2 k j)) (fun j => x4 (ix1 j)) (fun j => x6 (ix1 j)) n j)

/-- The rectifier is the maximum with the zero table. -/
theorem v54_at (n : Fin 50000) (j : Fin 128) :
    val_main_v54 (F := Ideal) x0 x1 x3 x4 x5 x6 (ix2 n j) = lay1 x0 x1 x3 x4 x5 x6 n j := by
  rw [val_main_v54_apply, v53_at, val_main_call2_v0_apply, val_main_call2_cst_apply, zero_word]
  rfl

/-! ## The second layer, over the rectified first -/

/-- The projected rows: the rectified first layer times the second weight matrix. -/
theorem v59_at (n : Fin 50000) (f : Fin 64) :
    val_main_v59 (F := Ideal) x0 x1 x3 x4 x5 x6 x7 (ix2 n f) = Spec.mm (lay1 x0 x1 x3 x4 x5 x6) (fun k j => x7 (ix2 k j)) n f := by
  rw [val_main_v59_apply]
  unfold Spec.mm
  refine Finset.sum_congr rfl fun k _ => ?_
  rw [show lidx_main_v59 (ix2 n f) k = ix2 n k from funext fun a => by match a with | ⟨0, _⟩ => rfl | ⟨1, _⟩ => rfl,
    show ridx_main_v59 (ix2 n f) k = ix2 k f from funext fun a => by match a with | ⟨0, _⟩ => rfl | ⟨1, _⟩ => rfl, v54_at]

/-- The projected row of an edge's source node. -/
theorem v95_at (e : Fin 800000) (f : Fin 64) :
    val_main_v95 (F := Ideal) x0 x1 x3 x4 x5 x6 x7 (ix2 e f) = Spec.mm (lay1 x0 x1 x3 x4 x5 x6) (fun k j => x7 (ix2 k j)) (srcOf x1 e) f := by
  unfold val_main_v95
  rw [gatherRows64_eq, gather_rows2_apply (N := 50000) (by decide), v94_at, v59_at]
  rfl

/-- The row an edge carries. -/
theorem v97_at (e : Fin 800000) (f : Fin 64) :
    val_main_v97 (F := Ideal) x0 x1 x3 x4 x5 x6 x7 (ix2 e f) = (disOf x1 (srcOf x1 e) * disOf x1 (dstOf x1 e)) * Spec.mm (lay1 x0 x1 x3 x4 x5 x6) (fun k j => x7 (ix2 k j)) (srcOf x1 e) f := by
  rw [val_main_v97_apply, v96_at, v95_at]
  rfl

/-- The rows collected at node n: zero plus the sum over the edges that hit n. -/
theorem v100_at (n : Fin 50000) (f : Fin 64) :
    val_main_v100 (F := Ideal) x0 x1 x3 x4 x5 x6 x7 (ix2 n f)
      = ∑ e ∈ Spec.into (hitOf x1) n, (disOf x1 (srcOf x1 e) * disOf x1 (dstOf x1 e)) * Spec.mm (lay1 x0 x1 x3 x4 x5 x6) (fun k j => x7 (ix2 k j)) (srcOf x1 e) f := by
  unfold val_main_v100
  rw [scatter64_eq, scatterAdd_rows_apply, val_main_v98_apply, val_main_cst_25_apply, zero_word, zero_add]
  refine Finset.sum_congr (Finset.ext fun q => ?_) (fun q _ => v97_at x0 x1 x3 x4 x5 x6 x7 q f)
  rw [Finset.mem_filter, Spec.into, Finset.mem_filter, v99_at]
  exact Iff.rfl

/-- The bias of the second layer, spread over the nodes. -/
theorem v102_at (n : Fin 50000) (f : Fin 64) : val_main_v102 (F := Ideal) x8 (ix2 n f) = x8 (ix1 f) := by
  rw [val_main_v102_apply, val_main_v101_apply]
  exact congrArg x8 (funext fun a => by match a with | ⟨0, _⟩ => rfl)

/-- The skip term's product: the rectified first layer times the second skip matrix. -/
theorem v104_at (n : Fin 50000) (f : Fin 64) :
    val_main_v104 (F := Ideal) x0 x1 x3 x4 x5 x6 x9 (ix2 n f) = Spec.mm (lay1 x0 x1 x3 x4 x5 x6) (fun k j => x9 (ix2 k j)) n f := by
  rw [val_main_v104_apply]
  unfold Spec.mm
  refine Finset.sum_congr rfl fun k _ => ?_
  rw [show lidx_main_v104 (ix2 n f) k = ix2 n k from funext fun a => by match a with | ⟨0, _⟩ => rfl | ⟨1, _⟩ => rfl,
    show ridx_main_v104 (ix2 n f) k = ix2 k f from funext fun a => by match a with | ⟨0, _⟩ => rfl | ⟨1, _⟩ => rfl, v54_at]

/-- The skip term's constant, spread over the nodes. -/
theorem v106_at (n : Fin 50000) (f : Fin 64) : val_main_v106 (F := Ideal) x10 (ix2 n f) = x10 (ix1 f) := by
  rw [val_main_v106_apply, val_main_v105_apply]
  exact congrArg x10 (funext fun a => by match a with | ⟨0, _⟩ => rfl)

/-- The second layer, as a table over nodes and 64 columns. -/
def lay2 : Fin 50000 → Fin 64 → EReal :=
  Spec.convR (srcOf x1) (dstOf x1) (hitOf x1) (disOf x1) (lay1 x0 x1 x3 x4 x5 x6) (fun k j => x7 (ix2 k j)) (fun k j => x9 (ix2 k j)) (fun j => x8 (ix1 j)) (fun j => x10 (ix1 j))

/-- The second layer: (collected rows + bias) + (skip product + constant). -/
theorem v108_at (n : Fin 50000) (f : Fin 64) :
    val_main_v108 (F := Ideal) x0 x1 x3 x4 x5 x6 x7 x8 x9 x10 (ix2 n f) = (lay2 x0 x1 x3 x4 x5 x6 x7 x8 x9 x10) n f := by
  rw [val_main_v108_apply, val_main_v103_apply, val_main_v107_apply, v100_at, v102_at, v104_at, v106_at]
  rfl

/-! ## The group sums and the head -/

/-- The group words as the column of scatter indices. -/
theorem v110_at (n : Fin 50000) : val_main_v110 (F := Ideal) x2 (ix2 n 0) = x2 (ix1 n) := by
  rw [val_main_v110_apply]
  exact congrArg x2 (funext fun a => by match a with | ⟨0, _⟩ => rfl)

/-- The group sums: zero plus the sum over the nodes counted in group g. -/
theorem v111_at (g : Fin 512) (f : Fin 64) :
    val_main_v111 (F := Ideal) x0 x1 x2 x3 x4 x5 x6 x7 x8 x9 x10 (ix2 g f) = Spec.poolR (ghitOf x2) (lay2 x0 x1 x3 x4 x5 x6 x7 x8 x9 x10) g f := by
  unfold val_main_v111
  rw [scatterPool_eq, scatterAdd_rows_apply, val_main_v109_apply, val_main_cst_26_apply, zero_word, zero_add]
  unfold Spec.poolR
  refine Finset.sum_congr (Finset.ext fun q => ?_) (fun q _ => v108_at x0 x1 x3 x4 x5 x6 x7 x8 x9 x10 q f)
  rw [Finset.mem_filter, Finset.mem_filter, v110_at]
  exact Iff.rfl

/-- The rectified group sums. -/
theorem v112_at (g : Fin 512) (f : Fin 64) :
    val_main_v112 (F := Ideal) x0 x1 x2 x3 x4 x5 x6 x7 x8 x9 x10 (ix2 g f)
      = Spec.relu (Spec.poolR (ghitOf x2) (lay2 x0 x1 x3 x4 x5 x6 x7 x8 x9 x10) g f) := by
  rw [val_main_v112_apply, v111_at, val_main_call5_v0_apply, val_main_call5_cst_apply, zero_word]
  rfl

/-- The head's product: the rectified pooled row against the head column. -/
theorem v113_at (g : Fin 512) :
    val_main_v113 (F := Ideal) x0 x1 x2 x3 x4 x5 x6 x7 x8 x9 x10 x11 (ix2 g 0)
      = ∑ f : Fin 64, Spec.relu (Spec.poolR (ghitOf x2) (lay2 x0 x1 x3 x4 x5 x6 x7 x8 x9 x10) g f) * x11 (ix2 f 0) := by
  rw [val_main_v113_apply]
  refine Finset.sum_congr rfl fun k _ => ?_
  rw [show lidx_main_v113 (ix2 g 0) k = ix2 g k from funext fun a => by match a with | ⟨0, _⟩ => rfl | ⟨1, _⟩ => rfl,
    show ridx_main_v113 (ix2 g 0) k = ix2 k 0 from funext fun a => by match a with | ⟨0, _⟩ => rfl | ⟨1, _⟩ => rfl, v112_at]

/-- The head's constant, spread over the groups. -/
theorem v115_at (g : Fin 512) : val_main_v115 (F := Ideal) x12 (ix2 g 0) = x12 (ix1 0) := by
  rw [val_main_v115_apply, val_main_v114_apply]
  exact congrArg x12 (funext fun a => by match a with | ⟨0, _⟩ => rfl)

/-- The reference's result at group g is `outR` of its arguments. -/
theorem result (g : Fin 512) :
    Cert.ReferenceIdeal.Read.val_main_v117 (F := Ideal) x0 x1 x2 x3 x4 x5 x6 x7 x8 x9 x10 x11 x12 (ix1 g)
      = Cert.Spec.outR (srcOf x1) (dstOf x1) (hitOf x1) (ghitOf x2) (disOf x1)
          (fun n k => x0 (ix2 n k)) (fun k j => x3 (ix2 k j)) (fun k j => x5 (ix2 k j)) (fun j => x4 (ix1 j)) (fun j => x6 (ix1 j))
          (fun k j => x7 (ix2 k j)) (fun k j => x9 (ix2 k j)) (fun j => x8 (ix1 j)) (fun j => x10 (ix1 j))
          (fun f => x11 (ix2 f 0)) (x12 (ix1 0)) g := by
  rw [val_main_v117_apply,
    show idx_main_v117 (ix1 g) = ix2 g 0 from funext fun a => Fin.ext (by
      match a with
      | ⟨0, _⟩ => exact Nat.div_one g.val
      | ⟨1, _⟩ => rfl),
    val_main_v116_apply, v113_at, v115_at]
  rfl

end Cert.RefValue

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.SpecLaws.lean ====
/-
  The laws that join the two ways of writing a layer and the two ways of pooling (Spec.lean).
-/
import proofs.«422353_j75677323755530_3_alg».proof.Proof.Spec
import proofs.«422353_j75677323755530_3_alg».proof.Proof.LibRealSums
import Mathlib.Algebra.BigOperators.Ring.Finset

noncomputable section

namespace Cert.Spec

open Finset

variable {N E K C G : Nat}

/-- A product of two reals is a real. -/
theorem mul_real {a b : EReal} (ha : IsReal a) (hb : IsReal b) : IsReal (a * b) := by
  obtain ⟨r, rfl⟩ := ha
  obtain ⟨s, rfl⟩ := hb
  exact ⟨r * s, (EReal.coe_mul r s).symm⟩

/-- A sum of two reals is a real. -/
theorem add_real {a b : EReal} (ha : IsReal a) (hb : IsReal b) : IsReal (a + b) := by
  obtain ⟨r, rfl⟩ := ha
  obtain ⟨s, rfl⟩ := hb
  exact ⟨r + s, (EReal.coe_add r s).symm⟩

/-- A finite sum of reals is a real. -/
theorem sum_isReal {ι : Type} (s : Finset ι) (f : ι → EReal) (hf : ∀ i, IsReal (f i)) : IsReal (∑ i ∈ s, f i) :=
  Cert.RealSums.sum_real s f hf

/-- A finite sum of products of reals is a real. -/
theorem mm_real {x : Fin N → Fin K → EReal} {W : Fin K → Fin C → EReal} (hx : ∀ n k, IsReal (x n k)) (hW : ∀ k j, IsReal (W k j))
    (n : Fin N) (j : Fin C) : IsReal (mm x W n j) := by
  unfold mm
  exact sum_isReal univ _ fun k => mul_real (hx n k) (hW k j)

/-- The first form of the layer has real entries when everything that enters it is real. -/
theorem convK_real (src : Fin E → Fin N) (hit : Fin E → Fin N → Prop) [∀ e n, Decidable (hit e n)]
    {d : Fin N → EReal} {x : Fin N → Fin K → EReal} {W L : Fin K → Fin C → EReal} {b c : Fin C → EReal}
    (hd : ∀ n, IsReal (d n)) (hx : ∀ n k, IsReal (x n k)) (hW : ∀ k j, IsReal (W k j)) (hL : ∀ k j, IsReal (L k j))
    (hb : ∀ j, IsReal (b j)) (hc : ∀ j, IsReal (c j)) (n : Fin N) (j : Fin C) :
    IsReal (convK src hit d x W L b c n j) := by
  unfold convK
  exact add_real
    (add_real (mul_real (hd n) (sum_isReal _ _ fun e => mul_real (mm_real hx hW (src e) j) (hd (src e))))
      (add_real (mm_real hx hL n j) (hc j)))
    (hb j)

/-- The rectifier of a real is a real. -/
theorem relu_real {v : EReal} (hv : IsReal v) : IsReal (relu v) := by
  obtain ⟨r, rfl⟩ := hv
  refine ⟨max r 0, ?_⟩
  unfold relu
  rw [Cert.RealSums.coe_max, EReal.coe_zero]

/-- The two forms of the layer agree: every edge that hits n has its second scale at n, so that scale is a common
    factor of a finite sum of reals; the rest is the order of the additions. -/
theorem conv_eq (src dst : Fin E → Fin N) (hit : Fin E → Fin N → Prop) [∀ e n, Decidable (hit e n)]
    (hdst : ∀ e n, hit e n → dst e = n)
    {d : Fin N → EReal} {x : Fin N → Fin K → EReal} {W L : Fin K → Fin C → EReal} {b c : Fin C → EReal}
    (hd : ∀ n, IsReal (d n)) (hx : ∀ n k, IsReal (x n k)) (hW : ∀ k j, IsReal (W k j)) (hL : ∀ k j, IsReal (L k j))
    (hb : ∀ j, IsReal (b j)) (hc : ∀ j, IsReal (c j)) (n : Fin N) (j : Fin C) :
    convK src hit d x W L b c n j = convR src dst hit d x W L b c n j := by
  -- real witnesses for every entry
  choose dr hdr using hd
  choose mW hmW using (mm_real hx hW : ∀ n j, IsReal (mm x W n j))
  choose mL hmL using (mm_real hx hL : ∀ n j, IsReal (mm x L n j))
  choose br hbr using hb
  choose cr hcr using hc
  unfold convK convR
  simp only [hdr, hmW, hmL, hbr, hcr]
  -- both sides are the inclusion of a real
  have hl : ∀ e, ((mW (src e) j : ℝ) : EReal) * ((dr (src e) : ℝ) : EReal) = ((mW (src e) j * dr (src e) : ℝ) : EReal) :=
    fun e => (EReal.coe_mul _ _).symm
  have hr : ∀ e, (((dr (src e) : ℝ) : EReal) * ((dr (dst e) : ℝ) : EReal)) * ((mW (src e) j : ℝ) : EReal)
      = ((dr (src e) * dr (dst e) * mW (src e) j : ℝ) : EReal) :=
    fun e => by rw [EReal.coe_mul, EReal.coe_mul]
  simp only [hl, hr, ← Cert.RealSums.coe_sum, ← EReal.coe_mul, ← EReal.coe_add]
  refine congrArg _ ?_
  -- in the reals: the target's scale is a common factor of the sum
  have hs : ∑ e ∈ into hit n, dr (src e) * dr (dst e) * mW (src e) j
      = dr n * ∑ e ∈ into hit n, mW (src e) j * dr (src e) := by
    rw [Finset.mul_sum]
    refine Finset.sum_congr rfl fun e he => ?_
    have hde : dst e = n := hdst e n (Finset.mem_filter.mp he).2
    rw [hde]
    ring
  rw [hs]
  ring

/-- Pooling through a 0/1 selector is the sum over the selected nodes (0 · v = 0 and 1 · v = v for every extended real v). -/
theorem pool_eq (sel : Fin N → Fin G → EReal) (ghit : Fin N → Fin G → Prop) [∀ n g, Decidable (ghit n g)]
    (hsel : ∀ n g, sel n g = if ghit n g then 1 else 0) (h : Fin N → Fin C → EReal) (g : Fin G) (f : Fin C) :
    poolK sel h g f = poolR ghit h g f := by
  unfold poolK poolR
  rw [Finset.sum_filter]
  refine Finset.sum_congr rfl fun n _ => ?_
  rw [hsel n g]
  by_cases hg : ghit n g
  · rw [if_pos hg, if_pos hg, one_mul]
  · rw [if_neg hg, if_neg hg, zero_mul]

/-- The two programs' results agree. -/
theorem out_eq {K1 C1 C2 : Nat} (src dst : Fin E → Fin N) (hit : Fin E → Fin N → Prop) [∀ e n, Decidable (hit e n)]
    (hdst : ∀ e n, hit e n → dst e = n)
    (sel : Fin N → Fin G → EReal) (ghit : Fin N → Fin G → Prop) [∀ n g, Decidable (ghit n g)]
    (hsel : ∀ n g, sel n g = if ghit n g then 1 else 0)
    {d : Fin N → EReal} {x : Fin N → Fin K1 → EReal}
    {W1 L1 : Fin K1 → Fin C1 → EReal} {b1 c1 : Fin C1 → EReal} {W2 L2 : Fin C1 → Fin C2 → EReal} {b2 c2 : Fin C2 → EReal}
    (wh : Fin C2 → EReal) (bh : EReal)
    (hd : ∀ n, IsReal (d n)) (hx : ∀ n k, IsReal (x n k))
    (hW1 : ∀ k j, IsReal (W1 k j)) (hL1 : ∀ k j, IsReal (L1 k j)) (hb1 : ∀ j, IsReal (b1 j)) (hc1 : ∀ j, IsReal (c1 j))
    (hW2 : ∀ k j, IsReal (W2 k j)) (hL2 : ∀ k j, IsReal (L2 k j)) (hb2 : ∀ j, IsReal (b2 j)) (hc2 : ∀ j, IsReal (c2 j))
    (g : Fin G) :
    outK src hit sel d x W1 L1 b1 c1 W2 L2 b2 c2 wh bh g = outR src dst hit ghit d x W1 L1 b1 c1 W2 L2 b2 c2 wh bh g := by
  -- the rectified first layer agrees entrywise and is real
  have h1 : (fun n j => relu (convK src hit d x W1 L1 b1 c1 n j))
      = (fun n j => relu (convR src dst hit d x W1 L1 b1 c1 n j)) := by
    funext n j
    rw [conv_eq src dst hit hdst hd hx hW1 hL1 hb1 hc1 n j]
  have hx2 : ∀ n k, IsReal ((fun n j => relu (convK src hit d x W1 L1 b1 c1 n j)) n k) :=
    fun n k => relu_real (convK_real src hit hd hx hW1 hL1 hb1 hc1 n k)
  -- so the second layer agrees entrywise
  have h2 : convK src hit d (fun n j => relu (convK src hit d x W1 L1 b1 c1 n j)) W2 L2 b2 c2
      = convR src dst hit d (fun n j => relu (convR src dst hit d x W1 L1 b1 c1 n j)) W2 L2 b2 c2 := by
    funext n j
    rw [conv_eq src dst hit hdst hd hx2 hW2 hL2 hb2 hc2 n j, h1]
  unfold outK outR head
  rw [h2]
  congr 1
  refine Finset.sum_congr rfl fun f _ => ?_
  rw [pool_eq sel ghit hsel]

end Cert.Spec

end
-- ==== Proof.Finite.lean ====
/-
  The precondition, decoded: every float argument array is all real.

  The precondition is a single bit. For each of the eleven float argument arrays x it forms, entry by entry, the
  truth value of |x i| < +∞ (the absolute value is max (x i) (-(x i)) on the extended reals, the bound is the
  f32 pattern of +∞), takes the conjunction of those truth values over all entries of the array, and then the
  conjunction of the eleven results. The claim's hypothesis says that bit is 1.

  A conjunction of bits is 1 exactly when each conjunct is 1, so each array's conjunction is 1, so each entry's
  comparison is 1, so |x i| < ⊤. Of the three kinds of extended real (⊥, a real, ⊤) only a real has
  max x (-x) < ⊤: at either infinity the maximum is ⊤. Hence every entry of every float argument is a real.
-/
import proofs.«422353_j75677323755530_3_alg».proof.Proof.Spec
import proofs.«422353_j75677323755530_3_alg».proof.Defs
import Idealize.ShloMosaic.Lib.ReduceAll
import Idealize.ShloMosaic.Lib.ValueIdx
import Idealize.ShloMosaic.PureOps.Ideal
import Mathlib.Data.EReal.Basic

noncomputable section

namespace Cert.Bridge

open Idealize.ShloMosaic

/-- The shape of rank zero has exactly one index: there is no axis to give a coordinate on. -/
instance scalarIdx_subsingleton : Subsingleton Cert.Pre_finite_inputs.S_.Idx :=
  ⟨fun a b => funext fun d => d.elim0⟩

/-- The f32 pattern with all exponent bits set and a zero significand denotes +∞. -/
theorem ofBits_inf_f32 : Ideal.ofBits .f32 0x7F800000#32 = (⊤ : EReal) := by
  simp [Ideal.ofBits, Ideal.ieee]

/-- One value: if the comparison |x| < +∞ came out 1 then x is a real. At ⊥ and at ⊤ the absolute value
    max x (-x) is ⊤, which is not below ⊤. -/
theorem isReal_of_abs_lt_inf (x : EReal)
    (h : Ideal.cmp .olt (max x (-x)) (Ideal.ofBits .f32 0x7F800000#32) = 1#1) : Cert.Spec.IsReal x := by
  rw [ofBits_inf_f32] at h
  induction x using EReal.rec with
  | bot => simp [Ideal.cmp] at h
  | coe r => exact ⟨r, rfl⟩
  | top => simp [Ideal.cmp] at h

/-- One array of any shape: if the conjunction over all entries of |x i| < +∞ (the bound being the scalar +∞
    repeated along every axis) is 1 at the one index of the scalar result, then every entry of x is a real. -/
theorem isReal_of_all {s u : Shape} {axes : List (Fin s.rank)} (x : FVec Ideal s .f32)
    (hb : Cert.Pre_finite_inputs.S_.BroadcastsInDim s (![] : Fin 0 → Fin s.rank))
    (init : u.Idx → BitVec 1) (hred : s.ReducesTo axes Cert.Pre_finite_inputs.S_) (hu : 0 < u.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        init hred hu j = 1#1)
    (i : s.Idx) : Cert.Spec.IsReal (x i) :=
  isReal_of_abs_lt_inf (x i) (Host.reduce_andi_all _ init hred hu j e i)

open Idealize.SL.Sem in
/-- Under the precondition every entry of each of the eleven float argument arrays is a real, on every device.
    The hypothesis read at the one scalar index is a left-nested conjunction of eleven bits; each is 1, and each
    is the conjunction over one array. -/
theorem real_of_pre (hF : Cert.Pre_finite_inputs.Facts)
    (m : (ℓ : Loc Cert.KernelIdeal.nD Cert.KernelIdeal.τ Cert.KernelIdeal.sig) → Buf (Elt Ideal) ℓ)
    (h : @Cert.Pre_KernelIdeal hF m) (c : Dev Cert.KernelIdeal.nD) :
    (∀ i, Cert.Spec.IsReal ((m ((c.tc : Thread Cert.KernelIdeal.nD Cert.KernelIdeal.τ).loc Cert.KernelIdeal.main_arg0) : Cert.KernelIdeal.S50000x128.Idx → EReal) i))
    ∧ (∀ i, Cert.Spec.IsReal ((m ((c.tc : Thread Cert.KernelIdeal.nD Cert.KernelIdeal.τ).loc Cert.KernelIdeal.main_arg3) : Cert.KernelIdeal.S128x128.Idx → EReal) i))
    ∧ (∀ i, Cert.Spec.IsReal ((m ((c.tc : Thread Cert.KernelIdeal.nD Cert.KernelIdeal.τ).loc Cert.KernelIdeal.main_arg4) : Cert.KernelIdeal.S128.Idx → EReal) i))
    ∧ (∀ i, Cert.Spec.IsReal ((m ((c.tc : Thread Cert.KernelIdeal.nD Cert.KernelIdeal.τ).loc Cert.KernelIdeal.main_arg5) : Cert.KernelIdeal.S128x128.Idx → EReal) i))
    ∧ (∀ i, Cert.Spec.IsReal ((m ((c.tc : Thread Cert.KernelIdeal.nD Cert.KernelIdeal.τ).loc Cert.KernelIdeal.main_arg6) : Cert.KernelIdeal.S128.Idx → EReal) i))
    ∧ (∀ i, Cert.Spec.IsReal ((m ((c.tc : Thread Cert.KernelIdeal.nD Cert.KernelIdeal.τ).loc Cert.KernelIdeal.main_arg7) : Cert.KernelIdeal.S128x64.Idx → EReal) i))
    ∧ (∀ i, Cert.Spec.IsReal ((m ((c.tc : Thread Cert.KernelIdeal.nD Cert.KernelIdeal.τ).loc Cert.KernelIdeal.main_arg8) : Cert.KernelIdeal.S64.Idx → EReal) i))
    ∧ (∀ i, Cert.Spec.IsReal ((m ((c.tc : Thread Cert.KernelIdeal.nD Cert.KernelIdeal.τ).loc Cert.KernelIdeal.main_arg9) : Cert.KernelIdeal.S128x64.Idx → EReal) i))
    ∧ (∀ i, Cert.Spec.IsReal ((m ((c.tc : Thread Cert.KernelIdeal.nD Cert.KernelIdeal.τ).loc Cert.KernelIdeal.main_arg10) : Cert.KernelIdeal.S64.Idx → EReal) i))
    ∧ (∀ i, Cert.Spec.IsReal ((m ((c.tc : Thread Cert.KernelIdeal.nD Cert.KernelIdeal.τ).loc Cert.KernelIdeal.main_arg11) : Cert.KernelIdeal.S64x1.Idx → EReal) i))
    ∧ (∀ i, Cert.Spec.IsReal ((m ((c.tc : Thread Cert.KernelIdeal.nD Cert.KernelIdeal.τ).loc Cert.KernelIdeal.main_arg12) : Cert.KernelIdeal.S1.Idx → EReal) i)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  simp only [andi, IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨isReal_of_all _ _ _ _ _ _ e0, isReal_of_all _ _ _ _ _ _ e3, isReal_of_all _ _ _ _ _ _ e4,
    isReal_of_all _ _ _ _ _ _ e5, isReal_of_all _ _ _ _ _ _ e6, isReal_of_all _ _ _ _ _ _ e7,
    isReal_of_all _ _ _ _ _ _ e8, isReal_of_all _ _ _ _ _ _ e9, isReal_of_all _ _ _ _ _ _ e10,
    isReal_of_all _ _ _ _ _ _ e11, isReal_of_all _ _ _ _ _ _ e12⟩

end Cert.Bridge

end
-- ==== Proof.lean ====
/-
  The certificate: a two-layer graph convolution with a linear skip path, group-sum pooling and a linear head,
  computed by three tiled kernels with gathers and scatter-adds between them, against the plain reference.

  The frames: each of the three kernel regions runs through its grid with the pipeline's windows (the third carries
  its accumulator in a scratch buffer between points and writes its one output block back at the last point);
  between the regions the host operations write only their own results; no argument array is ever written.
  The value: at every group g both programs end at one function of the arguments. The kernel program scales each
  node's projected row by the node's degree scale before the rows travel along the edges and scales the collected sum
  again at the target; the reference puts the product of the two scales on each edge. An edge that adds into node n
  reads, as an array index, node n, so the second scale is a common factor of a finite sum; under the precondition
  every number involved is a real, and a common factor of a finite sum of reals may be taken out. The group sums are
  taken once through a 0/1 selector and once over the selected nodes, which agree because 0 · v = 0 and 1 · v = v.
-/
import proofs.«422353_j75677323755530_3_alg».proof.Defs
import proofs.«422353_j75677323755530_3_alg».proof.Proof.Gen.Kernel
import proofs.«422353_j75677323755530_3_alg».proof.Proof.Gen.KernelIdeal
import proofs.«422353_j75677323755530_3_alg».proof.Proof.Gen.ReferenceIdeal
import proofs.«422353_j75677323755530_3_alg».proof.Proof.Gen.Pre_finite_inputs
import proofs.«422353_j75677323755530_3_alg».proof.Proof.KiRun
import proofs.«422353_j75677323755530_3_alg».proof.Proof.KiResult
import proofs.«422353_j75677323755530_3_alg».proof.Proof.RefGen
import proofs.«422353_j75677323755530_3_alg».proof.Proof.RefValue
import proofs.«422353_j75677323755530_3_alg».proof.Proof.SpecLaws
import proofs.«422353_j75677323755530_3_alg».proof.Proof.Finite
import proofs.«422353_j75677323755530_3_alg».proof.Proof.KbRun
import Idealize.ShloMosaic.Adequacy
import Idealize.ShloMosaic.Init

noncomputable section

namespace Cert.Proof

open Idealize.ShloMosaic Idealize.ShloMosaic.ValueIdx Idealize.ShloMosaic.TcCoe Idealize.SL.Sem Cert.Bridge

/-- The word-level kernel program runs to the end and leaves its arguments as launched. -/
theorem frame_kernel : Cert.frame_Kernel := fun m ρ _ => Cert.Kernel.Reg.frame m ρ

/-- The idealized kernel program runs to the end and leaves its arguments as launched. -/
theorem frame_kernelIdeal : Cert.frame_KernelIdeal := fun m ρ _ => Cert.KernelIdeal.Reg.frame m ρ

/-- The reference runs to the end and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end, with equal results entry by entry. -/
theorem algebraic : Cert.algebraic_KernelIdeal_ReferenceIdeal := by
  intro m ρ m' ρ' hpre hagree
  refine ⟨fun c => Cert.KernelIdeal.Gen.V11 m (Cert.KernelIdeal.Reg.outs m) c Cert.KernelIdeal.main_v48, ?_, ?_⟩
  · refine (θ_run Cert.KernelIdeal.defs _ _).mono (fun r h c => ?_) (Cert.KernelIdeal.Reg.run_all m ρ)
    exact ⟨h c (Proc.devRef .tc Cert.KernelIdeal.main_v48) (Finset.mem_filter.mpr ⟨StableHlo.devRef_mem_tcRefs Cert.KernelIdeal.main_v48, by decide⟩),
      (h c (Proc.devRef .tc Cert.KernelIdeal.main_arg0) (Finset.mem_filter.mpr ⟨StableHlo.devRef_mem_tcRefs Cert.KernelIdeal.main_arg0, by decide⟩)).trans (Cert.KernelIdeal.Gen.V11_main_arg0 m (Cert.KernelIdeal.Reg.outs m) c),
      (h c (Proc.devRef .tc Cert.KernelIdeal.main_arg1) (Finset.mem_filter.mpr ⟨StableHlo.devRef_mem_tcRefs Cert.KernelIdeal.main_arg1, by decide⟩)).trans (Cert.KernelIdeal.Gen.V11_main_arg1 m (Cert.KernelIdeal.Reg.outs m) c),
      (h c (Proc.devRef .tc Cert.KernelIdeal.main_arg2) (Finset.mem_filter.mpr ⟨StableHlo.devRef_mem_tcRefs Cert.KernelIdeal.main_arg2, by decide⟩)).trans (Cert.KernelIdeal.Gen.V11_main_arg2 m (Cert.KernelIdeal.Reg.outs m) c),
      (h c (Proc.devRef .tc Cert.KernelIdeal.main_arg3) (Finset.mem_filter.mpr ⟨StableHlo.devRef_mem_tcRefs Cert.KernelIdeal.main_arg3, by decide⟩)).trans (Cert.KernelIdeal.Gen.V11_main_arg3 m (Cert.KernelIdeal.Reg.outs m) c),
      (h c (Proc.devRef .tc Cert.KernelIdeal.main_arg4) (Finset.mem_filter.mpr ⟨StableHlo.devRef_mem_tcRefs Cert.KernelIdeal.main_arg4, by decide⟩)).trans (Cert.KernelIdeal.Gen.V11_main_arg4 m (Cert.KernelIdeal.Reg.outs m) c),
      (h c (Proc.devRef .tc Cert.KernelIdeal.main_arg5) (Finset.mem_filter.mpr ⟨StableHlo.devRef_mem_tcRefs Cert.KernelIdeal.main_arg5, by decide⟩)).trans (Cert.KernelIdeal.Gen.V11_main_arg5 m (Cert.KernelIdeal.Reg.outs m) c),
      (h c (Proc.devRef .tc Cert.KernelIdeal.main_arg6) (Finset.mem_filter.mpr ⟨StableHlo.devRef_mem_tcRefs Cert.KernelIdeal.main_arg6, by decide⟩)).trans (Cert.KernelIdeal.Gen.V11_main_arg6 m (Cert.KernelIdeal.Reg.outs m) c),
      (h c (Proc.devRef .tc Cert.KernelIdeal.main_arg7) (Finset.mem_filter.mpr ⟨StableHlo.devRef_mem_tcRefs Cert.KernelIdeal.main_arg7, by decide⟩)).trans (Cert.KernelIdeal.Gen.V11_main_arg7 m (Cert.KernelIdeal.Reg.outs m) c),
      (h c (Proc.devRef .tc Cert.KernelIdeal.main_arg8) (Finset.mem_filter.mpr ⟨StableHlo.devRef_mem_tcRefs Cert.KernelIdeal.main_arg8, by decide⟩)).trans (Cert.KernelIdeal.Gen.V11_main_arg8 m (Cert.KernelIdeal.Reg.outs m) c),
      (h c (Proc.devRef .tc Cert.KernelIdeal.main_arg9) (Finset.mem_filter.mpr ⟨StableHlo.devRef_mem_tcRefs Cert.KernelIdeal.main_arg9, by decide⟩)).trans (Cert.KernelIdeal.Gen.V11_main_arg9 m (Cert.KernelIdeal.Reg.outs m) c),
      (h c (Proc.devRef .tc Cert.KernelIdeal.main_arg10) (Finset.mem_filter.mpr ⟨StableHlo.devRef_mem_tcRefs Cert.KernelIdeal.main_arg10, by decide⟩)).trans (Cert.KernelIdeal.Gen.V11_main_arg10 m (Cert.KernelIdeal.Reg.outs m) c),
      (h c (Proc.devRef .tc Cert.KernelIdeal.main_arg11) (Finset.mem_filter.mpr ⟨StableHlo.devRef_mem_tcRefs Cert.KernelIdeal.main_arg11, by decide⟩)).trans (Cert.KernelIdeal.Gen.V11_main_arg11 m (Cert.KernelIdeal.Reg.outs m) c),
      (h c (Proc.devRef .tc Cert.KernelIdeal.main_arg12) (Finset.mem_filter.mpr ⟨StableHlo.devRef_mem_tcRefs Cert.KernelIdeal.main_arg12, by decide⟩)).trans (Cert.KernelIdeal.Gen.V11_main_arg12 m (Cert.KernelIdeal.Reg.outs m) c)⟩
  · refine (θ_run Cert.ReferenceIdeal.defs _ _).mono (fun _ h c => ⟨(h c).1.trans ?_, (h c).2⟩)
      (Cert.ReferenceIdeal.Value.run (F := Ideal) m' ρ')
    show (Cert.ReferenceIdeal.Value.res_main_v117 m' c : Cert.ReferenceIdeal.S512.Idx → EReal)
      = (Cert.KernelIdeal.Gen.V11 m (Cert.KernelIdeal.Reg.outs m) c Cert.KernelIdeal.main_v48 : Cert.KernelIdeal.S512.Idx → EReal)
    funext i
    obtain ⟨g, rfl⟩ : ∃ g : Fin 512, i = ix1 g := ⟨i 0, eq_ix1 i⟩
    have hreal := Cert.Bridge.real_of_pre Cert.Pre_finite_inputs.Gen.facts m hpre c
    obtain ⟨hx, hW1, hb1, hL1, hc1, hW2, hb2, hL2, hc2, hwh, hbh⟩ := hreal
    have hk := Cert.KernelIdeal.Val.result_of m c (Cert.KernelIdeal.Reg.outs m)
      (Cert.KernelIdeal.Reg.outs_6_0 m c) (Cert.KernelIdeal.Reg.outs_6_1 m c) (Cert.KernelIdeal.Reg.outs_8_0 m c)
      (Cert.KernelIdeal.Reg.outs_8_1 m c) (Cert.KernelIdeal.Reg.outs_10 m c) g
    have hr := Cert.RefValue.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) g
    rw [Cert.ReferenceIdeal.Read.val_main_v117_eq]
    refine hr.trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    refine Eq.trans ?_ hk.symm
    refine (Cert.Spec.out_eq _ _ _ (fun e n h => dstOf_of_hit _ e n h) _ _ (fun n g => selOf_eq _ n g) _ _
      (fun n => dis_real _ n) (fun n k => hx (ix2 n k)) (fun k j => hW1 (ix2 k j)) (fun k j => hL1 (ix2 k j))
      (fun j => hb1 (ix1 j)) (fun j => hc1 (ix1 j)) (fun k j => hW2 (ix2 k j)) (fun k j => hL2 (ix2 k j))
      (fun j => hb2 (ix1 j)) (fun j => hc2 (ix1 j)) g).symm

/-- The certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
